-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S10000 : Shape := ⟨1, ![10000]⟩
abbrev S640000 : Shape := ⟨1, ![640000]⟩
abbrev S256x128 : Shape := ⟨2, ![256, 128]⟩
abbrev S256 : Shape := ⟨1, ![256]⟩
abbrev S256x256 : Shape := ⟨2, ![256, 256]⟩
abbrev S10x256 : Shape := ⟨2, ![10, 256]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S10x256 : S_.BroadcastsInDim S10x256 (![] : Fin 0 → Fin S10x256.rank)
  reducesTo_S10x256_S_d0_1 : S10x256.ReducesTo [0, 1] S_
  bcast_S_S10 : S_.BroadcastsInDim S10 (![] : Fin 0 → Fin S10.rank)
  reducesTo_S10_S_d0 : S10.ReducesTo [0] S_
  bcast_S_S2x640000 : S_.BroadcastsInDim S2x640000 (![] : Fin 0 → Fin S2x640000.rank)
  reducesTo_S2x640000_S_d0_1 : S2x640000.ReducesTo [0, 1] S_

variable [Facts]

def fn_part3 {F : FTy → Type} [FloatOps F] (main_arg1 : IVec S2x640000 32) (main_v48 : IVec S_ 1) (main_v50 : IVec S2x640000 1) : IVec S_ 1 :=
  let main_c_19 : IVec S_ 32 := constantI S_ 32 10000#32
  let main_v51 : IVec S2x640000 32 := broadcastInDim S2x640000 ![] bcast_S_S2x640000 main_c_19
  let main_v52 : IVec S2x640000 1 := cmpi .slt main_arg1 main_v51
  let main_v53 : IVec S2x640000 1 := andi main_v50 main_v52
  let main_c_20 : IVec S_ 1 := constantI S_ 1 1#1
  let main_v54 : IVec S_ 1 := (fun x v => Host.reduce IntOp.andi x v reducesTo_S2x640000_S_d0_1 h_S_) main_v53 main_c_20
  let main_v55 : IVec S_ 1 := andi main_v48 main_v54
  main_v55

def fn_part2 {F : FTy → Type} [FloatOps F] (main_arg1 : IVec S2x640000 32) (main_arg9 : FVec F S256 .f32) (main_arg10 : FVec F S10x256 .f32) (main_arg11 : FVec F S10 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S10x256 .f32 := Host.absf main_arg10
  let main_cst_14 : FVec F S_ .f32 := constant S_ .f32 0x7F800000#32
  let main_v40 : FVec F S10x256 .f32 := broadcastInDim S10x256 ![] bcast_S_S10x256 main_cst_14
  let main_v41 : IVec S10x256 1 := cmpf .olt main_v39 main_v40
  let main_c_15 : IVec S_ 1 := constantI S_ 1 1#1
  let main_v42 : IVec S_ 1 := (fun x v => Host.reduce IntOp.andi x v reducesTo_S10x256_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_c_18 : IVec S_ 32 := constantI S_ 32 0#32
  let main_v49 : IVec S2x640000 32 := broadcastInDim S2x640000 ![] bcast_S_S2x640000 main_c_18
  let main_v50 : IVec S2x640000 1 := cmpi .sge main_arg1 main_v49
  fn_part3 (F := F) main_arg1 main_v48 main_v50

def fn_part1 {F : FTy → Type} [FloatOps F] (main_arg1 : IVec S2x640000 32) (main_arg6 : FVec F S256x256 .f32) (main_arg7 : FVec F S256 .f32) (main_arg8 : FVec F S256x256 .f32) (main_arg9 : FVec F S256 .f32) (main_arg10 : FVec F S10x256 .f32) (main_arg11 : FVec F S10 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg1 main_arg9 main_arg10 main_arg11 main_v33

def fn {F : FTy → Type} [FloatOps F] (main_arg0 : FVec F S10000x128 .f32) (main_arg1 : IVec S2x640000 32) (main_arg2 : IVec S10000 32) (main_arg3 : FVec F S640000 .f32) (main_arg4 : FVec F S256x128 .f32) (main_arg5 : FVec F S256 .f32) (main_arg6 : FVec F S256x256 .f32) (main_arg7 : FVec F S256 .f32) (main_arg8 : FVec F S256x256 .f32) (main_arg9 : FVec F S256 .f32) (main_arg10 : FVec F S10x256 .f32) (main_arg11 : FVec F S10 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000 .f32 := Host.absf main_arg3
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg6 main_arg7 main_arg8 main_arg9 main_arg10 main_arg11 main_v13 main_v16
-- ==== Kernel.lean ====
abbrev S10000x128 : Shape := ⟨2, ![10000, 128]⟩
abbrev S2x640000 : Shape := ⟨2, ![2, 640000]⟩
abbrev S10000 : Shape := ⟨1, ![10000]⟩
abbrev S640000 : Shape := ⟨1, ![640000]⟩
abbrev S256x128 : Shape := ⟨2, ![256, 128]⟩
abbrev S256 : Shape := ⟨1, ![256]⟩
abbrev S256x256 : Shape := ⟨2, ![256, 256]⟩
abbrev S10x256 : Shape := ⟨2, ![10, 256]⟩
abbrev S10 : Shape := ⟨1, ![10]⟩
abbrev S1x640000 : Shape := ⟨2, ![1, 640000]⟩
abbrev S_ : Shape := ⟨0, ![]⟩
abbrev S104857600 : Shape := ⟨1, ![104857600]⟩
abbrev S640000x1 : Shape := ⟨2, ![640000, 1]⟩
abbrev S10240x10240 : Shape := ⟨2, ![10240, 10240]⟩
abbrev S10240x128 : Shape := ⟨2, ![10240, 128]⟩
abbrev S128x256 : Shape := ⟨2, ![128, 256]⟩
abbrev S1x256 : Shape := ⟨2, ![1, 256]⟩
abbrev S10240x256 : Shape := ⟨2, ![10240, 256]⟩
abbrev S1024x10240 : Shape := ⟨2, ![1024, 10240]⟩
abbrev S1024x128 : Shape := ⟨2, ![1024, 128]⟩
abbrev S1024x256 : Shape := ⟨2, ![1024, 256]⟩
abbrev S10000x256 : Shape := ⟨2, ![10000, 256]⟩
abbrev S64x256 : Shape := ⟨2, ![64, 256]⟩
abbrev S10000x1 : Shape := ⟨2, ![10000, 1]⟩
abbrev S64 : Shape := ⟨1, ![64]⟩
abbrev S64x1 : Shape := ⟨2, ![64, 1]⟩
abbrev S256x10 : Shape := ⟨2, ![256, 10]⟩
abbrev S64x10 : Shape := ⟨2, ![64, 10]⟩
abbrev S1x10 : Shape := ⟨2, ![1, 10]⟩

abbrev nBuf : Space → Nat
  | .hbm => 71
  | .vmem => 33
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S10000, .i32⟩
  | .hbm, ⟨3, _⟩ => ⟨S640000, .f32⟩
  | .hbm, ⟨4, _⟩ => ⟨S256x128, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S10x256, .f32⟩
  | .hbm, ⟨11, _⟩ => ⟨S10, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S_, .f32⟩
  | .hbm, ⟨21, _⟩ => ⟨S104857600, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S104857600, .f32⟩
  | .hbm, ⟨31, _⟩ => ⟨S10240x10240, .f32⟩
  | .hbm, ⟨32, _⟩ => ⟨S10240x10240, .bf16⟩
  | .hbm, ⟨33, _⟩ => ⟨S_, .i32⟩
  | .hbm, ⟨34, _⟩ => ⟨S_, .f32⟩
  | .hbm, ⟨35, _⟩ => ⟨S10240x128, .f32⟩
  | .hbm, ⟨36, _⟩ => ⟨S10240x128, .bf16⟩
  | .hbm, ⟨37, _⟩ => ⟨S128x256, .f32⟩
  | .hbm, ⟨38, _⟩ => ⟨S256x256, .f32⟩
  | .hbm, ⟨39, _⟩ => ⟨S256x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S10240x256, .f32⟩
  | .hbm, ⟨44, _⟩ => ⟨S10240x256, .bf16⟩
  | .hbm, ⟨45, _⟩ => ⟨S10240x256, .f32⟩
  | .hbm, ⟨46, _⟩ => ⟨S10240x256, .bf16⟩
  | .hbm, ⟨47, _⟩ => ⟨S10240x256, .f32⟩
  | .hbm, ⟨48, _⟩ => ⟨S10240x256, .bf16⟩
  | .hbm, ⟨49, _⟩ => ⟨S10000x256, .f32⟩
  | .hbm, ⟨50, _⟩ => ⟨S_, .f32⟩
  | .hbm, ⟨51, _⟩ => ⟨S64x256, .f32⟩
  | .hbm, ⟨52, _⟩ => ⟨S10000x1, .i32⟩
  | .hbm, ⟨53, _⟩ => ⟨S64x256, .f32⟩
  | .hbm, ⟨54, _⟩ => ⟨S_, .f32⟩
  | .hbm, ⟨55, _⟩ => ⟨S10000, .f32⟩
  | .hbm, ⟨56, _⟩ => ⟨S_, .f32⟩
  | .hbm, ⟨57, _⟩ => ⟨S64, .f32⟩
  | .hbm, ⟨58, _⟩ => ⟨S10000x1, .i32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S64x1, .f32⟩
  | .hbm, ⟨64, _⟩ => ⟨S64x256, .f32⟩
  | .hbm, ⟨65, _⟩ => ⟨S64x256, .f32⟩
  | .hbm, ⟨66, _⟩ => ⟨S256x10, .f32⟩
  | .hbm, ⟨67, _⟩ => ⟨S64x10, .f32⟩
  | .hbm, ⟨68, _⟩ => ⟨S1x10, .f32⟩
  | .hbm, ⟨69, _⟩ => ⟨S64x10, .f32⟩
  | .hbm, ⟨70, _⟩ => ⟨S64x10, .f32⟩
  | .local _ .vmem, ⟨0, _⟩ => ⟨S1024x10240, .bf16⟩
  | .local _ .vmem, ⟨1, _⟩ => ⟨S1024x10240, .bf16⟩
  | .local _ .vmem, ⟨2, _⟩ => ⟨S10240x128, .bf16⟩
  | .local _ .vmem, ⟨3, _⟩ => ⟨S1024x128, .f32⟩
  | .local _ .vmem, ⟨4, _⟩ => ⟨S1024x128, .f32⟩
  | .local _ .vmem, ⟨5, _⟩ => ⟨S128x256, .f32⟩
  | .local _ .vmem, ⟨6, _⟩ => ⟨S1x256, .f32⟩
  | .local _ .vmem, ⟨7, _⟩ => ⟨S1024x256, .f32⟩
  | .local _ .vmem, ⟨8, _⟩ => ⟨S1024x256, .f32⟩
  | .local _ .vmem, ⟨9, _⟩ => ⟨S1024x256, .bf16⟩
  | .local _ .vmem, ⟨10, _⟩ => ⟨S1024x256, .bf16⟩
  | .local _ .vmem, ⟨11, _⟩ => ⟨S1024x10240, .bf16⟩
  | .local _ .vmem, ⟨12, _⟩ => ⟨S1024x10240, .bf16⟩
  | .local _ .vmem, ⟨13, _⟩ => ⟨S10240x256, .bf16⟩
  | .local _ .vmem, ⟨14, _⟩ => ⟨S1024x256, .f32⟩
  | .local _ .vmem, ⟨15, _⟩ => ⟨S1024x256, .f32⟩
  | .local _ .vmem, ⟨16, _⟩ => ⟨S256x256, .f32⟩
  | .local _ .vmem, ⟨17, _⟩ => ⟨S1x256, .f32⟩
  | .local _ .vmem, ⟨18, _⟩ => ⟨S1024x256, .f32⟩
  | .local _ .vmem, ⟨19, _⟩ => ⟨S1024x256, .f32⟩
  | .local _ .vmem, ⟨20, _⟩ => ⟨S1024x256, .bf16⟩
  | .local _ .vmem, ⟨21, _⟩ => ⟨S1024x256, .bf16⟩
  | .local _ .vmem, ⟨22, _⟩ => ⟨S1024x10240, .bf16⟩
  | .local _ .vmem, ⟨23, _⟩ => ⟨S1024x10240, .bf16⟩
  | .local _ .vmem, ⟨24, _⟩ => ⟨S10240x256, .bf16⟩
  | .local _ .vmem, ⟨25, _⟩ => ⟨S1024x256, .f32⟩
  | .local _ .vmem, ⟨26, _⟩ => ⟨S1024x256, .f32⟩
  | .local _ .vmem, ⟨27, _⟩ => ⟨S256x256, .f32⟩
  | .local _ .vmem, ⟨28, _⟩ => ⟨S1x256, .f32⟩
  | .local _ .vmem, ⟨29, _⟩ => ⟨S1024x256, .f32⟩
  | .local _ .vmem, ⟨30, _⟩ => ⟨S1024x256, .f32⟩
  | .local _ .vmem, ⟨31, _⟩ => ⟨S1024x256, .bf16⟩
  | .local _ .vmem, ⟨32, _⟩ => ⟨S1024x256, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_call0_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev main_v26_0 : Ref sig .tc := ⟨.hbm, 45, rfl⟩
abbrev main_v26_1 : Ref sig .tc := ⟨.hbm, 46, rfl⟩
abbrev main_v27_0 : Ref sig .tc := ⟨.hbm, 47, rfl⟩
abbrev main_v27_1 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10240x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x10240 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10240x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x10240 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10240x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1024x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S104857600 : S_.BroadcastsInDim S104857600 (![] : Fin 0 → Fin S104857600.rank)
  bcast_S640000_S640000x1_0 : S640000.BroadcastsInDim S640000x1 (![0] : Fin 1 → Fin S640000x1.rank)
  shapeCasts_S104857600_S10240x10240 : S104857600.ShapeCasts S10240x10240
  bitsLt_bf16_f32 : FTy.bits .bf16 < FTy.bits .f32
  pads_S10000x128_S10240x128_02400_000 : S10000x128.Pads (![0, 0] : Fin 2 → Nat) ![240, 0] ![0, 0] S10240x128
  h_S_ : 0 < S_.numel
  transposes_S256x128_S128x256_1_0 : S256x128.Transposes [1, 0] S128x256
  transposes_S256x256_S256x256_1_0 : S256x256.Transposes [1, 0] S256x256
  shapeCasts_S256_S1x256 : S256.ShapeCasts S1x256
  inb_S1024x10240_S1024x10240_0_0 : ∀ a, (![0, 0] : Fin 2 → Nat) a + S1024x10240.size a ≤ S1024x10240.size a
  h_S1024x10240 : 0 < S1024x10240.numel
  shapeCasts_S1024x10240_S1024x10240 : S1024x10240.ShapeCasts S1024x10240
  inb_S10240x128_S10240x128_0_0 : ∀ a, (![0, 0] : Fin 2 → Nat) a + S10240x128.size a ≤ S10240x128.size a
  h_S10240x128 : 0 < S10240x128.numel
  shapeCasts_S10240x128_S10240x128 : S10240x128.ShapeCasts S10240x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S10240x256_S10240x256_0_0 : ∀ a, (![0, 0] : Fin 2 → Nat) a + S10240x256.size a ≤ S10240x256.size a
  h_S10240x256 : 0 < S10240x256.numel
  shapeCasts_S10240x256_S10240x256 : S10240x256.ShapeCasts S10240x256
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S10240x256_S10000x256_0_0 : S10240x256.Slices ![0, 0] S10000x256
  bcast_S_S64x256 : S_.BroadcastsInDim S64x256 (![] : Fin 0 → Fin S64x256.rank)
  bcast_S10000_S10000x1_0 : S10000.BroadcastsInDim S10000x1 (![0] : Fin 1 → Fin S10000x1.rank)
  bcast_S_S10000 : S_.BroadcastsInDim S10000 (![] : Fin 0 → Fin S10000.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  transposes_S10x256_S256x10_1_0 : S10x256.Transposes [1, 0] S256x10
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S104857600_S640000x1_S640000_n_0_0_1_wf : ScatterDims.WF S104857600 S640000x1 S640000 [] [0] [0] 1
  dot_S1024x10240_S10240x128_S1024x128_1_0_0_1_n_n_wf : DotDims.WF S1024x10240 S10240x128 S1024x128 [1] [0] [0] [1] [] []
  dot_S1024x128_S128x256_S1024x256_1_0_0_1_n_n_wf : DotDims.WF S1024x128 S128x256 S1024x256 [1] [0] [0] [1] [] []
  dot_S1024x10240_S10240x256_S1024x256_1_0_0_1_n_n_wf : DotDims.WF S1024x10240 S10240x256 S1024x256 [1] [0] [0] [1] [] []
  dot_S1024x256_S256x256_S1024x256_1_0_0_1_n_n_wf : DotDims.WF S1024x256 S256x256 S1024x256 [1] [0] [0] [1] [] []
  scatter_S64x256_S10000x1_S10000x256_1_0_0_1_wf : ScatterDims.WF S64x256 S10000x1 S10000x256 [1] [0] [0] 1
  scatter_S64_S10000x1_S10000_n_0_0_1_wf : ScatterDims.WF S64 S10000x1 S10000 [] [0] [0] 1
  dot_S64x256_S256x10_S64x10_1_0_0_1_n_n_wf : DotDims.WF S64x256 S256x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x10240.size a ≤ S10240x10240.size a
  hwx0_0 : ∀ i : grid0.Coords, EltTy.bits .bf16 = 32 ∨ (Rect.block (s := S10240x10240) S1024x10240.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x128.size a ≤ S10240x128.size a
  hwx0_1 : ∀ i : grid0.Coords, EltTy.bits .bf16 = 32 ∨ (Rect.block (s := S10240x128) S10240x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S10240x128.size a
  hwx0_2 : ∀ i : grid0.Coords, EltTy.bits .f32 = 32 ∨ (Rect.block (s := S10240x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S10240x256.size a
  hwx0_5 : ∀ i : grid0.Coords, EltTy.bits .f32 = 32 ∨ (Rect.block (s := S10240x256) S1024x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S10240x256.size a
  hwx0_6 : ∀ i : grid0.Coords, EltTy.bits .bf16 = 32 ∨ (Rect.block (s := S10240x256) S1024x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x10240.size a ≤ S10240x10240.size a
  hwx1_0 : ∀ i : grid1.Coords, EltTy.bits .bf16 = 32 ∨ (Rect.block (s := S10240x10240) S1024x10240.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x256.size a ≤ S10240x256.size a
  hwx1_1 : ∀ i : grid1.Coords, EltTy.bits .bf16 = 32 ∨ (Rect.block (s := S10240x256) S10240x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S10240x256.size a
  hwx1_2 : ∀ i : grid1.Coords, EltTy.bits .f32 = 32 ∨ (Rect.block (s := S10240x256) S1024x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S10240x256.size a
  hwx1_5 : ∀ i : grid1.Coords, EltTy.bits .f32 = 32 ∨ (Rect.block (s := S10240x256) S1024x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x256.size a ≤ S10240x256.size a
  hwx1_6 : ∀ i : grid1.Coords, EltTy.bits .bf16 = 32 ∨ (Rect.block (s := S10240x256) S1024x256.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x10240.size a ≤ S10240x10240.size a
  hwx2_0 : ∀ i : grid2.Coords, EltTy.bits .bf16 = 32 ∨ (Rect.block (s := S10240x10240) S1024x10240.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10240x256.size a ≤ S10240x256.size a
  hwx2_1 : ∀ i : grid2.Coords, EltTy.bits .bf16 = 32 ∨ (Rect.block (s := S10240x256) S10240x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S10240x256.size a
  hwx2_2 : ∀ i : grid2.Coords, EltTy.bits .f32 = 32 ∨ (Rect.block (s := S10240x256) S1024x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x256.size a ≤ S10240x256.size a
  hwx2_5 : ∀ i : grid2.Coords, EltTy.bits .f32 = 32 ∨ (Rect.block (s := S10240x256) S1024x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x256.size a ≤ S10240x256.size a
  hwx2_6 : ∀ i : grid2.Coords, EltTy.bits .bf16 = 32 ∨ (Rect.block (s := S10240x256) S1024x256.size (cc2_transform_6 i) (hinb2_6 i)).WholeWords (EltTy.packing .bf16)

variable [Facts₀]

def scatter_S104857600_S640000x1_S640000_n_0_0_1 : ScatterDims S104857600 S640000x1 S640000 where
  updateWindowDims := []
  insertedWindowDims := [0]
  scatterDimsToOperandDims := [0]
  indexVectorDim := 1
  wf := scatter_S104857600_S640000x1_S640000_n_0_0_1_wf
def dot_S1024x10240_S10240x128_S1024x128_1_0_0_1_n_n : DotDims S1024x10240 S10240x128 S1024x128 where
  lhsContracting := [1]
  rhsContracting := [0]
  lhsNonContracting := [0]
  rhsNonContracting := [1]
  lhsBatch := []
  rhsBatch := []
  wf := dot_S1024x10240_S10240x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x10240_S10240x256_S1024x256_1_0_0_1_n_n : DotDims S1024x10240 S10240x256 S1024x256 where
  lhsContracting := [1]
  rhsContracting := [0]
  lhsNonContracting := [0]
  rhsNonContracting := [1]
  lhsBatch := []
  rhsBatch := []
  wf := dot_S1024x10240_S10240x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def scatter_S64x256_S10000x1_S10000x256_1_0_0_1 : ScatterDims S64x256 S10000x1 S10000x256 where
  updateWindowDims := [1]
  insertedWindowDims := [0]
  scatterDimsToOperandDims := [0]
  indexVectorDim := 1
  wf := scatter_S64x256_S10000x1_S10000x256_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

abbrev win0_0 : Pipeline.Window sig grid0 :=
  Pipeline.Window.ofSpec (Memref.whole main_v16) S1024x10240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10240x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25_0) S1024x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v25_1) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S1024x10240.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25_1) S10240x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25_0) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26_0) S1024x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v26_1) S1024x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v16) S1024x10240.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26_1) S10240x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26_0) S1024x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27_0) S1024x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v27_1) S1024x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S10000 : Shape := ⟨1, ![10000]⟩
abbrev S640000 : Shape := ⟨1, ![640000]⟩
abbrev S256x128 : Shape := ⟨2, ![256, 128]⟩
abbrev S256 : Shape := ⟨1, ![256]⟩
abbrev S256x256 : Shape := ⟨2, ![256, 256]⟩
abbrev S10x256 : Shape := ⟨2, ![10, 256]⟩
abbrev S10 : Shape := ⟨1, ![10]⟩
abbrev S1x640000 : Shape := ⟨2, ![1, 640000]⟩
abbrev S640000x1 : Shape := ⟨2, ![640000, 1]⟩
abbrev S_ : Shape := ⟨0, ![]⟩
abbrev S640000x128 : Shape := ⟨2, ![640000, 128]⟩
abbrev S128x256 : Shape := ⟨2, ![128, 256]⟩
abbrev S10000x256 : Shape := ⟨2, ![10000, 256]⟩
abbrev S1x256 : Shape := ⟨2, ![1, 256]⟩
abbrev S640000x256 : Shape := ⟨2, ![640000, 256]⟩
abbrev S64x256 : Shape := ⟨2, ![64, 256]⟩
abbrev S10000x1 : Shape := ⟨2, ![10000, 1]⟩
abbrev S64 : Shape := ⟨1, ![64]⟩
abbrev S64x1 : Shape := ⟨2, ![64, 1]⟩
abbrev S256x10 : Shape := ⟨2, ![256, 10]⟩
abbrev S64x10 : Shape := ⟨2, ![64, 10]⟩
abbrev S1x10 : Shape := ⟨2, ![1, 10]⟩

abbrev nBuf : Space → Nat
  | .hbm => 129
  | .vmem => 0
  | .smem => 0
  | _ => 0

abbrev hbmTy0_0 (i : Nat) : BufTy := match i % 128 with
  | 0 => ⟨S10000x128, .f32⟩
  | 1 => ⟨S2x640000, .i32⟩
  | 2 => ⟨S10000, .i32⟩
  | 3 => ⟨S640000, .f32⟩
  | 4 => ⟨S256x128, .f32⟩
  | 5 => ⟨S256, .f32⟩
  | 6 => ⟨S256x256, .f32⟩
  | 7 => ⟨S256, .f32⟩
  | 8 => ⟨S256x256, .f32⟩
  | 9 => ⟨S256, .f32⟩
  | 10 => ⟨S10x256, .f32⟩
  | 11 => ⟨S10, .f32⟩
  | 12 => ⟨S1x640000, .i32⟩
  | 13 => ⟨S640000, .i32⟩
  | 14 => ⟨S1x640000, .i32⟩
  | 15 => ⟨S640000, .i32⟩
  | 16 => ⟨S640000x1, .f32⟩
  | 17 => ⟨S_, .i32⟩
  | 18 => ⟨S640000, .i32⟩
  | 19 => ⟨S640000, .i1⟩
  | 20 => ⟨S_, .i32⟩
  | 21 => ⟨S640000, .i32⟩
  | 22 => ⟨S640000, .i32⟩
  | 23 => ⟨S640000, .i32⟩
  | 24 => ⟨S640000x1, .i32⟩
  | 25 => ⟨S640000x128, .f32⟩
  | 26 => ⟨S640000x128, .f32⟩
  | 27 => ⟨S640000x128, .f32⟩
  | 28 => ⟨S_, .f32⟩
  | 29 => ⟨S10000x128, .f32⟩
  | 30 => ⟨S640000x1, .i32⟩
  | 31 => ⟨S10000x128, .f32⟩
  | 32 => ⟨S_, .f32⟩
  | 33 => ⟨S10000x128, .f32⟩
  | 34 => ⟨S10000x128, .f32⟩
  | 35 => ⟨S10000x128, .f32⟩
  | 36 => ⟨S128x256, .f32⟩
  | 37 => ⟨S10000x256, .f32⟩
  | 38 => ⟨S1x256, .f32⟩
  | 39 => ⟨S10000x256, .f32⟩
  | 40 => ⟨S10000x256, .f32⟩
  | 41 => ⟨S_, .f32⟩
  | 42 => ⟨S10000x256, .f32⟩
  | 43 => ⟨S10000x256, .f32⟩
  | 44 => ⟨S1x640000, .i32⟩
  | 45 => ⟨S640000, .i32⟩
  | 46 => ⟨S1x640000, .i32⟩
  | 47 => ⟨S640000, .i32⟩
  | 48 => ⟨S640000x1, .f32⟩
  | 49 => ⟨S_, .i32⟩
  | 50 => ⟨S640000, .i32⟩
  | 51 => ⟨S640000, .i1⟩
  | 52 => ⟨S_, .i32⟩
  | 53 => ⟨S640000, .i32⟩
  | 54 => ⟨S640000, .i32⟩
  | 55 => ⟨S640000, .i32⟩
  | 56 => ⟨S640000x1, .i32⟩
  | 57 => ⟨S640000x256, .f32⟩
  | 58 => ⟨S640000x256, .f32⟩
  | 59 => ⟨S640000x256, .f32⟩
  | 60 => ⟨S_, .f32⟩
  | 61 => ⟨S10000x256, .f32⟩
  | 62 => ⟨S640000x1, .i32⟩
  | 63 => ⟨S10000x256, .f32⟩
  | 64 => ⟨S_, .f32⟩
  | 65 => ⟨S10000x256, .f32⟩
  | 66 => ⟨S10000x256, .f32⟩
  | 67 => ⟨S10000x256, .f32⟩
  | 68 => ⟨S256x256, .f32⟩
  | 69 => ⟨S10000x256, .f32⟩
  | 70 => ⟨S1x256, .f32⟩
  | 71 => ⟨S10000x256, .f32⟩
  | 72 => ⟨S10000x256, .f32⟩
  | 73 => ⟨S_, .f32⟩
  | 74 => ⟨S10000x256, .f32⟩
  | 75 => ⟨S10000x256, .f32⟩
  | 76 => ⟨S1x640000, .i32⟩
  | 77 => ⟨S640000, .i32⟩
  | 78 => ⟨S1x640000, .i32⟩
  | 79 => ⟨S640000, .i32⟩
  | 80 => ⟨S640000x1, .f32⟩
  | 81 => ⟨S_, .i32⟩
  | 82 => ⟨S640000, .i32⟩
  | 83 => ⟨S640000, .i1⟩
  | 84 => ⟨S_, .i32⟩
  | 85 => ⟨S640000, .i32⟩
  | 86 => ⟨S640000, .i32⟩
  | 87 => ⟨S640000, .i32⟩
  | 88 => ⟨S640000x1, .i32⟩
  | 89 => ⟨S640000x256, .f32⟩
  | 90 => ⟨S640000x256, .f32⟩
  | 91 => ⟨S640000x256, .f32⟩
  | 92 => ⟨S_, .f32⟩
  | 93 => ⟨S10000x256, .f32⟩
  | 94 => ⟨S640000x1, .i32⟩
  | 95 => ⟨S10000x256, .f32⟩
  | 96 => ⟨S_, .f32⟩
  | 97 => ⟨S10000x256, .f32⟩
  | 98 => ⟨S10000x256, .f32⟩
  | 99 => ⟨S10000x256, .f32⟩
  | 100 => ⟨S256x256, .f32⟩
  | 101 => ⟨S10000x256, .f32⟩
  | 102 => ⟨S1x256, .f32⟩
  | 103 => ⟨S10000x256, .f32⟩
  | 104 => ⟨S10000x256, .f32⟩
  | 105 => ⟨S_, .f32⟩
  | 106 => ⟨S10000x256, .f32⟩
  | 107 => ⟨S10000x256, .f32⟩
  | 108 => ⟨S_, .f32⟩
  | 109 => ⟨S64x256, .f32⟩
  | 110 => ⟨S10000x1, .i32⟩
  | 111 => ⟨S64x256, .f32⟩
  | 112 => ⟨S_, .f32⟩
  | 113 => ⟨S10000, .f32⟩
  | 114 => ⟨S_, .f32⟩
  | 115 => ⟨S64, .f32⟩
  | 116 => ⟨S10000x1, .i32⟩
  | 117 => ⟨S64, .f32⟩
  | 118 => ⟨S_, .f32⟩
  | 119 => ⟨S64, .f32⟩
  | 120 => ⟨S64, .f32⟩
  | 121 => ⟨S64x1, .f32⟩
  | 122 => ⟨S64x256, .f32⟩
  | 123 => ⟨S64x256, .f32⟩
  | 124 => ⟨S256x10, .f32⟩
  | 125 => ⟨S64x10, .f32⟩
  | 126 => ⟨S1x10, .f32⟩
  | 127 => ⟨S64x10, .f32⟩
  | _ => ⟨S10000x128, .f32⟩

abbrev hbmTy0_1 (i : Nat) : BufTy := match i % 128 with
  | 0 => ⟨S64x10, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call0_cst : Ref sig .tc := ⟨.hbm, 41, rfl⟩
abbrev main_call0_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_2 : Ref sig .tc := ⟨.hbm, 49, rfl⟩
abbrev main_v31 : Ref sig .tc := ⟨.hbm, 50, rfl⟩
abbrev main_v32 : Ref sig .tc := ⟨.hbm, 51, rfl⟩
abbrev main_c_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_6 : Ref sig .tc := ⟨.hbm, 81, rfl⟩
abbrev main_v57 : Ref sig .tc := ⟨.hbm, 82, rfl⟩
abbrev main_v58 : Ref sig .tc := ⟨.hbm, 83, rfl⟩
abbrev main_c_7 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_8 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_9 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_call2_cst : Ref sig .tc := ⟨.hbm, 105, rfl⟩
abbrev main_call2_v0 : Ref sig .tc := ⟨.hbm, 106, rfl⟩
abbrev main_v77 : Ref sig .tc := ⟨.hbm, 107, rfl⟩
abbrev main_cst_10 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_11 : Ref sig .tc := ⟨.hbm, 112, rfl⟩
abbrev main_v81 : Ref sig .tc := ⟨.hbm, 113, rfl⟩
abbrev main_cst_12 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_13 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  transposes_S256x128_S128x256_1_0 : S256x128.Transposes [1, 0] S128x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S640000x1_S640000x256_0_1 : S640000x1.BroadcastsInDim S640000x256 (![0, 1] : Fin 2 → Fin S640000x256.rank)
  transposes_S256x256_S256x256_1_0 : S256x256.Transposes [1, 0] S256x256
  bcast_S_S64x256 : S_.BroadcastsInDim S64x256 (![] : Fin 0 → Fin S64x256.rank)
  bcast_S10000_S10000x1_0 : S10000.BroadcastsInDim S10000x1 (![0] : Fin 1 → Fin S10000x1.rank)
  bcast_S_S10000 : S_.BroadcastsInDim S10000 (![] : Fin 0 → Fin S10000.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  transposes_S10x256_S256x10_1_0 : S10x256.Transposes [1, 0] S256x10
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x256_S10000x256_1_0_0_1_n_n_wf : DotDims.WF S10000x128 S128x256 S10000x256 [1] [0] [0] [1] [] []
  gather_S10000x256_S640000x1_S640000x256_1_0_n_n_0_1_1256_wf : GatherDims.WF S10000x256 S640000x1 S640000x256 [1] [0] [] [0] [] 1 ![1, 256]
  scatter_S10000x256_S640000x1_S640000x256_1_0_0_1_wf : ScatterDims.WF S10000x256 S640000x1 S640000x256 [1] [0] [0] 1
  dot_S10000x256_S256x256_S10000x256_1_0_0_1_n_n_wf : DotDims.WF S10000x256 S256x256 S10000x256 [1] [0] [0] [1] [] []
  scatter_S64x256_S10000x1_S10000x256_1_0_0_1_wf : ScatterDims.WF S64x256 S10000x1 S10000x256 [1] [0] [0] 1
  scatter_S64_S10000x1_S10000_n_0_0_1_wf : ScatterDims.WF S64 S10000x1 S10000 [] [0] [0] 1
  dot_S64x256_S256x10_S64x10_1_0_0_1_n_n_wf : DotDims.WF S64x256 S256x10 S64x10 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S10000x256_S640000x1_S640000x256_1_0_n_n_0_1_1256 : GatherDims S10000x256 S640000x1 S640000x256 where
  offsetDims := [1]
  collapsedSliceDims := [0]
  operandBatchingDims := []
  startIndicesBatchingDims := []
  startIndexMap := [0]
  indexVectorDim := 1
  sliceSizes := ![1, 256]
  wf := gather_S10000x256_S640000x1_S640000x256_1_0_n_n_0_1_1256_wf
def scatter_S10000x256_S640000x1_S640000x256_1_0_0_1 : ScatterDims S10000x256 S640000x1 S640000x256 where
  updateWindowDims := [1]
  insertedWindowDims := [0]
  scatterDimsToOperandDims := [0]
  indexVectorDim := 1
  wf := scatter_S10000x256_S640000x1_S640000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def scatter_S64x256_S10000x1_S10000x256_1_0_0_1 : ScatterDims S64x256 S10000x1 S10000x256 where
  updateWindowDims := [1]
  insertedWindowDims := [0]
  scatterDimsToOperandDims := [0]
  indexVectorDim := 1
  wf := scatter_S64x256_S10000x1_S10000x256_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

class Facts : Prop extends Facts₀ where

variable [Facts]
-- ==== Proof.Spec.lean ====
/-
  The mathematics shared by the two programs, over the extended reals and free of either program's text.

  A graph layer sends node features `x : [N, C]` to `relu((agg + x) · Wᵀ + b)`, where `agg[i, f]` is the sum, over the
  edges `e` whose target is `i`, of `w e · x[src e, f]`. One program computes `agg` edge by edge (a gather of source
  rows, a scaling, an accumulating scatter by target); the other first accumulates the edge weights into a dense
  matrix `S[i, k] = Σ {e : dst e = i ∧ src e = k} w e` over a padded node range `P ≥ N` and multiplies, `agg = S · x`.
  The two agree when the weights and the features are real numbers (finite): the product distributes over the inner
  sum of weights, and the double sum over `(k, e)` with `src e = k` collapses onto the edges. Rows `≥ N` of the
  padded product never reach a row `< N`, because no edge has such a source.
-/
import Idealize.ShloMosaic.Lib.ValueIdx
import Idealize.ShloMosaic.PureOps.Ideal.Laws

noncomputable section

open scoped BigOperators

namespace Cert.Gin

open Idealize.ShloMosaic Idealize.ShloMosaic.ValueIdx

/-- A rank-2 array of extended reals. -/
abbrev Mat (n c : Nat) : Type := (⟨2, ![n, c]⟩ : Shape).Idx → EReal
/-- A rank-1 array of extended reals. -/
abbrev Row (n : Nat) : Type := (⟨1, ![n]⟩ : Shape).Idx → EReal

/-- An extended real that is a real number. -/
def IsRe (v : EReal) : Prop := ∃ r : ℝ, v = (r : EReal)

/-- Row `r` of an index pair array `[2, E]`, read signed, as node numbers — meaningful under the range hypothesis. -/
def edgeRow {N E : Nat} (ei : IVec ⟨2, ![2, E]⟩ 32) (hr : ∀ i, 0 ≤ (ei i).toInt ∧ (ei i).toInt < (N : ℤ))
    (r : Fin 2) (e : Fin E) : Fin N :=
  ⟨(ei (ix2 r e)).toInt.toNat, by have := hr (ix2 r e); omega⟩

variable {N E C O P : Nat}

/-- The neighbourhood aggregate: over the edges into `i`, the weight times the source row's feature. -/
def agg (src dst : Fin E → Fin N) (w : Fin E → EReal) (x : Mat N C) (i : Fin N) (f : Fin C) : EReal :=
  ∑ e ∈ Finset.univ.filter (fun e => dst e = i), w e * x (ix2 (src e) f)

/-- One layer, edge by edge: `relu((agg + x) · Wᵀ + b)`. -/
def refLayer (src dst : Fin E → Fin N) (w : Fin E → EReal) (x : Mat N C) (Wm : Mat O C) (b : Row O) : Mat N O :=
  fun j => max ((∑ f : Fin C, (agg src dst w x (j 0) f + x (ix2 (j 0) f)) * Wm (ix2 (j 1) f)) + b (ix1 (j 1))) 0

/-- One layer through the dense matrix: `relu((S · xb + xf) · Wt + b)` over the padded node range. -/
def kerLayer (S : Mat P P) (xb xf : Mat P C) (Wt : Mat C O) (b : Mat 1 O) : Mat P O :=
  fun j => max ((∑ f : Fin C, ((∑ k : Fin P, S (ix2 (j 0) k) * xb (ix2 k f)) + xf (ix2 (j 0) f)) * Wt (ix2 f (j 1)))
    + b (ix2 0 (j 1))) 0

/-- Zero is real. -/
theorem IsRe_zero : IsRe 0 := ⟨0, EReal.coe_zero.symm⟩

/-- The sum of two reals is real. -/
theorem IsRe.add {a b : EReal} (ha : IsRe a) (hb : IsRe b) : IsRe (a + b) := by
  obtain ⟨r, rfl⟩ := ha
  obtain ⟨s, rfl⟩ := hb
  exact ⟨r + s, EReal.coe_add r s⟩

/-- The product of two reals is real. -/
theorem IsRe.mul {a b : EReal} (ha : IsRe a) (hb : IsRe b) : IsRe (a * b) := by
  obtain ⟨r, rfl⟩ := ha
  obtain ⟨s, rfl⟩ := hb
  exact ⟨r * s, EReal.coe_mul r s⟩

/-- The larger of two reals is real. -/
theorem IsRe.max {a b : EReal} (ha : IsRe a) (hb : IsRe b) : IsRe (max a b) := by
  rcases le_total a b with h | h
  · rw [max_eq_right h]; exact hb
  · rw [max_eq_left h]; exact ha

/-- A finite sum of reals is real. -/
theorem IsRe.sum {ι : Type*} (s : Finset ι) (g : ι → EReal) (h : ∀ i ∈ s, IsRe (g i)) :
    IsRe (∑ i ∈ s, g i) := by
  classical
  revert h
  refine Finset.induction_on s ?_ ?_
  · intro _
    rw [Finset.sum_empty]
    exact IsRe_zero
  · intro a s ha ih h
    rw [Finset.sum_insert ha]
    exact (h a (Finset.mem_insert_self a s)).add (ih (fun i hi => h i (Finset.mem_insert_of_mem hi)))

/-- Over real summands and a real factor the product distributes over a finite sum (it does not in general over
    the extended reals). -/
theorem sum_mul_of_isRe {ι : Type*} (s : Finset ι) (g : ι → EReal) (h : ∀ i ∈ s, IsRe (g i)) {y : EReal}
    (hy : IsRe y) : (∑ i ∈ s, g i) * y = ∑ i ∈ s, g i * y := by
  classical
  obtain ⟨t, rfl⟩ := hy
  revert h
  refine Finset.induction_on s ?_ ?_
  · intro _
    rw [Finset.sum_empty, Finset.sum_empty, zero_mul]
  · intro a s ha ih h
    have hs : ∀ i ∈ s, IsRe (g i) := fun i hi => h i (Finset.mem_insert_of_mem hi)
    rw [Finset.sum_insert ha, Finset.sum_insert ha, ← ih hs]
    obtain ⟨r, hr⟩ := h a (Finset.mem_insert_self a s)
    obtain ⟨q, hq⟩ := IsRe.sum s g hs
    rw [hr, hq, ← EReal.coe_add, ← EReal.coe_mul, ← EReal.coe_mul, ← EReal.coe_mul, ← EReal.coe_add, add_mul]

/-- The dense layer over real inputs is real-valued. -/
theorem kerLayer_isRe (S : Mat P P) (xb xf : Mat P C) (Wt : Mat C O) (b : Mat 1 O)
    (hS : ∀ j, IsRe (S j)) (hxb : ∀ j, IsRe (xb j)) (hxf : ∀ j, IsRe (xf j)) (hW : ∀ j, IsRe (Wt j)) (hb : ∀ j, IsRe (b j))
    (j : (⟨2, ![P, O]⟩ : Shape).Idx) : IsRe (kerLayer S xb xf Wt b j) := by
  unfold kerLayer
  exact IsRe.max (IsRe.add (IsRe.sum _ _ (fun f _ => IsRe.mul (IsRe.add (IsRe.sum _ _
    (fun k _ => IsRe.mul (hS _) (hxb _))) (hxf _)) (hW _))) (hb _)) IsRe_zero

/-- THE LAYERS AGREE on the rows `< N`: with `S` the dense matrix of the edge weights, real weights, real padded
    features that restrict to `x`, `Wt` the transpose of `Wm` and the bias row `b'` laid out as `[1, O]`. -/
theorem kerLayer_eq_refLayer (hNP : N ≤ P) (src dst : Fin E → Fin N) (w : Fin E → EReal) (hw : ∀ e, IsRe (w e))
    (S : Mat P P)
    (hS : ∀ i k : Fin P, S (ix2 i k)
      = ∑ e ∈ Finset.univ.filter (fun e => (dst e).val = i.val ∧ (src e).val = k.val), w e)
    (xp : Mat P C) (hxp : ∀ j, IsRe (xp j)) (x : Mat N C)
    (hx : ∀ (i : Fin N) (f : Fin C), xp (ix2 ⟨i.val, by omega⟩ f) = x (ix2 i f))
    (Wt : Mat C O) (Wm : Mat O C) (hW : ∀ (f : Fin C) (o : Fin O), Wt (ix2 f o) = Wm (ix2 o f))
    (b : Mat 1 O) (b' : Row O) (hb : ∀ o : Fin O, b (ix2 0 o) = b' (ix1 o))
    (i : Fin N) (o : Fin O) :
    kerLayer S xp xp Wt b (ix2 ⟨i.val, by omega⟩ o) = refLayer src dst w x Wm b' (ix2 i o) := by
  have hiP : i.val < P := lt_of_lt_of_le i.isLt hNP
  -- the dense product's row `i` is the neighbourhood aggregate
  have key : ∀ f : Fin C, (∑ k : Fin P, S (ix2 ⟨i.val, hiP⟩ k) * xp (ix2 k f)) = agg src dst w x i f := by
    intro f
    unfold agg
    have h1 : ∀ k : Fin P, S (ix2 ⟨i.val, hiP⟩ k) * xp (ix2 k f)
        = ∑ e ∈ Finset.univ.filter (fun e => (dst e).val = i.val ∧ (src e).val = k.val), w e * xp (ix2 k f) := by
      intro k
      rw [hS, sum_mul_of_isRe _ _ (fun e _ => hw e) (hxp _)]
    rw [Finset.sum_congr rfl (fun k _ => h1 k)]
    simp only [Finset.sum_filter]
    rw [Finset.sum_comm]
    refine Finset.sum_congr rfl (fun e _ => ?_)
    have hsP : (src e).val < P := lt_of_lt_of_le (src e).isLt hNP
    rw [Finset.sum_eq_single (⟨(src e).val, hsP⟩ : Fin P)]
    · rw [hx (src e) f]
      by_cases hd : dst e = i
      · rw [if_pos hd, if_pos ⟨congrArg Fin.val hd, rfl⟩]
      · rw [if_neg hd, if_neg (fun h => hd (Fin.ext h.1))]
    · intro k _ hk
      rw [if_neg]
      rintro ⟨_, h⟩
      exact hk (Fin.ext h.symm)
    · intro h
      exact absurd (Finset.mem_univ _) h
  show max ((∑ f : Fin C, ((∑ k : Fin P, S (ix2 ⟨i.val, hiP⟩ k) * xp (ix2 k f)) + xp (ix2 ⟨i.val, hiP⟩ f))
        * Wt (ix2 f o)) + b (ix2 0 o)) 0
    = max ((∑ f : Fin C, (agg src dst w x i f + x (ix2 i f)) * Wm (ix2 o f)) + b' (ix1 o)) 0
  rw [hb o, Finset.sum_congr rfl (fun f _ => by rw [key f, hx i f, hW f o])]

/-- The dense matrix of real weights is real-valued. -/
theorem dense_isRe (src dst : Fin E → Fin N) (w : Fin E → EReal) (hw : ∀ e, IsRe (w e)) (i k : Fin P) :
    IsRe (∑ e ∈ Finset.univ.filter (fun e => (dst e).val = i.val ∧ (src e).val = k.val), w e) := by
  exact IsRe.sum _ _ (fun e _ => hw e)

end Cert.Gin

end
-- ==== Proof.KLayer0.lean ====
/-
  What the first layer's call leaves in its two result arrays, as ONE function of the arrays it reads.

  The call runs over ten row tiles of 1024 rows. At tile `t` the body reads rows [1024·t, 1024·t + 1024) of the dense
  edge-weight matrix `S` and of the features `xf`, the whole of the features `xb`, of the weights `Wt` and of the bias
  row, and stores `relu((S_tile · xb + 1·xf_tile) · Wt + b)` whole into its tile of both results (the second result is
  the first in a narrower float format: the same extended real). The ten tiles cover the 10240 rows, so each result
  array ends as `kerLayer S xb xf Wt b`.
-/
import proofs.«403632_j30339648979124_3_alg».proof.Proof.Gen.KernelIdeal.Frame
import proofs.«403632_j30339648979124_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.GinLayer0

open Idealize.ShloMosaic Idealize.ShloMosaic.TcCoe Idealize.SL.Sem Idealize.ShloMosaic.ValueIdx
open Idealize.ShloMosaic.Pipeline (Dat Cfg Window)
open Cert.KernelIdeal Cert.KernelIdeal.Gen

/-! ## The two contractions read at an index -/

/-- The operand indices of the first contraction (edge weights times features), axis by axis. -/
theorem lhs_agg_0 (i : S1024x128.Idx) (q : dot_S1024x10240_S10240x128_S1024x128_1_0_0_1_n_n.contr.Idx) :
    (dot_S1024x10240_S10240x128_S1024x128_1_0_0_1_n_n.lhsIdx i q 0).val = (i 0).val := by
  unfold DotDims.lhsIdx
  rw [dif_neg (show ¬(0 : Fin S1024x10240.rank) ∈ dot_S1024x10240_S10240x128_S1024x128_1_0_0_1_n_n.lhsBatch by decide), dif_pos (show (0 : Fin S1024x10240.rank) ∈ dot_S1024x10240_S10240x128_S1024x128_1_0_0_1_n_n.lhsNonContracting by decide)]
  rfl
theorem lhs_agg_1 (i : S1024x128.Idx) (q : dot_S1024x10240_S10240x128_S1024x128_1_0_0_1_n_n.contr.Idx) :
    (dot_S1024x10240_S10240x128_S1024x128_1_0_0_1_n_n.lhsIdx i q 1).val = (q ⟨0, by decide⟩).val :=
  dot_S1024x10240_S10240x128_S1024x128_1_0_0_1_n_n.lhsIdx_val_of_single rfl i q
theorem rhs_agg_0 (i : S1024x128.Idx) (q : dot_S1024x10240_S10240x128_S1024x128_1_0_0_1_n_n.contr.Idx) :
    (dot_S1024x10240_S10240x128_S1024x128_1_0_0_1_n_n.rhsIdx i q 0).val = (q ⟨0, by decide⟩).val :=
  dot_S1024x10240_S10240x128_S1024x128_1_0_0_1_n_n.rhsIdx_val_of_single rfl i q
theorem rhs_agg_1 (i : S1024x128.Idx) (q : dot_S1024x10240_S10240x128_S1024x128_1_0_0_1_n_n.contr.Idx) :
    (dot_S1024x10240_S10240x128_S1024x128_1_0_0_1_n_n.rhsIdx i q 1).val = (i 1).val := by
  unfold DotDims.rhsIdx
  rw [dif_neg (show ¬(1 : Fin S10240x128.rank) ∈ dot_S1024x10240_S10240x128_S1024x128_1_0_0_1_n_n.rhsBatch by decide), dif_pos (show (1 : Fin S10240x128.rank) ∈ dot_S1024x10240_S10240x128_S1024x128_1_0_0_1_n_n.rhsNonContracting by decide)]
  rfl

/-- The first contraction into the zero splat, at row `p` and feature `f`: the row of edge weights against the
    feature column. -/
theorem agg_apply (x0 : FVec Ideal S1024x10240 .bf16) (x1 : FVec Ideal S10240x128 .bf16) (p : Fin 1024) (f : Fin 128) :
    matmul dot_S1024x10240_S10240x128_S1024x128_1_0_0_1_n_n none x0 x1 (constant (F := Ideal) S1024x128 .f32 0x00000000#32) (ix2 p f)
      = ∑ k : Fin 10240, x0 (ix2 p k) * x1 (ix2 k f) := by
  simp only [matmul]
  rw [Ideal.matmul_constant_zero_apply, ← Equiv.sum_comp (contrEquiv1 dot_S1024x10240_S10240x128_S1024x128_1_0_0_1_n_n 10240 rfl rfl).symm]
  refine Finset.sum_congr rfl fun k _ => ?_
  have hk := contrEquiv1_symm_val dot_S1024x10240_S10240x128_S1024x128_1_0_0_1_n_n 10240 rfl rfl k
  have el : dot_S1024x10240_S10240x128_S1024x128_1_0_0_1_n_n.lhsIdx (ix2 p f) ((contrEquiv1 dot_S1024x10240_S10240x128_S1024x128_1_0_0_1_n_n 10240 rfl rfl).symm k) = ix2 p k := funext fun a => Fin.ext (by
    match a with
    | ⟨0, _⟩ => exact lhs_agg_0 _ _
    | ⟨1, _⟩ => exact (lhs_agg_1 _ _).trans hk)
  have er : dot_S1024x10240_S10240x128_S1024x128_1_0_0_1_n_n.rhsIdx (ix2 p f) ((contrEquiv1 dot_S1024x10240_S10240x128_S1024x128_1_0_0_1_n_n 10240 rfl rfl).symm k) = ix2 k f := funext fun a => Fin.ext (by
    match a with
    | ⟨0, _⟩ => exact (rhs_agg_0 _ _).trans hk
    | ⟨1, _⟩ => exact rhs_agg_1 _ _)
  rw [el, er]

/-- The operand indices of the second contraction (aggregated features times weights), axis by axis. -/
theorem lhs_lin_0 (i : S1024x256.Idx) (q : dot_S1024x128_S128x256_S1024x256_1_0_0_1_n_n.contr.Idx) :
    (dot_S1024x128_S128x256_S1024x256_1_0_0_1_n_n.lhsIdx i q 0).val = (i 0).val := by
  unfold DotDims.lhsIdx
  rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]
  rfl
theorem lhs_lin_1 (i : S1024x256.Idx) (q : dot_S1024x128_S128x256_S1024x256_1_0_0_1_n_n.contr.Idx) :
    (dot_S1024x128_S128x256_S1024x256_1_0_0_1_n_n.lhsIdx i q 1).val = (q ⟨0, by decide⟩).val :=
  dot_S1024x128_S128x256_S1024x256_1_0_0_1_n_n.lhsIdx_val_of_single rfl i q
theorem rhs_lin_0 (i : S1024x256.Idx) (q : dot_S1024x128_S128x256_S1024x256_1_0_0_1_n_n.contr.Idx) :
    (dot_S1024x128_S128x256_S1024x256_1_0_0_1_n_n.rhsIdx i q 0).val = (q ⟨0, by decide⟩).val :=
  dot_S1024x128_S128x256_S1024x256_1_0_0_1_n_n.rhsIdx_val_of_single rfl i q
theorem rhs_lin_1 (i : S1024x256.Idx) (q : dot_S1024x128_S128x256_S1024x256_1_0_0_1_n_n.contr.Idx) :
    (dot_S1024x128_S128x256_S1024x256_1_0_0_1_n_n.rhsIdx i q 1).val = (i 1).val := by
  unfold DotDims.rhsIdx
  rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]
  rfl

/-- The second contraction into the zero splat, at row `p` and output column `q`. -/
theorem lin_apply (y : FVec Ideal S1024x128 .f32) (x3 : FVec Ideal S128x256 .f32) (p : Fin 1024) (q : Fin 256) :
    matmul dot_S1024x128_S128x256_S1024x256_1_0_0_1_n_n (some .fp32) y x3 (constant (F := Ideal) S1024x256 .f32 0x00000000#32) (ix2 p q)
      = ∑ f : Fin 128, y (ix2 p f) * x3 (ix2 f q) := by
  simp only [matmul]
  rw [Ideal.matmul_constant_zero_apply, ← Equiv.sum_comp (contrEquiv1 dot_S1024x128_S128x256_S1024x256_1_0_0_1_n_n 128 rfl rfl).symm]
  refine Finset.sum_congr rfl fun k _ => ?_
  have hk := contrEquiv1_symm_val dot_S1024x128_S128x256_S1024x256_1_0_0_1_n_n 128 rfl rfl k
  have el : dot_S1024x128_S128x256_S1024x256_1_0_0_1_n_n.lhsIdx (ix2 p q) ((contrEquiv1 dot_S1024x128_S128x256_S1024x256_1_0_0_1_n_n 128 rfl rfl).symm k) = ix2 p k := funext fun a => Fin.ext (by
    match a with
    | ⟨0, _⟩ => exact lhs_lin_0 _ _
    | ⟨1, _⟩ => exact (lhs_lin_1 _ _).trans hk)
  have er : dot_S1024x128_S128x256_S1024x256_1_0_0_1_n_n.rhsIdx (ix2 p q) ((contrEquiv1 dot_S1024x128_S128x256_S1024x256_1_0_0_1_n_n 128 rfl rfl).symm k) = ix2 k q := funext fun a => Fin.ext (by
    match a with
    | ⟨0, _⟩ => exact (rhs_lin_0 _ _).trans hk
    | ⟨1, _⟩ => exact rhs_lin_1 _ _)
  rw [el, er]

/-! ## The body's payload at an index -/

/-- The f32 payload at row `p` of the tile and output column `q`. -/
theorem pay1_apply (x0 : Vec Ideal S1024x10240 .bf16) (x1 : Vec Ideal S10240x128 .bf16) (x2 : Vec Ideal S1024x128 .f32)
    (x3 : Vec Ideal S128x256 .f32) (x4 : Vec Ideal S1x256 .f32) (p : Fin 1024) (q : Fin 256) :
    k0_pay1 (F := Ideal) x0 x1 x2 x3 x4 (ix2 p q)
      = max ((∑ f : Fin 128, ((∑ k : Fin 10240, x0 (ix2 p k) * x1 (ix2 k f)) + x2 (ix2 p f)) * x3 (ix2 f q)) + x4 (ix2 0 q)) 0 := by
  unfold k0_pay1
  simp only [shapeCast_self]
  rw [maximumf_apply, addf_apply, lin_apply, broadcastTo_1b_ab_apply, broadcast_apply]
  simp only [addf_apply, mulf_apply, broadcast_apply, agg_apply]
  simp only [Ideal.ofBits_def, Ideal.ofBits_one_f32, Ideal.ofBits_zero_f32, one_mul]

/-- The bf16 payload is the f32 payload narrowed: the same extended real. -/
theorem pay2_apply (x0 : Vec Ideal S1024x10240 .bf16) (x1 : Vec Ideal S10240x128 .bf16) (x2 : Vec Ideal S1024x128 .f32)
    (x3 : Vec Ideal S128x256 .f32) (x4 : Vec Ideal S1x256 .f32) (p : Fin 1024) (q : Fin 256) :
    k0_pay2 (F := Ideal) x0 x1 x2 x3 x4 (ix2 p q)
      = max ((∑ f : Fin 128, ((∑ k : Fin 10240, x0 (ix2 p k) * x1 (ix2 k f)) + x2 (ix2 p f)) * x3 (ix2 f q)) + x4 (ix2 0 q)) 0 := by
  unfold k0_pay2
  rw [truncf_apply, pay1_apply]

variable (V : (c : Dev nD) → (b : Ref sig .tc) → Buf (Elt Ideal) ((c : Thread nD τ).loc b))

/-! ## From the tiles to the arrays -/

theorem zeros2 : (![0, 0] : Fin 2 → Nat) = fun _ => 0 := funext fun a => by fin_cases a <;> rfl

/-- The printed index maps, decided over the grid: the tiled windows move with the row tile, the whole windows stay at
    block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `p` of tile `t` is a row of the padded node range. -/
theorem row_lt (t : Fin cfg0.N) (p : Fin 1024) : t.val * 1024 + p.val < 10240 := by
  have ht : t.val < grid0.N := t.isLt
  have hN : grid0.N = 10 := N_0
  have hp := p.isLt
  omega

/-- The edge-weight tile at point `t`: rows `1024·t + p` of the matrix, every column. -/
theorem tile0_apply (c : Dev nD) (t : Fin cfg0.N) (p : Fin 1024) (k : Fin 10240) :
    (iblk0 V c 0 t : Vec Ideal S1024x10240 .bf16) (ix2 p k)
      = (V c main_v16 : S10240x10240.Idx → EReal) (ix2 (⟨t.val * 1024 + p.val, row_lt t p⟩ : Fin 10240) k) := by
  obtain ⟨e0, e1, -⟩ := index_facts t
  show V c main_v16 (((cfg0.win 0).blk t).view.emb (ix2 p k)) = _
  refine congrArg (V c main_v16) (funext fun a => Fin.ext ?_)
  match a with
  | ⟨0, _⟩ => show win0_0.index t (0 : Fin 2) * 1024 + 1 * p.val = t.val * 1024 + p.val; omega
  | ⟨1, _⟩ => show win0_0.index t (1 : Fin 2) * 10240 + 1 * k.val = k.val; omega

/-- The bf16 features at every point: the whole array. -/
theorem tile1_apply (c : Dev nD) (t : Fin cfg0.N) (k : Fin 10240) (f : Fin 128) :
    (iblk0 V c 1 t : Vec Ideal S10240x128 .bf16) (ix2 k f) = (V c main_v18 : S10240x128.Idx → EReal) (ix2 k f) := by
  obtain ⟨-, -, e0, e1, -⟩ := index_facts t
  show V c main_v18 (((cfg0.win 1).blk t).view.emb (ix2 k f)) = _
  refine congrArg (V c main_v18) (funext fun a => Fin.ext ?_)
  match a with
  | ⟨0, _⟩ => show win0_1.index t (0 : Fin 2) * 10240 + 1 * k.val = k.val; omega
  | ⟨1, _⟩ => show win0_1.index t (1 : Fin 2) * 128 + 1 * f.val = f.val; omega

/-- The f32 feature tile at point `t`: rows `1024·t + p`. -/
theorem tile2_apply (c : Dev nD) (t : Fin cfg0.N) (p : Fin 1024) (f : Fin 128) :
    (iblk0 V c 2 t : Vec Ideal S1024x128 .f32) (ix2 p f)
      = (V c main_v17 : S10240x128.Idx → EReal) (ix2 (⟨t.val * 1024 + p.val, row_lt t p⟩ : Fin 10240) f) := by
  obtain ⟨-, -, -, -, e0, e1, -⟩ := index_facts t
  show V c main_v17 (((cfg0.win 2).blk t).view.emb (ix2 p f)) = _
  refine congrArg (V c main_v17) (funext fun a => Fin.ext ?_)
  match a with
  | ⟨0, _⟩ => show win0_2.index t (0 : Fin 2) * 1024 + 1 * p.val = t.val * 1024 + p.val; omega
  | ⟨1, _⟩ => show win0_2.index t (1 : Fin 2) * 128 + 1 * f.val = f.val; omega

/-- The weights at every point: the whole array. -/
theorem tile3_apply (c : Dev nD) (t : Fin cfg0.N) (f : Fin 128) (q : Fin 256) :
    (iblk0 V c 3 t : Vec Ideal S128x256 .f32) (ix2 f q) = (V c main_v19 : S128x256.Idx → EReal) (ix2 f q) := by
  obtain ⟨-, -, -, -, -, -, e0, e1, -⟩ := index_facts t
  show V c main_v19 (((cfg0.win 3).blk t).view.emb (ix2 f q)) = _
  refine congrArg (V c main_v19) (funext fun a => Fin.ext ?_)
  match a with
  | ⟨0, _⟩ => show win0_3.index t (0 : Fin 2) * 128 + 1 * f.val = f.val; omega
  | ⟨1, _⟩ => show win0_3.index t (1 : Fin 2) * 256 + 1 * q.val = q.val; omega

/-- The bias row at every point: the whole array. -/
theorem tile4_apply (c : Dev nD) (t : Fin cfg0.N) (z : Fin 1) (q : Fin 256) :
    (iblk0 V c 4 t : Vec Ideal S1x256 .f32) (ix2 z q) = (V c main_v22 : S1x256.Idx → EReal) (ix2 z q) := by
  obtain ⟨-, -, -, -, -, -, -, -, e0, e1, -⟩ := index_facts t
  show V c main_v22 (((cfg0.win 4).blk t).view.emb (ix2 z q)) = _
  refine congrArg (V c main_v22) (funext fun a => Fin.ext ?_)
  match a with
  | ⟨0, _⟩ => show win0_4.index t (0 : Fin 2) * 1 + 1 * z.val = z.val; omega
  | ⟨1, _⟩ => show win0_4.index t (1 : Fin 2) * 256 + 1 * q.val = q.val; omega

/-- Where element `(p, q)` of the f32 result's tile at point `t` sits in the array. -/
theorem out5_emb (t : Fin cfg0.N) (p : Fin 1024) (q : Fin 256) :
    ((cfg0.win 5).blk t).view.emb (ix2 p q) = ix2 (⟨t.val * 1024 + p.val, row_lt t p⟩ : Fin 10240) q := by
  obtain ⟨-, -, -, -, -, -, -, -, -, -, e50, e51, e60, e61⟩ := index_facts t
  refine funext fun a => Fin.ext ?_
  match a with
  | ⟨0, _⟩ => show win0_5.index t (0 : Fin 2) * 1024 + 1 * p.val = t.val * 1024 + p.val; omega
  | ⟨1, _⟩ => show win0_5.index t (1 : Fin 2) * 256 + 1 * q.val = q.val; omega

/-- WHAT POINT `t` WRITES BACK to the f32 result is tile `t` of the layer's function of the arrays the call reads. -/
theorem flushed5_eq (c : Dev nD) (t : Fin cfg0.N) :
    (dat0 (F := Ideal) V c).flushed 5 t = ((cfg0.win 5).blk t).view.read (Elt Ideal)
      (Cert.Gin.kerLayer (V c main_v16) (V c main_v18) (V c main_v17) (V c main_v19) (V c main_v22)) := by
  show (cfg0.win 5).cut (grid0.coords t) ((dat0 V c).after 5 t) = _
  rw [after0_5]
  unfold out0_5
  rw [View.canon_unit_zero zeros2]
  simp only [View.ld_unit_zero (S := S1024x10240) zeros2, View.ld_unit_zero (S := S10240x128) zeros2,
    View.ld_unit_zero (S := S1024x128) zeros2, View.ld_unit_zero (S := S128x256) zeros2, View.ld_unit_zero (S := S1x256) zeros2]
  funext j
  obtain ⟨p, q, rfl⟩ : ∃ (p : Fin 1024) (q : Fin 256), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = Cert.Gin.kerLayer (V c main_v16) (V c main_v18) (V c main_v17) (V c main_v19) (V c main_v22) (((cfg0.win 5).blk t).view.emb (ix2 p q))
  rw [out5_emb, pay1_apply]
  simp only [tile0_apply, tile1_apply, tile2_apply, tile3_apply, tile4_apply]
  rfl

/-- An index of the f32 result array is in point `t`'s tile iff each coordinate is in the tile's range on its axis. -/
theorem mem_tile5 (t : Fin cfg0.N) (i : S10240x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v25_0).slice (win0_5.rect t)).set ↔ _
  rw [View.set_slice_whole, Rect.mem_set_unit]
  exact Iff.rfl

/-- The ten tiles cover the f32 result array: row `r` lies in the tile of point `r / 1024`, which writes back. -/
theorem cover5 (i : S10240x256.Idx) :
    ∃ t : Fin cfg0.N, (cfg0.win 5).flush t = true ∧ i ∈ ((cfg0.win 5).blk t).view.set := by
  have hi0 : (i 0).val < 10240 := (i 0).isLt
  have hi1 : (i 1).val < 256 := (i 1).isLt
  have hN : grid0.N = 10 := N_0
  have ht : (i 0).val / 1024 < grid0.N := by omega
  obtain ⟨-, -, -, -, -, -, -, -, -, -, e50, e51, e60, e61⟩ := index_facts ⟨(i 0).val / 1024, ht⟩
  refine ⟨⟨(i 0).val / 1024, ht⟩, flush0_5 _, ?_⟩
  rw [mem_tile5]
  intro a
  match a with
  | ⟨0, _⟩ =>
    show win0_5.index ⟨(i 0).val / 1024, ht⟩ (0 : Fin 2) * 1024 ≤ (i 0).val ∧ (i 0).val < win0_5.index ⟨(i 0).val / 1024, ht⟩ (0 : Fin 2) * 1024 + 1024
    have hv : (⟨(i 0).val / 1024, ht⟩ : Fin cfg0.N).val = (i 0).val / 1024 := rfl
    omega
  | ⟨1, _⟩ =>
    show win0_5.index ⟨(i 0).val / 1024, ht⟩ (1 : Fin 2) * 256 ≤ (i 1).val ∧ (i 1).val < win0_5.index ⟨(i 0).val / 1024, ht⟩ (1 : Fin 2) * 256 + 256
    omega

/-- Where element `(p, q)` of the bf16 result's tile at point `t` sits in the array. -/
theorem out6_emb (t : Fin cfg0.N) (p : Fin 1024) (q : Fin 256) :
    ((cfg0.win 6).blk t).view.emb (ix2 p q) = ix2 (⟨t.val * 1024 + p.val, row_lt t p⟩ : Fin 10240) q := by
  obtain ⟨-, -, -, -, -, -, -, -, -, -, e50, e51, e60, e61⟩ := index_facts t
  refine funext fun a => Fin.ext ?_
  match a with
  | ⟨0, _⟩ => show win0_6.index t (0 : Fin 2) * 1024 + 1 * p.val = t.val * 1024 + p.val; omega
  | ⟨1, _⟩ => show win0_6.index t (1 : Fin 2) * 256 + 1 * q.val = q.val; omega

/-- WHAT POINT `t` WRITES BACK to the bf16 result is tile `t` of the layer's function of the arrays the call reads. -/
theorem flushed6_eq (c : Dev nD) (t : Fin cfg0.N) :
    (dat0 (F := Ideal) V c).flushed 6 t = ((cfg0.win 6).blk t).view.read (Elt Ideal)
      (Cert.Gin.kerLayer (V c main_v16) (V c main_v18) (V c main_v17) (V c main_v19) (V c main_v22)) := by
  show (cfg0.win 6).cut (grid0.coords t) ((dat0 V c).after 6 t) = _
  rw [after0_6]
  unfold out0_6
  rw [View.canon_unit_zero zeros2]
  simp only [View.ld_unit_zero (S := S1024x10240) zeros2, View.ld_unit_zero (S := S10240x128) zeros2,
    View.ld_unit_zero (S := S1024x128) zeros2, View.ld_unit_zero (S := S128x256) zeros2, View.ld_unit_zero (S := S1x256) zeros2]
  funext j
  obtain ⟨p, q, rfl⟩ : ∃ (p : Fin 1024) (q : Fin 256), j = ix2 p q := ⟨j 0, j 1, eq_ix2 j⟩
  show k0_pay2 (F := Ideal) (iblk0 V c 0 t) (iblk0 V c 1 t) (iblk0 V c 2 t) (iblk0 V c 3 t) (iblk0 V c 4 t) (ix2 p q)
    = Cert.Gin.kerLayer (V c main_v16) (V c main_v18) (V c main_v17) (V c main_v19) (V c main_v22) (((cfg0.win 6).blk t).view.emb (ix2 p q))
  rw [out6_emb, pay2_apply]
  simp only [tile0_apply, tile1_apply, tile2_apply, tile3_apply, tile4_apply]
  rfl

/-- An index of the bf16 result array is in point `t`'s tile iff each coordinate is in the tile's range on its axis. -/
theorem mem_tile6 (t : Fin cfg0.N) (i : S10240x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v25_1).slice (win0_6.rect t)).set ↔ _
  rw [View.set_slice_whole, Rect.mem_set_unit]
  exact Iff.rfl

/-- The ten tiles cover the bf16 result array: row `r` lies in the tile of point `r / 1024`, which writes back. -/
theorem cover6 (i : S10240x256.Idx) :
    ∃ t : Fin cfg0.N, (cfg0.win 6).flush t = true ∧ i ∈ ((cfg0.win 6).blk t).view.set := by
  have hi0 : (i 0).val < 10240 := (i 0).isLt
  have hi1 : (i 1).val < 256 := (i 1).isLt
  have hN : grid0.N = 10 := N_0
  have ht : (i 0).val / 1024 < grid0.N := by omega
  obtain ⟨-, -, -, -, -, -, -, -, -, -, e50, e51, e60, e61⟩ := index_facts ⟨(i 0).val / 1024, ht⟩
  refine ⟨⟨(i 0).val / 1024, ht⟩, flush0_6 _, ?_⟩
  rw [mem_tile6]
  intro a
  match a with
  | ⟨0, _⟩ =>
    show win0_6.index ⟨(i 0).val / 1024, ht⟩ (0 : Fin 2) * 1024 ≤ (i 0).val ∧ (i 0).val < win0_6.index ⟨(i 0).val / 1024, ht⟩ (0 : Fin 2) * 1024 + 1024
    have hv : (⟨(i 0).val / 1024, ht⟩ : Fin cfg0.N).val = (i 0).val / 1024 := rfl
    omega
  | ⟨1, _⟩ =>
    show win0_6.index ⟨(i 0).val / 1024, ht⟩ (1 : Fin 2) * 256 ≤ (i 1).val ∧ (i 1).val < win0_6.index ⟨(i 0).val / 1024, ht⟩ (1 : Fin 2) * 256 + 256
    omega

/-- The f32 result array (window 5) after the call. -/
theorem final0_5 (c : Dev nD) :
    (dat0 (F := Ideal) V c).arrAt 5 cfg0.N
      = Cert.Gin.kerLayer (V c main_v16) (V c main_v18) (V c main_v17) (V c main_v19) (V c main_v22) :=
  (dat0 (F := Ideal) V c).arrAt_eq_of_cover 5
    (Cert.Gin.kerLayer (V c main_v16) (V c main_v18) (V c main_v17) (V c main_v19) (V c main_v22))
    (fun t _ => flushed5_eq V c t) cover5

/-- The bf16 result array (window 6) after the call: the same extended reals. -/
theorem final0_6 (c : Dev nD) :
    (dat0 (F := Ideal) V c).arrAt 6 cfg0.N
      = Cert.Gin.kerLayer (V c main_v16) (V c main_v18) (V c main_v17) (V c main_v19) (V c main_v22) :=
  (dat0 (F := Ideal) V c).arrAt_eq_of_cover 6
    (Cert.Gin.kerLayer (V c main_v16) (V c main_v18) (V c main_v17) (V c main_v19) (V c main_v22))
    (fun t _ => flushed6_eq V c t) cover6

end Cert.KernelIdeal.GinLayer0

end
-- ==== Proof.KLayer1.lean ====
/-
  What the second layer's call leaves in its two result arrays, as ONE function of the arrays it reads.

  The call runs over ten row tiles of 1024 rows. At tile `t` the body reads rows [1024·t, 1024·t + 1024) of the dense
  edge-weight matrix `S` and of the features `xf`, the whole of the features `xb`, of the weights `Wt` and of the bias
  row, and stores `relu((S_tile · xb + 1·xf_tile) · Wt + b)` whole into its tile of both results (the second result is
  the first in a narrower float format: the same extended real). The ten tiles cover the 10240 rows, so each result
  array ends as `kerLayer S xb xf Wt b`.
-/
import proofs.«403632_j30339648979124_3_alg».proof.Proof.Gen.KernelIdeal.Frame
import proofs.«403632_j30339648979124_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.GinLayer1

open Idealize.ShloMosaic Idealize.ShloMosaic.TcCoe Idealize.SL.Sem Idealize.ShloMosaic.ValueIdx
open Idealize.ShloMosaic.Pipeline (Dat Cfg Window)
open Cert.KernelIdeal Cert.KernelIdeal.Gen

/-! ## The two contractions read at an index -/

/-- The operand indices of the first contraction (edge weights times features), axis by axis. -/
theorem lhs_agg_0 (i : S1024x256.Idx) (q : dot_S1024x10240_S10240x256_S1024x256_1_0_0_1_n_n.contr.Idx) :
    (dot_S1024x10240_S10240x256_S1024x256_1_0_0_1_n_n.lhsIdx i q 0).val = (i 0).val := by
  unfold DotDims.lhsIdx
  rw [dif_neg (show ¬(0 : Fin S1024x10240.rank) ∈ dot_S1024x10240_S10240x256_S1024x256_1_0_0_1_n_n.lhsBatch by decide), dif_pos (show (0 : Fin S1024x10240.rank) ∈ dot_S1024x10240_S10240x256_S1024x256_1_0_0_1_n_n.lhsNonContracting by decide)]
  rfl
theorem lhs_agg_1 (i : S1024x256.Idx) (q : dot_S1024x10240_S10240x256_S1024x256_1_0_0_1_n_n.contr.Idx) :
    (dot_S1024x10240_S10240x256_S1024x256_1_0_0_1_n_n.lhsIdx i q 1).val = (q ⟨0, by decide⟩).val :=
  dot_S1024x10240_S10240x256_S1024x256_1_0_0_1_n_n.lhsIdx_val_of_single rfl i q
theorem rhs_agg_0 (i : S1024x256.Idx) (q : dot_S1024x10240_S10240x256_S1024x256_1_0_0_1_n_n.contr.Idx) :
    (dot_S1024x10240_S10240x256_S1024x256_1_0_0_1_n_n.rhsIdx i q 0).val = (q ⟨0, by decide⟩).val :=
  dot_S1024x10240_S10240x256_S1024x256_1_0_0_1_n_n.rhsIdx_val_of_single rfl i q
theorem rhs_agg_1 (i : S1024x256.Idx) (q : dot_S1024x10240_S10240x256_S1024x256_1_0_0_1_n_n.contr.Idx) :
    (dot_S1024x10240_S10240x256_S1024x256_1_0_0_1_n_n.rhsIdx i q 1).val = (i 1).val := by
  unfold DotDims.rhsIdx
  rw [dif_neg (show ¬(1 : Fin S10240x256.rank) ∈ dot_S1024x10240_S10240x256_S1024x256_1_0_0_1_n_n.rhsBatch by decide), dif_pos (show (1 : Fin S10240x256.rank) ∈ dot_S1024x10240_S10240x256_S1024x256_1_0_0_1_n_n.rhsNonContracting by decide)]
  rfl

/-- The first contraction into the zero splat, at row `p` and feature `f`: the row of edge weights against the
    feature column. -/
theorem agg_apply (x0 : FVec Ideal S1024x10240 .bf16) (x1 : FVec Ideal S10240x256 .bf16) (p : Fin 1024) (f : Fin 256) :
    matmul dot_S1024x10240_S10240x256_S1024x256_1_0_0_1_n_n none x0 x1 (constant (F := Ideal) S1024x256 .f32 0x00000000#32) (ix2 p f)
      = ∑ k : Fin 10240, x0 (ix2 p k) * x1 (ix2 k f) := by
  simp only [matmul]
  rw [Ideal.matmul_constant_zero_apply, ← Equiv.sum_comp (contrEquiv1 dot_S1024x10240_S10240x256_S1024x256_1_0_0_1_n_n 10240 rfl rfl).symm]
  refine Finset.sum_congr rfl fun k _ => ?_
  have hk := contrEquiv1_symm_val dot_S1024x10240_S10240x256_S1024x256_1_0_0_1_n_n 10240 rfl rfl k
  have el : dot_S1024x10240_S10240x256_S1024x256_1_0_0_1_n_n.lhsIdx (ix2 p f) ((contrEquiv1 dot_S1024x10240_S10240x256_S1024x256_1_0_0_1_n_n 10240 rfl rfl).symm k) = ix2 p k := funext fun a => Fin.ext (by
    match a with
    | ⟨0, _⟩ => exact lhs_agg_0 _ _
    | ⟨1, _⟩ => exact (lhs_agg_1 _ _).trans hk)
  have er : dot_S1024x10240_S10240x256_S1024x256_1_0_0_1_n_n.rhsIdx (ix2 p f) ((contrEquiv1 dot_S1024x10240_S10240x256_S1024x256_1_0_0_1_n_n 10240 rfl rfl).symm k) = ix2 k f := funext fun a => Fin.ext (by
    match a with
    | ⟨0, _⟩ => exact (rhs_agg_0 _ _).trans hk
    | ⟨1, _⟩ => exact rhs_agg_1 _ _)
  rw [el, er]

/-- The operand indices of the second contraction (aggregated features times weights), axis by axis. -/
theorem lhs_lin_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_lin_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs_lin_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs_lin_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The second contraction into the zero splat, at row `p` and output column `q`. -/
theorem lin_apply (y : FVec Ideal S1024x256 .f32) (x3 : FVec Ideal S256x256 .f32) (p : Fin 1024) (q : Fin 256) :
    matmul dot_S1024x256_S256x256_S1024x256_1_0_0_1_n_n (some .fp32) y x3 (constant (F := Ideal) S1024x256 .f32 0x00000000#32) (ix2 p q)
      = ∑ f : Fin 256, y (ix2 p f) * x3 (ix2 f q) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun a => Fin.ext (by
    match a with
    | ⟨0, _⟩ => exact lhs_lin_0 _ _
    | ⟨1, _⟩ => exact (lhs_lin_1 _ _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun a => Fin.ext (by
    match a with
    | ⟨0, _⟩ => exact (rhs_lin_0 _ _).trans hk
    | ⟨1, _⟩ => exact rhs_lin_1 _ _)
  rw [el, er]

/-! ## The body's payload at an index -/

/-- The f32 payload at row `p` of the tile and output column `q`. -/
theorem pay1_apply (x0 : Vec Ideal S1024x10240 .bf16) (x1 : Vec Ideal S10240x256 .bf16) (x2 : Vec Ideal S1024x256 .f32)
    (x3 : Vec Ideal S256x256 .f32) (x4 : Vec Ideal S1x256 .f32) (p : Fin 1024) (q : Fin 256) :
    k1_pay1 (F := Ideal) x0 x1 x2 x3 x4 (ix2 p q)
      = max ((∑ f : Fin 256, ((∑ k : Fin 10240, x0 (ix2 p k) * x1 (ix2 k f)) + x2 (ix2 p f)) * x3 (ix2 f q)) + x4 (ix2 0 q)) 0 := by
  unfold k1_pay1
  simp only [shapeCast_self]
  rw [maximumf_apply, addf_apply, lin_apply, broadcastTo_1b_ab_apply, broadcast_apply]
  simp only [addf_apply, mulf_apply, broadcast_apply, agg_apply]
  simp only [Ideal.ofBits_def, Ideal.ofBits_one_f32, Ideal.ofBits_zero_f32, one_mul]

/-- The bf16 payload is the f32 payload narrowed: the same extended real. -/
theorem pay2_apply (x0 : Vec Ideal S1024x10240 .bf16) (x1 : Vec Ideal S10240x256 .bf16) (x2 : Vec Ideal S1024x256 .f32)
    (x3 : Vec Ideal S256x256 .f32) (x4 : Vec Ideal S1x256 .f32) (p : Fin 1024) (q : Fin 256) :
    k1_pay2 (F := Ideal) x0 x1 x2 x3 x4 (ix2 p q)
      = max ((∑ f : Fin 256, ((∑ k : Fin 10240, x0 (ix2 p k) * x1 (ix2 k f)) + x2 (ix2 p f)) * x3 (ix2 f q)) + x4 (ix2 0 q)) 0 := by
  unfold k1_pay2
  rw [truncf_apply, pay1_apply]

variable (V : (c : Dev nD) → (b : Ref sig .tc) → Buf (Elt Ideal) ((c : Thread nD τ).loc b))

/-! ## From the tiles to the arrays -/

theorem zeros2 : (![0, 0] : Fin 2 → Nat) = fun _ => 0 := funext fun a => by fin_cases a <;> rfl

/-- The printed index maps, decided over the grid: the tiled windows move with the row tile, the whole windows stay at
    block (0, 0). -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Row `p` of tile `t` is a row of the padded node range. -/
theorem row_lt (t : Fin cfg1.N) (p : Fin 1024) : t.val * 1024 + p.val < 10240 := by
  have ht : t.val < grid1.N := t.isLt
  have hN : grid1.N = 10 := N_1
  have hp := p.isLt
  omega

/-- The edge-weight tile at point `t`: rows `1024·t + p` of the matrix, every column. -/
theorem tile0_apply (c : Dev nD) (t : Fin cfg1.N) (p : Fin 1024) (k : Fin 10240) :
    (iblk1 V c 0 t : Vec Ideal S1024x10240 .bf16) (ix2 p k)
      = (V c main_v16 : S10240x10240.Idx → EReal) (ix2 (⟨t.val * 1024 + p.val, row_lt t p⟩ : Fin 10240) k) := by
  obtain ⟨e0, e1, -⟩ := index_facts t
  show V c main_v16 (((cfg1.win 0).blk t).view.emb (ix2 p k)) = _
  refine congrArg (V c main_v16) (funext fun a => Fin.ext ?_)
  match a with
  | ⟨0, _⟩ => show win1_0.index t (0 : Fin 2) * 1024 + 1 * p.val = t.val * 1024 + p.val; omega
  | ⟨1, _⟩ => show win1_0.index t (1 : Fin 2) * 10240 + 1 * k.val = k.val; omega

/-- The bf16 features at every point: the whole array. -/
theorem tile1_apply (c : Dev nD) (t : Fin cfg1.N) (k : Fin 10240) (f : Fin 256) :
    (iblk1 V c 1 t : Vec Ideal S10240x256 .bf16) (ix2 k f) = (V c main_v25_1 : S10240x256.Idx → EReal) (ix2 k f) := by
  obtain ⟨-, -, e0, e1, -⟩ := index_facts t
  show V c main_v25_1 (((cfg1.win 1).blk t).view.emb (ix2 k f)) = _
  refine congrArg (V c main_v25_1) (funext fun a => Fin.ext ?_)
  match a with
  | ⟨0, _⟩ => show win1_1.index t (0 : Fin 2) * 10240 + 1 * k.val = k.val; omega
  | ⟨1, _⟩ => show win1_1.index t (1 : Fin 2) * 256 + 1 * f.val = f.val; omega

/-- The f32 feature tile at point `t`: rows `1024·t + p`. -/
theorem tile2_apply (c : Dev nD) (t : Fin cfg1.N) (p : Fin 1024) (f : Fin 256) :
    (iblk1 V c 2 t : Vec Ideal S1024x256 .f32) (ix2 p f)
      = (V c main_v25_0 : S10240x256.Idx → EReal) (ix2 (⟨t.val * 1024 + p.val, row_lt t p⟩ : Fin 10240) f) := by
  obtain ⟨-, -, -, -, e0, e1, -⟩ := index_facts t
  show V c main_v25_0 (((cfg1.win 2).blk t).view.emb (ix2 p f)) = _
  refine congrArg (V c main_v25_0) (funext fun a => Fin.ext ?_)
  match a with
  | ⟨0, _⟩ => show win1_2.index t (0 : Fin 2) * 1024 + 1 * p.val = t.val * 1024 + p.val; omega
  | ⟨1, _⟩ => show win1_2.index t (1 : Fin 2) * 256 + 1 * f.val = f.val; omega

/-- The weights at every point: the whole array. -/
theorem tile3_apply (c : Dev nD) (t : Fin cfg1.N) (f : Fin 256) (q : Fin 256) :
    (iblk1 V c 3 t : Vec Ideal S256x256 .f32) (ix2 f q) = (V c main_v20 : S256x256.Idx → EReal) (ix2 f q) := by
  obtain ⟨-, -, -, -, -, -, e0, e1, -⟩ := index_facts t
  show V c main_v20 (((cfg1.win 3).blk t).view.emb (ix2 f q)) = _
  refine congrArg (V c main_v20) (funext fun a => Fin.ext ?_)
  match a with
  | ⟨0, _⟩ => show win1_3.index t (0 : Fin 2) * 256 + 1 * f.val = f.val; omega
  | ⟨1, _⟩ => show win1_3.index t (1 : Fin 2) * 256 + 1 * q.val = q.val; omega

/-- The bias row at every point: the whole array. -/
theorem tile4_apply (c : Dev nD) (t : Fin cfg1.N) (z : Fin 1) (q : Fin 256) :
    (iblk1 V c 4 t : Vec Ideal S1x256 .f32) (ix2 z q) = (V c main_v23 : S1x256.Idx → EReal) (ix2 z q) := by
  obtain ⟨-, -, -, -, -, -, -, -, e0, e1, -⟩ := index_facts t
  show V c main_v23 (((cfg1.win 4).blk t).view.emb (ix2 z q)) = _
  refine congrArg (V c main_v23) (funext fun a => Fin.ext ?_)
  match a with
  | ⟨0, _⟩ => show win1_4.index t (0 : Fin 2) * 1 + 1 * z.val = z.val; omega
  | ⟨1, _⟩ => show win1_4.index t (1 : Fin 2) * 256 + 1 * q.val = q.val; omega

/-- Where element `(p, q)` of the f32 result's tile at point `t` sits in the array. -/
theorem out5_emb (t : Fin cfg1.N) (p : Fin 1024) (q : Fin 256) :
    ((cfg1.win 5).blk t).view.emb (ix2 p q) = ix2 (⟨t.val * 1024 + p.val, row_lt t p⟩ : Fin 10240) q := by
  obtain ⟨-, -, -, -, -, -, -, -, -, -, e50, e51, e60, e61⟩ := index_facts t
  refine funext fun a => Fin.ext ?_
  match a with
  | ⟨0, _⟩ => show win1_5.index t (0 : Fin 2) * 1024 + 1 * p.val = t.val * 1024 + p.val; omega
  | ⟨1, _⟩ => show win1_5.index t (1 : Fin 2) * 256 + 1 * q.val = q.val; omega

/-- WHAT POINT `t` WRITES BACK to the f32 result is tile `t` of the layer's function of the arrays the call reads. -/
theorem flushed5_eq (c : Dev nD) (t : Fin cfg1.N) :
    (dat1 (F := Ideal) V c).flushed 5 t = ((cfg1.win 5).blk t).view.read (Elt Ideal)
      (Cert.Gin.kerLayer (V c main_v16) (V c main_v25_1) (V c main_v25_0) (V c main_v20) (V c main_v23)) := by
  show (cfg1.win 5).cut (grid1.coords t) ((dat1 V c).after 5 t) = _
  rw [after1_5]
  unfold out1_5
  rw [View.canon_unit_zero zeros2]
  simp only [View.ld_unit_zero (S := S1024x10240) zeros2, View.ld_unit_zero (S := S10240x256) zeros2,
    View.ld_unit_zero (S := S1024x256) zeros2, View.ld_unit_zero (S := S256x256) zeros2, View.ld_unit_zero (S := S1x256) zeros2]
  funext j
  obtain ⟨p, q, rfl⟩ : ∃ (p : Fin 1024) (q : Fin 256), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = Cert.Gin.kerLayer (V c main_v16) (V c main_v25_1) (V c main_v25_0) (V c main_v20) (V c main_v23) (((cfg1.win 5).blk t).view.emb (ix2 p q))
  rw [out5_emb, pay1_apply]
  simp only [tile0_apply, tile1_apply, tile2_apply, tile3_apply, tile4_apply]
  rfl

/-- An index of the f32 result array is in point `t`'s tile iff each coordinate is in the tile's range on its axis. -/
theorem mem_tile5 (t : Fin cfg1.N) (i : S10240x256.Idx) :
    i ∈ ((cfg1.win 5).blk t).view.set ↔ ∀ a : Fin 2, win1_5.index t a * S1024x256.size a ≤ (i a).val ∧ (i a).val < win1_5.index t a * S1024x256.size a + S1024x256.size a := by
  show i ∈ ((View.whole main_v26_0).slice (win1_5.rect t)).set ↔ _
  rw [View.set_slice_whole, Rect.mem_set_unit]
  exact Iff.rfl

/-- The ten tiles cover the f32 result array: row `r` lies in the tile of point `r / 1024`, which writes back. -/
theorem cover5 (i : S10240x256.Idx) :
    ∃ t : Fin cfg1.N, (cfg1.win 5).flush t = true ∧ i ∈ ((cfg1.win 5).blk t).view.set := by
  have hi0 : (i 0).val < 10240 := (i 0).isLt
  have hi1 : (i 1).val < 256 := (i 1).isLt
  have hN : grid1.N = 10 := N_1
  have ht : (i 0).val / 1024 < grid1.N := by omega
  obtain ⟨-, -, -, -, -, -, -, -, -, -, e50, e51, e60, e61⟩ := index_facts ⟨(i 0).val / 1024, ht⟩
  refine ⟨⟨(i 0).val / 1024, ht⟩, flush1_5 _, ?_⟩
  rw [mem_tile5]
  intro a
  match a with
  | ⟨0, _⟩ =>
    show win1_5.index ⟨(i 0).val / 1024, ht⟩ (0 : Fin 2) * 1024 ≤ (i 0).val ∧ (i 0).val < win1_5.index ⟨(i 0).val / 1024, ht⟩ (0 : Fin 2) * 1024 + 1024
    have hv : (⟨(i 0).val / 1024, ht⟩ : Fin cfg1.N).val = (i 0).val / 1024 := rfl
    omega
  | ⟨1, _⟩ =>
    show win1_5.index ⟨(i 0).val / 1024, ht⟩ (1 : Fin 2) * 256 ≤ (i 1).val ∧ (i 1).val < win1_5.index ⟨(i 0).val / 1024, ht⟩ (1 : Fin 2) * 256 + 256
    omega

/-- Where element `(p, q)` of the bf16 result's tile at point `t` sits in the array. -/
theorem out6_emb (t : Fin cfg1.N) (p : Fin 1024) (q : Fin 256) :
    ((cfg1.win 6).blk t).view.emb (ix2 p q) = ix2 (⟨t.val * 1024 + p.val, row_lt t p⟩ : Fin 10240) q := by
  obtain ⟨-, -, -, -, -, -, -, -, -, -, e50, e51, e60, e61⟩ := index_facts t
  refine funext fun a => Fin.ext ?_
  match a with
  | ⟨0, _⟩ => show win1_6.index t (0 : Fin 2) * 1024 + 1 * p.val = t.val * 1024 + p.val; omega
  | ⟨1, _⟩ => show win1_6.index t (1 : Fin 2) * 256 + 1 * q.val = q.val; omega

/-- WHAT POINT `t` WRITES BACK to the bf16 result is tile `t` of the layer's function of the arrays the call reads. -/
theorem flushed6_eq (c : Dev nD) (t : Fin cfg1.N) :
    (dat1 (F := Ideal) V c).flushed 6 t = ((cfg1.win 6).blk t).view.read (Elt Ideal)
      (Cert.Gin.kerLayer (V c main_v16) (V c main_v25_1) (V c main_v25_0) (V c main_v20) (V c main_v23)) := by
  show (cfg1.win 6).cut (grid1.coords t) ((dat1 V c).after 6 t) = _
  rw [after1_6]
  unfold out1_6
  rw [View.canon_unit_zero zeros2]
  simp only [View.ld_unit_zero (S := S1024x10240) zeros2, View.ld_unit_zero (S := S10240x256) zeros2,
    View.ld_unit_zero (S := S1024x256) zeros2, View.ld_unit_zero (S := S256x256) zeros2, View.ld_unit_zero (S := S1x256) zeros2]
  funext j
  obtain ⟨p, q, rfl⟩ : ∃ (p : Fin 1024) (q : Fin 256), j = ix2 p q := ⟨j 0, j 1, eq_ix2 j⟩
  show k1_pay2 (F := Ideal) (iblk1 V c 0 t) (iblk1 V c 1 t) (iblk1 V c 2 t) (iblk1 V c 3 t) (iblk1 V c 4 t) (ix2 p q)
    = Cert.Gin.kerLayer (V c main_v16) (V c main_v25_1) (V c main_v25_0) (V c main_v20) (V c main_v23) (((cfg1.win 6).blk t).view.emb (ix2 p q))
  rw [out6_emb, pay2_apply]
  simp only [tile0_apply, tile1_apply, tile2_apply, tile3_apply, tile4_apply]
  rfl

/-- An index of the bf16 result array is in point `t`'s tile iff each coordinate is in the tile's range on its axis. -/
theorem mem_tile6 (t : Fin cfg1.N) (i : S10240x256.Idx) :
    i ∈ ((cfg1.win 6).blk t).view.set ↔ ∀ a : Fin 2, win1_6.index t a * S1024x256.size a ≤ (i a).val ∧ (i a).val < win1_6.index t a * S1024x256.size a + S1024x256.size a := by
  show i ∈ ((View.whole main_v26_1).slice (win1_6.rect t)).set ↔ _
  rw [View.set_slice_whole, Rect.mem_set_unit]
  exact Iff.rfl

/-- The ten tiles cover the bf16 result array: row `r` lies in the tile of point `r / 1024`, which writes back. -/
theorem cover6 (i : S10240x256.Idx) :
    ∃ t : Fin cfg1.N, (cfg1.win 6).flush t = true ∧ i ∈ ((cfg1.win 6).blk t).view.set := by
  have hi0 : (i 0).val < 10240 := (i 0).isLt
  have hi1 : (i 1).val < 256 := (i 1).isLt
  have hN : grid1.N = 10 := N_1
  have ht : (i 0).val / 1024 < grid1.N := by omega
  obtain ⟨-, -, -, -, -, -, -, -, -, -, e50, e51, e60, e61⟩ := index_facts ⟨(i 0).val / 1024, ht⟩
  refine ⟨⟨(i 0).val / 1024, ht⟩, flush1_6 _, ?_⟩
  rw [mem_tile6]
  intro a
  match a with
  | ⟨0, _⟩ =>
    show win1_6.index ⟨(i 0).val / 1024, ht⟩ (0 : Fin 2) * 1024 ≤ (i 0).val ∧ (i 0).val < win1_6.index ⟨(i 0).val / 1024, ht⟩ (0 : Fin 2) * 1024 + 1024
    have hv : (⟨(i 0).val / 1024, ht⟩ : Fin cfg1.N).val = (i 0).val / 1024 := rfl
    omega
  | ⟨1, _⟩ =>
    show win1_6.index ⟨(i 0).val / 1024, ht⟩ (1 : Fin 2) * 256 ≤ (i 1).val ∧ (i 1).val < win1_6.index ⟨(i 0).val / 1024, ht⟩ (1 : Fin 2) * 256 + 256
    omega

/-- The f32 result array (window 5) after the call. -/
theorem final1_5 (c : Dev nD) :
    (dat1 (F := Ideal) V c).arrAt 5 cfg1.N
      = Cert.Gin.kerLayer (V c main_v16) (V c main_v25_1) (V c main_v25_0) (V c main_v20) (V c main_v23) :=
  (dat1 (F := Ideal) V c).arrAt_eq_of_cover 5
    (Cert.Gin.kerLayer (V c main_v16) (V c main_v25_1) (V c main_v25_0) (V c main_v20) (V c main_v23))
    (fun t _ => flushed5_eq V c t) cover5

/-- The bf16 result array (window 6) after the call: the same extended reals. -/
theorem final1_6 (c : Dev nD) :
    (dat1 (F := Ideal) V c).arrAt 6 cfg1.N
      = Cert.Gin.kerLayer (V c main_v16) (V c main_v25_1) (V c main_v25_0) (V c main_v20) (V c main_v23) :=
  (dat1 (F := Ideal) V c).arrAt_eq_of_cover 6
    (Cert.Gin.kerLayer (V c main_v16) (V c main_v25_1) (V c main_v25_0) (V c main_v20) (V c main_v23))
    (fun t _ => flushed6_eq V c t) cover6

end Cert.KernelIdeal.GinLayer1

end
-- ==== Proof.KLayer2.lean ====
/-
  What the third layer's call leaves in its two result arrays, as ONE function of the arrays it reads.

  The call runs over ten row tiles of 1024 rows. At tile `t` the body reads rows [1024·t, 1024·t + 1024) of the dense
  edge-weight matrix `S` and of the features `xf`, the whole of the features `xb`, of the weights `Wt` and of the bias
  row, and stores `relu((S_tile · xb + 1·xf_tile) · Wt + b)` whole into its tile of both results (the second result is
  the first in a narrower float format: the same extended real). The ten tiles cover the 10240 rows, so each result
  array ends as `kerLayer S xb xf Wt b`.
-/
import proofs.«403632_j30339648979124_3_alg».proof.Proof.Gen.KernelIdeal.Frame
import proofs.«403632_j30339648979124_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.GinLayer2

open Idealize.ShloMosaic Idealize.ShloMosaic.TcCoe Idealize.SL.Sem Idealize.ShloMosaic.ValueIdx
open Idealize.ShloMosaic.Pipeline (Dat Cfg Window)
open Cert.KernelIdeal Cert.KernelIdeal.Gen

/-! ## The two contractions read at an index -/

/-- The operand indices of the first contraction (edge weights times features), axis by axis. -/
theorem lhs_agg_0 (i : S1024x256.Idx) (q : dot_S1024x10240_S10240x256_S1024x256_1_0_0_1_n_n.contr.Idx) :
    (dot_S1024x10240_S10240x256_S1024x256_1_0_0_1_n_n.lhsIdx i q 0).val = (i 0).val := by
  unfold DotDims.lhsIdx
  rw [dif_neg (show ¬(0 : Fin S1024x10240.rank) ∈ dot_S1024x10240_S10240x256_S1024x256_1_0_0_1_n_n.lhsBatch by decide), dif_pos (show (0 : Fin S1024x10240.rank) ∈ dot_S1024x10240_S10240x256_S1024x256_1_0_0_1_n_n.lhsNonContracting by decide)]
  rfl
theorem lhs_agg_1 (i : S1024x256.Idx) (q : dot_S1024x10240_S10240x256_S1024x256_1_0_0_1_n_n.contr.Idx) :
    (dot_S1024x10240_S10240x256_S1024x256_1_0_0_1_n_n.lhsIdx i q 1).val = (q ⟨0, by decide⟩).val :=
  dot_S1024x10240_S10240x256_S1024x256_1_0_0_1_n_n.lhsIdx_val_of_single rfl i q
theorem rhs_agg_0 (i : S1024x256.Idx) (q : dot_S1024x10240_S10240x256_S1024x256_1_0_0_1_n_n.contr.Idx) :
    (dot_S1024x10240_S10240x256_S1024x256_1_0_0_1_n_n.rhsIdx i q 0).val = (q ⟨0, by decide⟩).val :=
  dot_S1024x10240_S10240x256_S1024x256_1_0_0_1_n_n.rhsIdx_val_of_single rfl i q
theorem rhs_agg_1 (i : S1024x256.Idx) (q : dot_S1024x10240_S10240x256_S1024x256_1_0_0_1_n_n.contr.Idx) :
    (dot_S1024x10240_S10240x256_S1024x256_1_0_0_1_n_n.rhsIdx i q 1).val = (i 1).val := by
  unfold DotDims.rhsIdx
  rw [dif_neg (show ¬(1 : Fin S10240x256.rank) ∈ dot_S1024x10240_S10240x256_S1024x256_1_0_0_1_n_n.rhsBatch by decide), dif_pos (show (1 : Fin S10240x256.rank) ∈ dot_S1024x10240_S10240x256_S1024x256_1_0_0_1_n_n.rhsNonContracting by decide)]
  rfl

/-- The first contraction into the zero splat, at row `p` and feature `f`: the row of edge weights against the
    feature column. -/
theorem agg_apply (x0 : FVec Ideal S1024x10240 .bf16) (x1 : FVec Ideal S10240x256 .bf16) (p : Fin 1024) (f : Fin 256) :
    matmul dot_S1024x10240_S10240x256_S1024x256_1_0_0_1_n_n none x0 x1 (constant (F := Ideal) S1024x256 .f32 0x00000000#32) (ix2 p f)
      = ∑ k : Fin 10240, x0 (ix2 p k) * x1 (ix2 k f) := by
  simp only [matmul]
  rw [Ideal.matmul_constant_zero_apply, ← Equiv.sum_comp (contrEquiv1 dot_S1024x10240_S10240x256_S1024x256_1_0_0_1_n_n 10240 rfl rfl).symm]
  refine Finset.sum_congr rfl fun k _ => ?_
  have hk := contrEquiv1_symm_val dot_S1024x10240_S10240x256_S1024x256_1_0_0_1_n_n 10240 rfl rfl k
  have el : dot_S1024x10240_S10240x256_S1024x256_1_0_0_1_n_n.lhsIdx (ix2 p f) ((contrEquiv1 dot_S1024x10240_S10240x256_S1024x256_1_0_0_1_n_n 10240 rfl rfl).symm k) = ix2 p k := funext fun a => Fin.ext (by
    match a with
    | ⟨0, _⟩ => exact lhs_agg_0 _ _
    | ⟨1, _⟩ => exact (lhs_agg_1 _ _).trans hk)
  have er : dot_S1024x10240_S10240x256_S1024x256_1_0_0_1_n_n.rhsIdx (ix2 p f) ((contrEquiv1 dot_S1024x10240_S10240x256_S1024x256_1_0_0_1_n_n 10240 rfl rfl).symm k) = ix2 k f := funext fun a => Fin.ext (by
    match a with
    | ⟨0, _⟩ => exact (rhs_agg_0 _ _).trans hk
    | ⟨1, _⟩ => exact rhs_agg_1 _ _)
  rw [el, er]

/-- The operand indices of the second contraction (aggregated features times weights), axis by axis. -/
theorem lhs_lin_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_lin_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs_lin_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs_lin_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The second contraction into the zero splat, at row `p` and output column `q`. -/
theorem lin_apply (y : FVec Ideal S1024x256 .f32) (x3 : FVec Ideal S256x256 .f32) (p : Fin 1024) (q : Fin 256) :
    matmul dot_S1024x256_S256x256_S1024x256_1_0_0_1_n_n (some .fp32) y x3 (constant (F := Ideal) S1024x256 .f32 0x00000000#32) (ix2 p q)
      = ∑ f : Fin 256, y (ix2 p f) * x3 (ix2 f q) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun a => Fin.ext (by
    match a with
    | ⟨0, _⟩ => exact lhs_lin_0 _ _
    | ⟨1, _⟩ => exact (lhs_lin_1 _ _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun a => Fin.ext (by
    match a with
    | ⟨0, _⟩ => exact (rhs_lin_0 _ _).trans hk
    | ⟨1, _⟩ => exact rhs_lin_1 _ _)
  rw [el, er]

/-! ## The body's payload at an index -/

/-- The f32 payload at row `p` of the tile and output column `q`. -/
theorem pay1_apply (x0 : Vec Ideal S1024x10240 .bf16) (x1 : Vec Ideal S10240x256 .bf16) (x2 : Vec Ideal S1024x256 .f32)
    (x3 : Vec Ideal S256x256 .f32) (x4 : Vec Ideal S1x256 .f32) (p : Fin 1024) (q : Fin 256) :
    k2_pay1 (F := Ideal) x0 x1 x2 x3 x4 (ix2 p q)
      = max ((∑ f : Fin 256, ((∑ k : Fin 10240, x0 (ix2 p k) * x1 (ix2 k f)) + x2 (ix2 p f)) * x3 (ix2 f q)) + x4 (ix2 0 q)) 0 := by
  unfold k2_pay1
  simp only [shapeCast_self]
  rw [maximumf_apply, addf_apply, lin_apply, broadcastTo_1b_ab_apply, broadcast_apply]
  simp only [addf_apply, mulf_apply, broadcast_apply, agg_apply]
  simp only [Ideal.ofBits_def, Ideal.ofBits_one_f32, Ideal.ofBits_zero_f32, one_mul]

/-- The bf16 payload is the f32 payload narrowed: the same extended real. -/
theorem pay2_apply (x0 : Vec Ideal S1024x10240 .bf16) (x1 : Vec Ideal S10240x256 .bf16) (x2 : Vec Ideal S1024x256 .f32)
    (x3 : Vec Ideal S256x256 .f32) (x4 : Vec Ideal S1x256 .f32) (p : Fin 1024) (q : Fin 256) :
    k2_pay2 (F := Ideal) x0 x1 x2 x3 x4 (ix2 p q)
      = max ((∑ f : Fin 256, ((∑ k : Fin 10240, x0 (ix2 p k) * x1 (ix2 k f)) + x2 (ix2 p f)) * x3 (ix2 f q)) + x4 (ix2 0 q)) 0 := by
  unfold k2_pay2
  rw [truncf_apply, pay1_apply]

variable (V : (c : Dev nD) → (b : Ref sig .tc) → Buf (Elt Ideal) ((c : Thread nD τ).loc b))

/-! ## From the tiles to the arrays -/

theorem zeros2 : (![0, 0] : Fin 2 → Nat) = fun _ => 0 := funext fun a => by fin_cases a <;> rfl

/-- The printed index maps, decided over the grid: the tiled windows move with the row tile, the whole windows stay at
    block (0, 0). -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Row `p` of tile `t` is a row of the padded node range. -/
theorem row_lt (t : Fin cfg2.N) (p : Fin 1024) : t.val * 1024 + p.val < 10240 := by
  have ht : t.val < grid2.N := t.isLt
  have hN : grid2.N = 10 := N_2
  have hp := p.isLt
  omega

/-- The edge-weight tile at point `t`: rows `1024·t + p` of the matrix, every column. -/
theorem tile0_apply (c : Dev nD) (t : Fin cfg2.N) (p : Fin 1024) (k : Fin 10240) :
    (iblk2 V c 0 t : Vec Ideal S1024x10240 .bf16) (ix2 p k)
      = (V c main_v16 : S10240x10240.Idx → EReal) (ix2 (⟨t.val * 1024 + p.val, row_lt t p⟩ : Fin 10240) k) := by
  obtain ⟨e0, e1, -⟩ := index_facts t
  show V c main_v16 (((cfg2.win 0).blk t).view.emb (ix2 p k)) = _
  refine congrArg (V c main_v16) (funext fun a => Fin.ext ?_)
  match a with
  | ⟨0, _⟩ => show win2_0.index t (0 : Fin 2) * 1024 + 1 * p.val = t.val * 1024 + p.val; omega
  | ⟨1, _⟩ => show win2_0.index t (1 : Fin 2) * 10240 + 1 * k.val = k.val; omega

/-- The bf16 features at every point: the whole array. -/
theorem tile1_apply (c : Dev nD) (t : Fin cfg2.N) (k : Fin 10240) (f : Fin 256) :
    (iblk2 V c 1 t : Vec Ideal S10240x256 .bf16) (ix2 k f) = (V c main_v26_1 : S10240x256.Idx → EReal) (ix2 k f) := by
  obtain ⟨-, -, e0, e1, -⟩ := index_facts t
  show V c main_v26_1 (((cfg2.win 1).blk t).view.emb (ix2 k f)) = _
  refine congrArg (V c main_v26_1) (funext fun a => Fin.ext ?_)
  match a with
  | ⟨0, _⟩ => show win2_1.index t (0 : Fin 2) * 10240 + 1 * k.val = k.val; omega
  | ⟨1, _⟩ => show win2_1.index t (1 : Fin 2) * 256 + 1 * f.val = f.val; omega

/-- The f32 feature tile at point `t`: rows `1024·t + p`. -/
theorem tile2_apply (c : Dev nD) (t : Fin cfg2.N) (p : Fin 1024) (f : Fin 256) :
    (iblk2 V c 2 t : Vec Ideal S1024x256 .f32) (ix2 p f)
      = (V c main_v26_0 : S10240x256.Idx → EReal) (ix2 (⟨t.val * 1024 + p.val, row_lt t p⟩ : Fin 10240) f) := by
  obtain ⟨-, -, -, -, e0, e1, -⟩ := index_facts t
  show V c main_v26_0 (((cfg2.win 2).blk t).view.emb (ix2 p f)) = _
  refine congrArg (V c main_v26_0) (funext fun a => Fin.ext ?_)
  match a with
  | ⟨0, _⟩ => show win2_2.index t (0 : Fin 2) * 1024 + 1 * p.val = t.val * 1024 + p.val; omega
  | ⟨1, _⟩ => show win2_2.index t (1 : Fin 2) * 256 + 1 * f.val = f.val; omega

/-- The weights at every point: the whole array. -/
theorem tile3_apply (c : Dev nD) (t : Fin cfg2.N) (f : Fin 256) (q : Fin 256) :
    (iblk2 V c 3 t : Vec Ideal S256x256 .f32) (ix2 f q) = (V c main_v21 : S256x256.Idx → EReal) (ix2 f q) := by
  obtain ⟨-, -, -, -, -, -, e0, e1, -⟩ := index_facts t
  show V c main_v21 (((cfg2.win 3).blk t).view.emb (ix2 f q)) = _
  refine congrArg (V c main_v21) (funext fun a => Fin.ext ?_)
  match a with
  | ⟨0, _⟩ => show win2_3.index t (0 : Fin 2) * 256 + 1 * f.val = f.val; omega
  | ⟨1, _⟩ => show win2_3.index t (1 : Fin 2) * 256 + 1 * q.val = q.val; omega

/-- The bias row at every point: the whole array. -/
theorem tile4_apply (c : Dev nD) (t : Fin cfg2.N) (z : Fin 1) (q : Fin 256) :
    (iblk2 V c 4 t : Vec Ideal S1x256 .f32) (ix2 z q) = (V c main_v24 : S1x256.Idx → EReal) (ix2 z q) := by
  obtain ⟨-, -, -, -, -, -, -, -, e0, e1, -⟩ := index_facts t
  show V c main_v24 (((cfg2.win 4).blk t).view.emb (ix2 z q)) = _
  refine congrArg (V c main_v24) (funext fun a => Fin.ext ?_)
  match a with
  | ⟨0, _⟩ => show win2_4.index t (0 : Fin 2) * 1 + 1 * z.val = z.val; omega
  | ⟨1, _⟩ => show win2_4.index t (1 : Fin 2) * 256 + 1 * q.val = q.val; omega

/-- Where element `(p, q)` of the f32 result's tile at point `t` sits in the array. -/
theorem out5_emb (t : Fin cfg2.N) (p : Fin 1024) (q : Fin 256) :
    ((cfg2.win 5).blk t).view.emb (ix2 p q) = ix2 (⟨t.val * 1024 + p.val, row_lt t p⟩ : Fin 10240) q := by
  obtain ⟨-, -, -, -, -, -, -, -, -, -, e50, e51, e60, e61⟩ := index_facts t
  refine funext fun a => Fin.ext ?_
  match a with
  | ⟨0, _⟩ => show win2_5.index t (0 : Fin 2) * 1024 + 1 * p.val = t.val * 1024 + p.val; omega
  | ⟨1, _⟩ => show win2_5.index t (1 : Fin 2) * 256 + 1 * q.val = q.val; omega

/-- WHAT POINT `t` WRITES BACK to the f32 result is tile `t` of the layer's function of the arrays the call reads. -/
theorem flushed5_eq (c : Dev nD) (t : Fin cfg2.N) :
    (dat2 (F := Ideal) V c).flushed 5 t = ((cfg2.win 5).blk t).view.read (Elt Ideal)
      (Cert.Gin.kerLayer (V c main_v16) (V c main_v26_1) (V c main_v26_0) (V c main_v21) (V c main_v24)) := by
  show (cfg2.win 5).cut (grid2.coords t) ((dat2 V c).after 5 t) = _
  rw [after2_5]
  unfold out2_5
  rw [View.canon_unit_zero zeros2]
  simp only [View.ld_unit_zero (S := S1024x10240) zeros2, View.ld_unit_zero (S := S10240x256) zeros2,
    View.ld_unit_zero (S := S1024x256) zeros2, View.ld_unit_zero (S := S256x256) zeros2, View.ld_unit_zero (S := S1x256) zeros2]
  funext j
  obtain ⟨p, q, rfl⟩ : ∃ (p : Fin 1024) (q : Fin 256), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = Cert.Gin.kerLayer (V c main_v16) (V c main_v26_1) (V c main_v26_0) (V c main_v21) (V c main_v24) (((cfg2.win 5).blk t).view.emb (ix2 p q))
  rw [out5_emb, pay1_apply]
  simp only [tile0_apply, tile1_apply, tile2_apply, tile3_apply, tile4_apply]
  rfl

/-- An index of the f32 result array is in point `t`'s tile iff each coordinate is in the tile's range on its axis. -/
theorem mem_tile5 (t : Fin cfg2.N) (i : S10240x256.Idx) :
    i ∈ ((cfg2.win 5).blk t).view.set ↔ ∀ a : Fin 2, win2_5.index t a * S1024x256.size a ≤ (i a).val ∧ (i a).val < win2_5.index t a * S1024x256.size a + S1024x256.size a := by
  show i ∈ ((View.whole main_v27_0).slice (win2_5.rect t)).set ↔ _
  rw [View.set_slice_whole, Rect.mem_set_unit]
  exact Iff.rfl

/-- The ten tiles cover the f32 result array: row `r` lies in the tile of point `r / 1024`, which writes back. -/
theorem cover5 (i : S10240x256.Idx) :
    ∃ t : Fin cfg2.N, (cfg2.win 5).flush t = true ∧ i ∈ ((cfg2.win 5).blk t).view.set := by
  have hi0 : (i 0).val < 10240 := (i 0).isLt
  have hi1 : (i 1).val < 256 := (i 1).isLt
  have hN : grid2.N = 10 := N_2
  have ht : (i 0).val / 1024 < grid2.N := by omega
  obtain ⟨-, -, -, -, -, -, -, -, -, -, e50, e51, e60, e61⟩ := index_facts ⟨(i 0).val / 1024, ht⟩
  refine ⟨⟨(i 0).val / 1024, ht⟩, flush2_5 _, ?_⟩
  rw [mem_tile5]
  intro a
  match a with
  | ⟨0, _⟩ =>
    show win2_5.index ⟨(i 0).val / 1024, ht⟩ (0 : Fin 2) * 1024 ≤ (i 0).val ∧ (i 0).val < win2_5.index ⟨(i 0).val / 1024, ht⟩ (0 : Fin 2) * 1024 + 1024
    have hv : (⟨(i 0).val / 1024, ht⟩ : Fin cfg2.N).val = (i 0).val / 1024 := rfl
    omega
  | ⟨1, _⟩ =>
    show win2_5.index ⟨(i 0).val / 1024, ht⟩ (1 : Fin 2) * 256 ≤ (i 1).val ∧ (i 1).val < win2_5.index ⟨(i 0).val / 1024, ht⟩ (1 : Fin 2) * 256 + 256
    omega

/-- Where element `(p, q)` of the bf16 result's tile at point `t` sits in the array. -/
theorem out6_emb (t : Fin cfg2.N) (p : Fin 1024) (q : Fin 256) :
    ((cfg2.win 6).blk t).view.emb (ix2 p q) = ix2 (⟨t.val * 1024 + p.val, row_lt t p⟩ : Fin 10240) q := by
  obtain ⟨-, -, -, -, -, -, -, -, -, -, e50, e51, e60, e61⟩ := index_facts t
  refine funext fun a => Fin.ext ?_
  match a with
  | ⟨0, _⟩ => show win2_6.index t (0 : Fin 2) * 1024 + 1 * p.val = t.val * 1024 + p.val; omega
  | ⟨1, _⟩ => show win2_6.index t (1 : Fin 2) * 256 + 1 * q.val = q.val; omega

/-- WHAT POINT `t` WRITES BACK to the bf16 result is tile `t` of the layer's function of the arrays the call reads. -/
theorem flushed6_eq (c : Dev nD) (t : Fin cfg2.N) :
    (dat2 (F := Ideal) V c).flushed 6 t = ((cfg2.win 6).blk t).view.read (Elt Ideal)
      (Cert.Gin.kerLayer (V c main_v16) (V c main_v26_1) (V c main_v26_0) (V c main_v21) (V c main_v24)) := by
  show (cfg2.win 6).cut (grid2.coords t) ((dat2 V c).after 6 t) = _
  rw [after2_6]
  unfold out2_6
  rw [View.canon_unit_zero zeros2]
  simp only [View.ld_unit_zero (S := S1024x10240) zeros2, View.ld_unit_zero (S := S10240x256) zeros2,
    View.ld_unit_zero (S := S1024x256) zeros2, View.ld_unit_zero (S := S256x256) zeros2, View.ld_unit_zero (S := S1x256) zeros2]
  funext j
  obtain ⟨p, q, rfl⟩ : ∃ (p : Fin 1024) (q : Fin 256), j = ix2 p q := ⟨j 0, j 1, eq_ix2 j⟩
  show k2_pay2 (F := Ideal) (iblk2 V c 0 t) (iblk2 V c 1 t) (iblk2 V c 2 t) (iblk2 V c 3 t) (iblk2 V c 4 t) (ix2 p q)
    = Cert.Gin.kerLayer (V c main_v16) (V c main_v26_1) (V c main_v26_0) (V c main_v21) (V c main_v24) (((cfg2.win 6).blk t).view.emb (ix2 p q))
  rw [out6_emb, pay2_apply]
  simp only [tile0_apply, tile1_apply, tile2_apply, tile3_apply, tile4_apply]
  rfl

/-- An index of the bf16 result array is in point `t`'s tile iff each coordinate is in the tile's range on its axis. -/
theorem mem_tile6 (t : Fin cfg2.N) (i : S10240x256.Idx) :
    i ∈ ((cfg2.win 6).blk t).view.set ↔ ∀ a : Fin 2, win2_6.index t a * S1024x256.size a ≤ (i a).val ∧ (i a).val < win2_6.index t a * S1024x256.size a + S1024x256.size a := by
  show i ∈ ((View.whole main_v27_1).slice (win2_6.rect t)).set ↔ _
  rw [View.set_slice_whole, Rect.mem_set_unit]
  exact Iff.rfl

/-- The ten tiles cover the bf16 result array: row `r` lies in the tile of point `r / 1024`, which writes back. -/
theorem cover6 (i : S10240x256.Idx) :
    ∃ t : Fin cfg2.N, (cfg2.win 6).flush t = true ∧ i ∈ ((cfg2.win 6).blk t).view.set := by
  have hi0 : (i 0).val < 10240 := (i 0).isLt
  have hi1 : (i 1).val < 256 := (i 1).isLt
  have hN : grid2.N = 10 := N_2
  have ht : (i 0).val / 1024 < grid2.N := by omega
  obtain ⟨-, -, -, -, -, -, -, -, -, -, e50, e51, e60, e61⟩ := index_facts ⟨(i 0).val / 1024, ht⟩
  refine ⟨⟨(i 0).val / 1024, ht⟩, flush2_6 _, ?_⟩
  rw [mem_tile6]
  intro a
  match a with
  | ⟨0, _⟩ =>
    show win2_6.index ⟨(i 0).val / 1024, ht⟩ (0 : Fin 2) * 1024 ≤ (i 0).val ∧ (i 0).val < win2_6.index ⟨(i 0).val / 1024, ht⟩ (0 : Fin 2) * 1024 + 1024
    have hv : (⟨(i 0).val / 1024, ht⟩ : Fin cfg2.N).val = (i 0).val / 1024 := rfl
    omega
  | ⟨1, _⟩ =>
    show win2_6.index ⟨(i 0).val / 1024, ht⟩ (1 : Fin 2) * 256 ≤ (i 1).val ∧ (i 1).val < win2_6.index ⟨(i 0).val / 1024, ht⟩ (1 : Fin 2) * 256 + 256
    omega

/-- The f32 result array (window 5) after the call. -/
theorem final2_5 (c : Dev nD) :
    (dat2 (F := Ideal) V c).arrAt 5 cfg2.N
      = Cert.Gin.kerLayer (V c main_v16) (V c main_v26_1) (V c main_v26_0) (V c main_v21) (V c main_v24) :=
  (dat2 (F := Ideal) V c).arrAt_eq_of_cover 5
    (Cert.Gin.kerLayer (V c main_v16) (V c main_v26_1) (V c main_v26_0) (V c main_v21) (V c main_v24))
    (fun t _ => flushed5_eq V c t) cover5

/-- The bf16 result array (window 6) after the call: the same extended reals. -/
theorem final2_6 (c : Dev nD) :
    (dat2 (F := Ideal) V c).arrAt 6 cfg2.N
      = Cert.Gin.kerLayer (V c main_v16) (V c main_v26_1) (V c main_v26_0) (V c main_v21) (V c main_v24) :=
  (dat2 (F := Ideal) V c).arrAt_eq_of_cover 6
    (Cert.Gin.kerLayer (V c main_v16) (V c main_v26_1) (V c main_v26_0) (V c main_v21) (V c main_v24))
    (fun t _ => flushed6_eq V c t) cover6

end Cert.KernelIdeal.GinLayer2

end
-- ==== Proof.LibScatterRows.lean ====
/-
  AN ACCUMULATING ROW SCATTER READ AT AN INDEX, at the ideal instance. `stablehlo.scatter` with an `add` body of updates
  `upd : [E, C]` into an operand `x : [N, C]` at a column of scatter indices `idx : [E, 1]` with update_window_dims `[1]`,
  inserted_window_dims `[0]`, scatter_dims_to_operand_dims `[0]` and index_vector_dim `1` — what `x.at[idx].add(upd)` of
  a table of rows lowers to. Update element `(e, j')` lands on operand element `(idx[e, 0], j')`, the scatter index read
  as a SIGNED integer and NOT clamped: an update whose row is outside `[0, N)` is dropped. Over the extended reals the
  result at `(n, j)` is therefore `x (n, j)` plus the sum of `upd (e, j)` over the update rows `e` whose index is `n`.
  The same for a flat operand `[N]` and updates `[E]` (no window axis). General in the sizes.
-/
import Idealize.ShloMosaic.Lib.ValueIdx

noncomputable section

open scoped BigOperators

namespace Idealize.ShloMosaic.ValueIdx

open Idealize.ShloMosaic

/-! ## Where an update lands, in general -/

section General
variable {s si u : Shape}

/-- An axis is kept exactly when it is not among the removed ones. -/
theorem mem_kept_iff (axes : List (Fin s.rank)) (a : Fin s.rank) : a ∈ s.kept axes ↔ a ∉ axes := by
  simp [Shape.kept, List.mem_filter, List.mem_finRange]

/-- Update index `j` lands at operand index `i` exactly when on every axis the (signed, unclamped) start plus the
    window coordinate is `i`'s coordinate. -/
theorem resultIdx?_eq_some_iff (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hc
      have hf := Option.some.inj h
      have ha : (d.start j idx a + (d.window j a : ℤ)).toNat = (i a).val := congrArg (fun f => (f a).val) hf
      have := (hc a).1
      omega
    · exact absurd h (by simp)
  · intro h
    have hc : ∀ a, 0 ≤ d.start j idx a + (d.window j a : ℤ) ∧ d.start j idx a + (d.window j a : ℤ) < (s.size a : ℤ) := by
      intro a
      have := (i a).isLt
      rw [h a]
      omega
    rw [dif_pos hc]
    congr 1
    funext a
    refine Fin.ext ?_
    show (d.start j idx a + (d.window j a : ℤ)).toNat = (i a).val
    rw [h a]
    exact Int.toNat_natCast _

end General

/-! ## Rows: operand `[N, C]`, scatter indices `[E, 1]`, updates `[E, C]` -/

section RowsScatter

/-- The dimension numbers of an accumulating scatter of whole rows: the updates' axis 1 is the window axis (it runs
    over a row), the operand's axis 0 is the inserted one and the one a scatter index addresses, and the index vector
    lies along the scatter indices' axis 1. The conditions `wf` are decided (or assumed) on a program's literal
    shapes. -/
abbrev rowsScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (j' : Fin C)

/-- On the row axis the start of update `(e, j')` is the scatter index `idx[e, 0]`, read signed. -/
theorem rowsScatter_start_row :
    (rowsScatterDims N E C wf).start (ix2 e j') idx 0 = (idx (ix2 e (0 : Fin 1))).toInt := by
  unfold ScatterDims.start
  rw [dif_pos (show (0 : Fin 2) ∈ (rowsScatterDims N E C wf).scatterDimsToOperandDims from List.mem_singleton.mpr rfl)]
  have hsi : (rowsScatterDims N E C wf).siIdx (ix2 e j')
      ⟨List.idxOf (0 : Fin 2) (rowsScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which no scatter index addresses, the start is `0`. -/
theorem rowsScatter_start_col : (rowsScatterDims N E C wf).start (ix2 e j') idx 1 = 0 := by
  unfold ScatterDims.start
  rw [dif_neg (show (1 : Fin 2) ∉ (rowsScatterDims N E C wf).scatterDimsToOperandDims from
    fun h => Nat.one_ne_zero (congrArg Fin.val (List.mem_singleton.mp h)))]

/-- The row axis is inserted: no window coordinate there. -/
theorem rowsScatter_window_row : (rowsScatterDims N E C wf).window (ix2 e j') 0 = 0 := by
  unfold ScatterDims.window
  rw [dif_neg (show (0 : Fin 2) ∉ (rowsScatterDims N E C wf).sKept from
    fun h => (mem_kept_iff _ _).mp h (List.mem_singleton.mpr rfl))]

/-- On the column axis the window coordinate of update `(e, j')` is `j'`. -/
theorem rowsScatter_window_col : (rowsScatterDims N E C wf).window (ix2 e j') 1 = j'.val := by
  unfold ScatterDims.window
  rw [dif_pos (show (1 : Fin 2) ∈ (rowsScatterDims N E C wf).sKept from
    (mem_kept_iff _ _).mpr fun h => Nat.one_ne_zero (congrArg Fin.val (List.mem_singleton.mp h)))]
  rfl

/-- WHERE A ROW UPDATE LANDS: update `(e, j')` lands on operand element `(n, j)` exactly when the scatter index
    `idx[e, 0]`, read signed, is `n`, and the columns agree. -/
theorem rowsScatter_resultIdx?_eq_some (n : Fin N) (j : Fin C) :
    (rowsScatterDims N E C wf).resultIdx? (ix2 e j') idx = some (ix2 n j)
      ↔ (idx (ix2 e (0 : Fin 1))).toInt = (n.val : ℤ) ∧ j' = j := by
  rw [resultIdx?_eq_some_iff]
  constructor
  · intro h
    have h0 := h 0
    have h1 := h 1
    rw [rowsScatter_start_row, rowsScatter_window_row] at h0
    rw [rowsScatter_start_col, rowsScatter_window_col] at h1
    have h0' : (idx (ix2 e (0 : Fin 1))).toInt + ((0 : Nat) : ℤ) = (n.val : ℤ) := h0
    have h1' : (0 : ℤ) + (j'.val : ℤ) = (j.val : ℤ) := h1
    exact ⟨by omega, Fin.ext (by omega)⟩
  · rintro ⟨h0, rfl⟩ a
    match a with
    | ⟨0, _⟩ =>
      show (rowsScatterDims N E C wf).start (ix2 e j') idx 0 + ((rowsScatterDims N E C wf).window (ix2 e j') 0 : ℤ) = (n.val : ℤ)
      rw [rowsScatter_start_row, rowsScatter_window_row, h0]
      simp
    | ⟨1, _⟩ =>
      show (rowsScatterDims N E C wf).start (ix2 e j') idx 1 + ((rowsScatterDims N E C wf).window (ix2 e j') 1 : ℤ) = (j'.val : ℤ)
      rw [rowsScatter_start_col, rowsScatter_window_col]
      simp

end RowsScatter

section RowsScatterRead

/-- THE ACCUMULATING ROW SCATTER READ AT `(n, j)`, over the extended reals: the operand's element plus the sum, over
    the update rows `e` whose scatter index `idx[e, 0]` (read signed) is `n`, of the update's element `(e, j)`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (j : Fin C) :
    Host.scatterAdd (F := Ideal) (rowsScatterDims N E C wf) x idx upd (ix2 n j)
      = x (ix2 n j)
        + ∑ e ∈ Finset.univ.filter (fun e : Fin E => (idx (ix2 e (0 : Fin 1))).toInt = (n.val : ℤ)), upd (ix2 e j) := by
  show x (ix2 n j) + ∑ v ∈ Finset.univ.filter
      (fun v => (rowsScatterDims N E C wf).resultIdx? v idx = some (ix2 n j)), upd v = _
  congr 1
  rw [Finset.sum_filter, sum_idx2, Finset.sum_filter]
  refine Finset.sum_congr rfl fun e _ => ?_
  simp only [rowsScatter_resultIdx?_eq_some]
  by_cases ht : (idx (ix2 e (0 : Fin 1))).toInt = (n.val : ℤ)
  · simp only [ht, true_and, if_true]
    exact Finset.sum_ite_eq' Finset.univ j (fun c => upd (ix2 e c)) |>.trans (if_pos (Finset.mem_univ j))
  · simp only [ht, false_and, if_false, Finset.sum_const_zero]

end RowsScatterRead

/-! ## Flat: operand `[N]`, scatter indices `[E, 1]`, updates `[E]` -/

section FlatScatter

/-- A rank-1 index is its one coordinate … -/
def idxEquiv1 {n : Nat} : (⟨1, ![n]⟩ : Shape).Idx ≃ Fin n where
  toFun i := i 0
  invFun a := ix1 a
  left_inv i := (eq_ix1 i).symm
  right_inv _ := rfl
/-- … so a sum over the rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an accumulating scatter of scalars into a flat operand: the updates have no window
    axis, the operand's one axis is inserted and is the one a scatter index addresses, and the index vector lies along
    the scatter indices' axis 1. -/
abbrev flatScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- The start of update `e` is the scatter index `idx[e, 0]`, read signed. -/
theorem flatScatter_start :
    (flatScatterDims N E wf).start (ix1 e) idx 0 = (idx (ix2 e (0 : Fin 1))).toInt := by
  unfold ScatterDims.start
  rw [dif_pos (show (0 : Fin 1) ∈ (flatScatterDims N E wf).scatterDimsToOperandDims from List.mem_singleton.mpr rfl)]
  have hsi : (flatScatterDims N E wf).siIdx (ix1 e)
      ⟨List.idxOf (0 : Fin 1) (flatScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: no window coordinate. -/
theorem flatScatter_window : (flatScatterDims N E wf).window (ix1 e) 0 = 0 := by
  unfold ScatterDims.window
  rw [dif_neg (show (0 : Fin 1) ∉ (flatScatterDims N E wf).sKept from
    fun h => (mem_kept_iff _ _).mp h (List.mem_singleton.mpr rfl))]

/-- WHERE A FLAT UPDATE LANDS: update `e` lands on operand element `n` exactly when the scatter index `idx[e, 0]`,
    read signed, is `n`. -/
theorem flatScatter_resultIdx?_eq_some (n : Fin N) :
    (flatScatterDims N E wf).resultIdx? (ix1 e) idx = some (ix1 n)
      ↔ (idx (ix2 e (0 : Fin 1))).toInt = (n.val : ℤ) := by
  rw [resultIdx?_eq_some_iff]
  constructor
  · intro h
    have h0 := h 0
    rw [flatScatter_start, flatScatter_window] at h0
    have h0' : (idx (ix2 e (0 : Fin 1))).toInt + ((0 : Nat) : ℤ) = (n.val : ℤ) := h0
    omega
  · intro h0 a
    match a with
    | ⟨0, _⟩ =>
      show (flatScatterDims N E wf).start (ix1 e) idx 0 + ((flatScatterDims N E wf).window (ix1 e) 0 : ℤ) = (n.val : ℤ)
      rw [flatScatter_start, flatScatter_window, h0]
      simp

end FlatScatter

section FlatScatterRead

/-- THE ACCUMULATING FLAT SCATTER READ AT `n`, over the extended reals: the operand's element plus the sum, over the
    updates `e` whose scatter index `idx[e, 0]` (read signed) is `n`, of the update `e`. -/
theorem scatterAdd_flat_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (flatScatterDims N E wf) x idx upd (ix1 n)
      = x (ix1 n)
        + ∑ e ∈ Finset.univ.filter (fun e : Fin E => (idx (ix2 e (0 : Fin 1))).toInt = (n.val : ℤ)), upd (ix1 e) := by
  show x (ix1 n) + ∑ v ∈ Finset.univ.filter
      (fun v => (flatScatterDims N E wf).resultIdx? v idx = some (ix1 n)), upd v = _
  congr 1
  rw [Finset.sum_filter, sum_idx1, Finset.sum_filter]
  refine Finset.sum_congr rfl fun e _ => ?_
  simp only [flatScatter_resultIdx?_eq_some]

end FlatScatterRead

end Idealize.ShloMosaic.ValueIdx

end
-- ==== Proof.KHostVals.lean ====
/-
  The arrays the host operations prepare for the three calls, as functions of the arguments, and what they hold
  element by element.

  The dense edge-weight matrix: each edge `e` is given the flat position `dst e · 10240 + src e` (32-bit arithmetic; a
  negative position is moved up by 10240², which never happens for node numbers in range), the weights are
  accumulated into a zero array of 10240² entries at those positions, and the array is laid out as 10240 × 10240.
  For node numbers in [0, 10000) the flat position does not wrap and determines `(dst e, src e)`, so entry `(i, k)` is
  the sum of the weights of the edges from `k` to `i`. The features are padded with 240 zero rows; the weights are
  transposed; a bias vector is laid out as one row; the result's first 10000 rows are sliced off.
-/
import proofs.«403632_j30339648979124_3_alg».proof.KernelIdeal
import proofs.«403632_j30339648979124_3_alg».proof.Proof.Spec
import proofs.«403632_j30339648979124_3_alg».proof.Proof.LibScatterRows
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Predicate
import Idealize.ShloMosaic.PureOps.Ideal.Laws

noncomputable section

namespace Cert.KernelIdeal.GinHost

open Idealize.ShloMosaic Idealize.ShloMosaic.ValueIdx
open Cert.KernelIdeal Cert.Gin
open Facts₀

variable [Facts₀]

/-- The flat position `dst · 10240 + src` of every edge, in 32-bit arithmetic. -/
def flatIdx (x1 : IVec S2x640000 32) : IVec S640000 32 :=
  addi
    (muli (shapeCast S640000 (extractStridedSlice S1x640000 ![1, 0] x1 slices_S2x640000_S1x640000_1_0) shapeCasts_S1x640000_S640000)
      (broadcastInDim S640000 ![] bcast_S_S640000 (constantI S_ 32 10240#32)))
    (shapeCast S640000 (extractStridedSlice S1x640000 ![0, 0] x1 slices_S2x640000_S1x640000_0_0) shapeCasts_S1x640000_S640000)

/-- The flat position with a negative one moved up by the array's length. -/
def flatIdxN (x1 : IVec S2x640000 32) : IVec S640000 32 :=
  select (cmpi .slt (flatIdx x1) (broadcastInDim S640000 ![] bcast_S_S640000 (constantI S_ 32 0#32)))
    (addi (flatIdx x1) (broadcastInDim S640000 ![] bcast_S_S640000 (constantI S_ 32 104857600#32)))
    (flatIdx x1)

/-- The dense edge-weight matrix as the host operations compute it. -/
def denseOf (x1 : IVec S2x640000 32) (x3 : FVec Ideal S640000 .f32) : FVec Ideal S10240x10240 .bf16 :=
  truncf .bf16
    (shapeCast S10240x10240
      (Host.scatterAdd scatter_S104857600_S640000x1_S640000_n_0_0_1
        (broadcastInDim S104857600 ![] bcast_S_S104857600 (constant S_ .f32 0x00000000#32))
        (broadcastInDim S640000x1 ![0] bcast_S640000_S640000x1_0 (flatIdxN x1)) x3)
      shapeCasts_S104857600_S10240x10240)
    bitsLt_bf16_f32

/-- The features padded with 240 rows of the converted integer zero. -/
def padOf (x0 : FVec Ideal S10000x128 .f32) : FVec Ideal S10240x128 .f32 :=
  pad S10240x128 ![0, 0] ![240, 0] ![0, 0] x0 (sitofp .f32 (constantI S_ 32 0#32)) pads_S10000x128_S10240x128_02400_000 h_S_

/-! ## The flat position of an edge, as 32-bit words -/

/-- A word whose signed value is not negative reads the same unsigned. -/
theorem toInt_eq_toNat (x : BitVec 32) (h0 : 0 ≤ x.toInt) : x.toInt = (x.toNat : ℤ) := by
  have := x.isLt
  rw [BitVec.toInt_eq_toNat_cond] at h0 ⊢
  split_ifs at h0 ⊢ <;> omega

/-- For node numbers s, d in [0, 10000) the 32-bit word d · 10240 + s does not wrap. -/
theorem flat_word (s d : BitVec 32) (hs0 : 0 ≤ s.toInt) (hs : s.toInt < 10000) (hd0 : 0 ≤ d.toInt) (hd : d.toInt < 10000) :
    (IntOp.addi (IntOp.muli d 10240#32) s).toInt = d.toInt * 10240 + s.toInt := by
  have es := toInt_eq_toNat s hs0
  have ed := toInt_eq_toNat d hd0
  have hn : (IntOp.addi (IntOp.muli d 10240#32) s).toNat = d.toNat * 10240 + s.toNat := by
    show (d * 10240#32 + s).toNat = _
    rw [BitVec.toNat_add, BitVec.toNat_mul]
    show (d.toNat * 10240 % 2 ^ 32 + s.toNat) % 2 ^ 32 = _
    omega
  rw [BitVec.toInt_eq_toNat_cond, hn]
  split_ifs <;> omega

/-- The flat position is not negative, so the select keeps it. -/
theorem flat_select (s d : BitVec 32) (hs0 : 0 ≤ s.toInt) (hs : s.toInt < 10000) (hd0 : 0 ≤ d.toInt) (hd : d.toInt < 10000) :
    Scalar.select (IntOp.cmpi .slt (IntOp.addi (IntOp.muli d 10240#32) s) 0#32)
      (IntOp.addi (IntOp.addi (IntOp.muli d 10240#32) s) 104857600#32) (IntOp.addi (IntOp.muli d 10240#32) s)
      = IntOp.addi (IntOp.muli d 10240#32) s := by
  have hw := flat_word s d hs0 hs hd0 hd
  have hc : ¬ IntOp.cmpi .slt (IntOp.addi (IntOp.muli d 10240#32) s) 0#32 = 1#1 := by
    show ¬ BitVec.ofBool ((IntOp.addi (IntOp.muli d 10240#32) s).slt 0#32) = 1#1
    rw [StableHlo.Predicate.ofBool_eq_one_iff, BitVec.slt_iff_toInt_lt, hw]
    have z : (0#32 : BitVec 32).toInt = 0 := by decide
    rw [z]; omega
  exact if_neg hc

/-- The flat position names the pair (d, s): it is i · 10240 + k exactly when d = i and s = k. -/
theorem flat_iff (s d : BitVec 32) (hs0 : 0 ≤ s.toInt) (hs : s.toInt < 10000) (hd0 : 0 ≤ d.toInt) (hd : d.toInt < 10000)
    (i k : Fin 10240) :
    (IntOp.addi (IntOp.muli d 10240#32) s).toInt = ((i.val * 10240 + k.val : ℕ) : ℤ)
      ↔ d.toInt.toNat = i.val ∧ s.toInt.toNat = k.val := by
  rw [flat_word s d hs0 hs hd0 hd]
  have := i.isLt
  have := k.isLt
  constructor
  · intro h; constructor <;> omega
  · rintro ⟨h1, h2⟩; omega

/-! ## The arrays read at an index -/

/-- Row r of the edge index array, sliced off and laid out flat, at edge e. -/
theorem row1_apply (x1 : IVec S2x640000 32) (e : Fin 640000) :
    shapeCast S640000 (extractStridedSlice S1x640000 ![1, 0] x1 slices_S2x640000_S1x640000_1_0) shapeCasts_S1x640000_S640000 (ix1 e)
      = x1 (ix2 1 e) := by
  refine (shapeCast_apply _ shapeCasts_S1x640000_S640000 (ix1 e) (ix2 (0 : Fin 1) e)
    (by rewrite [Shape.rowMajor_val_two, Shape.rowMajor_val_one]; show 0 * 640000 + e.val = e.val; omega)).trans ?_
  exact extractStridedSlice_apply ![1, 0] x1 slices_S2x640000_S1x640000_1_0 (ix2 (0 : Fin 1) e) (ix2 1 e) (fun a => match a with
    | ⟨0, _⟩ => by show 1 = 1 + 0; omega
    | ⟨1, _⟩ => by show e.val = 0 + e.val; omega)

/-- Likewise row 0. -/
theorem row0_apply (x1 : IVec S2x640000 32) (e : Fin 640000) :
    shapeCast S640000 (extractStridedSlice S1x640000 ![0, 0] x1 slices_S2x640000_S1x640000_0_0) shapeCasts_S1x640000_S640000 (ix1 e)
      = x1 (ix2 0 e) := by
  refine (shapeCast_apply _ shapeCasts_S1x640000_S640000 (ix1 e) (ix2 (0 : Fin 1) e)
    (by rewrite [Shape.rowMajor_val_two, Shape.rowMajor_val_one]; show 0 * 640000 + e.val = e.val; omega)).trans ?_
  exact extractStridedSlice_apply ![0, 0] x1 slices_S2x640000_S1x640000_0_0 (ix2 (0 : Fin 1) e) (ix2 0 e) (fun a => match a with
    | ⟨0, _⟩ => by show 0 = 0 + 0; omega
    | ⟨1, _⟩ => by show e.val = 0 + e.val; omega)

/-- The flat position of edge e is the word dst e · 10240 + src e. -/
theorem flatIdx_apply (x1 : IVec S2x640000 32) (e : Fin 640000) :
    flatIdx x1 (ix1 e) = IntOp.addi (IntOp.muli (x1 (ix2 1 e)) 10240#32) (x1 (ix2 0 e)) := by
  show IntOp.addi (IntOp.muli (shapeCast S640000 (extractStridedSlice S1x640000 ![1, 0] x1 slices_S2x640000_S1x640000_1_0)
      shapeCasts_S1x640000_S640000 (ix1 e)) 10240#32)
    (shapeCast S640000 (extractStridedSlice S1x640000 ![0, 0] x1 slices_S2x640000_S1x640000_0_0) shapeCasts_S1x640000_S640000 (ix1 e)) = _
  rw [row1_apply, row0_apply]

/-- With node numbers in range the corrected flat position of edge e is the same word. -/
theorem flatIdxN_apply (x1 : IVec S2x640000 32) (hr : ∀ i, 0 ≤ (x1 i).toInt ∧ (x1 i).toInt < ((10000 : Nat) : ℤ)) (e : Fin 640000) :
    flatIdxN x1 (ix1 e) = IntOp.addi (IntOp.muli (x1 (ix2 1 e)) 10240#32) (x1 (ix2 0 e)) := by
  show Scalar.select (IntOp.cmpi .slt (flatIdx x1 (ix1 e)) 0#32) (IntOp.addi (flatIdx x1 (ix1 e)) 104857600#32) (flatIdx x1 (ix1 e)) = _
  rw [flatIdx_apply]
  have h0 := hr (ix2 0 e)
  have h1 := hr (ix2 1 e)
  exact flat_select _ _ h0.1 (by exact_mod_cast h0.2) h1.1 (by exact_mod_cast h1.2)

/-- The reshape of a flat array of 10240² entries to 10240 × 10240, at (i, k), is the flat array at i · 10240 + k. -/
theorem reshape_apply {α : Type} (Y : S104857600.Idx → α) (i k : Fin 10240) (hn : i.val * 10240 + k.val < 104857600) :
    shapeCast S10240x10240 Y shapeCasts_S104857600_S10240x10240 (ix2 i k) = Y (ix1 ⟨i.val * 10240 + k.val, hn⟩) :=
  shapeCast_apply Y shapeCasts_S104857600_S10240x10240 (ix2 i k) (ix1 ⟨i.val * 10240 + k.val, hn⟩)
    (by rewrite [Shape.rowMajor_val_two, Shape.rowMajor_val_one]; rfl)

/-- The zero array is 0 everywhere. -/
theorem zeros_apply (n : S104857600.Idx) :
    broadcastInDim S104857600 ![] bcast_S_S104857600 (constant (F := Ideal) S_ .f32 0x00000000#32) n = 0 :=
  Ideal.ofBits_zero_f32

/-- A vector laid out as a column, at (e, 0), is the vector at e. -/
theorem column_apply (v : IVec S640000 32) (e : Fin 640000) :
    broadcastInDim S640000x1 ![0] bcast_S640000_S640000x1_0 v (ix2 e (0 : Fin 1)) = v (ix1 e) :=
  broadcastInDim_apply ![0] bcast_S640000_S640000x1_0 v (ix2 e (0 : Fin 1)) (ix1 e) (fun a => match a with
    | ⟨0, _⟩ => rfl)

/-- The accumulating scatter into a flat array, at n. -/
theorem scatter_apply (x : FVec Ideal S104857600 .f32) (idx : IVec S640000x1 32) (upd : FVec Ideal S640000 .f32) (n : Fin 104857600) :
    Host.scatterAdd (F := Ideal) scatter_S104857600_S640000x1_S640000_n_0_0_1 x idx upd (ix1 n)
      = x (ix1 n) + ∑ e ∈ Finset.univ.filter (fun e : Fin 640000 => (idx (ix2 e (0 : Fin 1))).toInt = (n.val : ℤ)), upd (ix1 e) :=
  scatterAdd_flat_apply scatter_S104857600_S640000x1_S640000_n_0_0_1_wf x idx upd n

variable (x0 : FVec Ideal S10000x128 .f32) (x1 : IVec S2x640000 32) (x3 : FVec Ideal S640000 .f32)
  (hr : ∀ i, 0 ≤ (x1 i).toInt ∧ (x1 i).toInt < ((10000 : Nat) : ℤ))

/-- THE DENSE MATRIX AT `(i, k)`: the sum of the weights of the edges with target `i` and source `k`. -/
theorem denseOf_apply (i k : Fin 10240) :
    denseOf x1 x3 (ix2 i k)
      = ∑ e ∈ Finset.univ.filter (fun e : Fin 640000 => (edgeRow x1 hr 1 e).val = i.val ∧ (edgeRow x1 hr 0 e).val = k.val),
          x3 (ix1 e) := by
  have hn : i.val * 10240 + k.val < 104857600 := by have := i.isLt; have := k.isLt; omega
  -- the conversion is exact; the reshape reads the flat array at position i · 10240 + k
  show shapeCast S10240x10240
      (Host.scatterAdd scatter_S104857600_S640000x1_S640000_n_0_0_1
        (broadcastInDim S104857600 ![] bcast_S_S104857600 (constant S_ .f32 0x00000000#32))
        (broadcastInDim S640000x1 ![0] bcast_S640000_S640000x1_0 (flatIdxN x1)) x3)
      shapeCasts_S104857600_S10240x10240 (ix2 i k) = _
  rw [reshape_apply _ i k hn, scatter_apply, zeros_apply, zero_add]
  -- edge by edge: the scatter index is the flat position, which names (target, source)
  refine Finset.sum_congr (Finset.filter_congr fun e _ => ?_) fun _ _ => rfl
  rw [column_apply, flatIdxN_apply x1 hr e]
  have h0 := hr (ix2 0 e)
  have h1 := hr (ix2 1 e)
  exact flat_iff _ _ h0.1 (by exact_mod_cast h0.2) h1.1 (by exact_mod_cast h1.2) i k

/-- A padded row below 10000 is the features' row. -/
theorem padOf_apply (i : Fin 10000) (f : Fin 128) : padOf x0 (ix2 ⟨i.val, by omega⟩ f) = x0 (ix2 i f) := by
  unfold padOf pad
  split
  · exact congrArg x0 (funext fun a => match a with
      | ⟨0, _⟩ => Fin.ext (by show (i.val - 0) / (0 + 1) = i.val; omega)
      | ⟨1, _⟩ => Fin.ext (by show (f.val - 0) / (0 + 1) = f.val; omega))
  · rename_i hn
    refine absurd (fun a => ?_) hn
    match a with
    | ⟨0, _⟩ => exact ⟨Nat.zero_le _, by show (i.val - 0) % (0 + 1) = 0; omega, by show (i.val - 0) / (0 + 1) < 10000; omega⟩
    | ⟨1, _⟩ => exact ⟨Nat.zero_le _, by show (f.val - 0) % (0 + 1) = 0; omega, by show (f.val - 0) / (0 + 1) < 128; omega⟩

/-- A padded row from 10000 on is the real number 0. -/
theorem padOf_high (a : Fin 10240) (f : Fin 128) (ha : 10000 ≤ a.val) : padOf x0 (ix2 a f) = 0 := by
  unfold padOf pad
  split
  · rename_i hin
    have h3 : (a.val - 0) / (0 + 1) < 10000 := (hin 0).2.2
    omega
  · show (((0#32 : BitVec 32).toInt : ℝ) : EReal) = 0
    simp

/-- Padding real features gives real features. -/
theorem padOf_isRe (h0 : ∀ j, IsRe (x0 j)) (j : S10240x128.Idx) : IsRe (padOf x0 j) := by
  obtain ⟨a, f, rfl⟩ : ∃ (a : Fin 10240) (f : Fin 128), j = ix2 a f := ⟨j 0, j 1, eq_ix2 j⟩
  by_cases ha : a.val < 10000
  · have := padOf_apply x0 ⟨a.val, ha⟩ f
    rw [show (ix2 a f : S10240x128.Idx) = ix2 ⟨(⟨a.val, ha⟩ : Fin 10000).val, by omega⟩ f from rfl, this]
    exact h0 _
  · rw [padOf_high x0 a f (by omega)]
    exact IsRe_zero

/-- The first layer's weights, transposed, at `(f, o)`. -/
theorem transpose_W1 (x4 : FVec Ideal S256x128 .f32) (f : Fin 128) (o : Fin 256) :
    transpose S128x256 [1, 0] x4 transposes_S256x128_S128x256_1_0 (ix2 f o) = x4 (ix2 o f) :=
  transpose_apply [1, 0] x4 transposes_S256x128_S128x256_1_0 (ix2 f o) (ix2 o f) (fun b => match b with
    | ⟨0, _⟩ => rfl
    | ⟨1, _⟩ => rfl)

/-- A later layer's weights, transposed, at `(f, o)`. -/
theorem transpose_W (x6 : FVec Ideal S256x256 .f32) (f o : Fin 256) :
    transpose S256x256 [1, 0] x6 transposes_S256x256_S256x256_1_0 (ix2 f o) = x6 (ix2 o f) :=
  transpose_apply [1, 0] x6 transposes_S256x256_S256x256_1_0 (ix2 f o) (ix2 o f) (fun b => match b with
    | ⟨0, _⟩ => rfl
    | ⟨1, _⟩ => rfl)

/-- A bias vector laid out as one row. -/
theorem bias_row (x5 : FVec Ideal S256 .f32) (o : Fin 256) :
    shapeCast S1x256 x5 shapeCasts_S256_S1x256 (ix2 0 o) = x5 (ix1 o) :=
  shapeCast_apply x5 shapeCasts_S256_S1x256 (ix2 0 o) (ix1 o)
    (by rewrite [Shape.rowMajor_val_two, Shape.rowMajor_val_one]; show o.val = 0 * 256 + o.val; omega)

/-- The first 10000 rows of the last layer's result. -/
theorem slice_rows (H : FVec Ideal S10240x256 .f32) (i : Fin 10000) (o : Fin 256) :
    extractStridedSlice S10000x256 ![0, 0] H slices_S10240x256_S10000x256_0_0 (ix2 i o) = H (ix2 ⟨i.val, by omega⟩ o) :=
  extractStridedSlice_apply ![0, 0] H slices_S10240x256_S10000x256_0_0 (ix2 i o) (ix2 ⟨i.val, by omega⟩ o) (fun a => match a with
    | ⟨0, _⟩ => by show i.val = 0 + i.val; omega
    | ⟨1, _⟩ => by show o.val = 0 + o.val; omega)

end Cert.KernelIdeal.GinHost

end
-- ==== Proof.Tail.lean ====
/-
  The readout both programs share after the three layers: per-graph sums of the node features (an accumulating scatter of
  the rows by graph number), per-graph node counts (an accumulating scatter of ones), the mean `sums / max(counts, 1)`,
  and the final linear map `· Wlᵀ + bl`. Both programs apply these same operations; they are kept as ONE function
  of the features, so that equal features give equal results without opening it.
-/
import proofs.«403632_j30339648979124_3_alg».proof.KernelIdeal

noncomputable section

namespace Cert.KernelIdeal

open Idealize.ShloMosaic
open Facts₀

variable [Facts₀]

/-- Mean pooling over graphs and the last linear layer, as the operations are printed. -/
def tailFn {F : FTy → Type} [FloatOps F] (h : FVec F S10000x256 .f32) (batch : IVec S10000 32)
    (Wl : FVec F S10x256 .f32) (bl : FVec F S10 .f32) : FVec F S64x10 .f32 :=
  addf
    (Host.dotGeneral dot_S64x256_S256x10_S64x10_1_0_0_1_n_n none
      (Host.divf
        (Host.scatterAdd scatter_S64x256_S10000x1_S10000x256_1_0_0_1
          (broadcastInDim S64x256 ![] bcast_S_S64x256 (constant S_ .f32 0x00000000#32))
          (broadcastInDim S10000x1 ![0] bcast_S10000_S10000x1_0 batch) h)
        (broadcastInDim S64x256 ![0, 1] bcast_S64x1_S64x256_0_1
          (broadcastInDim S64x1 ![0] bcast_S64_S64x1_0
            (maximumf
              (Host.scatterAdd scatter_S64_S10000x1_S10000_n_0_0_1
                (broadcastInDim S64 ![] bcast_S_S64 (constant S_ .f32 0x00000000#32))
                (broadcastInDim S10000x1 ![0] bcast_S10000_S10000x1_0 batch)
                (broadcastInDim S10000 ![] bcast_S_S10000 (constant S_ .f32 0x3F800000#32)))
              (broadcastInDim S64 ![] bcast_S_S64 (constant S_ .f32 0x3F800000#32))))))
      (transpose S256x10 [1, 0] Wl transposes_S10x256_S256x10_1_0))
    (broadcastInDim S64x10 ![0, 1] bcast_S1x10_S64x10_0_1 (broadcastInDim S1x10 ![1] bcast_S10_S1x10_1 bl))

end Cert.KernelIdeal

end
-- ==== Proof.KHost.lean ====
/-
  The idealized kernel program's result, read through its run.

  The run's buffer contents at each boundary are a fold through the program: three stretches of host operations, the
  three calls, a last stretch. Read at the buffers that matter: before the first call the dense edge-weight matrix
  `D`, the padded features `P` (and their narrower copy: the same extended reals), the transposed weights and the
  bias rows; each call leaves `kerLayer` of its inputs in both of its results and touches nothing else; the last
  stretch slices the first 10000 rows and applies the shared readout. So the result is
  `tailFn (rows<10000 (H₃)) batch Wl bl` with `H₁ = kerLayer D P P W1ᵀ b1`, `H₂ = kerLayer D H₁ H₁ W2ᵀ b2`,
  `H₃ = kerLayer D H₂ H₂ W3ᵀ b3`.
-/
import proofs.«403632_j30339648979124_3_alg».proof.Proof.Gen.KernelIdeal.Frame
import proofs.«403632_j30339648979124_3_alg».proof.Proof.KLayer0
import proofs.«403632_j30339648979124_3_alg».proof.Proof.KLayer1
import proofs.«403632_j30339648979124_3_alg».proof.Proof.KLayer2
import proofs.«403632_j30339648979124_3_alg».proof.Proof.KHostVals
import proofs.«403632_j30339648979124_3_alg».proof.Proof.Tail
import Idealize.ShloMosaic.Lib.StableHlo.Run
import Idealize.ShloMosaic.PureOps.Ideal

set_option maxRecDepth 16384

noncomputable section

namespace Cert.KernelIdeal.Gen

open Idealize.ShloMosaic Idealize.ShloMosaic.TcCoe Idealize.SL.Sem Idealize.ShloMosaic.StableHlo
open Idealize.ShloMosaic.Pipeline (Dat Cfg Window)
open Cert.Gin Cert.KernelIdeal.GinHost

/-- A stretch of host operations leaves a buffer none of them writes as it was. -/
macro "not_written" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Each stretch over ANY entry contents -/

section Stretches
variable (V : Valuation τ sig (Elt Ideal))

set_option maxHeartbeats 1000000 in
theorem s0_v16 : StableHlo.after (hostOps0 (F := Ideal)) V (Proc.devRef .tc main_v16)
    = denseOf (V (Proc.devRef .tc main_arg1)) (V (Proc.devRef .tc main_arg3)) := by
  after_results_simp
  rfl

theorem s0_c2 : StableHlo.after (hostOps0 (F := Ideal)) V (Proc.devRef .tc main_c_2) = constantI S_ 32 0#32 := by
  after_results

theorem s1_v17 : StableHlo.after (hostOps0_1 (F := Ideal)) V (Proc.devRef .tc main_v17)
    = pad S10240x128 ![0, 0] ![240, 0] ![0, 0] (V (Proc.devRef .tc main_arg0) : FVec Ideal S10000x128 .f32)
        (sitofp (F := Ideal) .f32 (V (Proc.devRef .tc main_c_2) : IVec S_ 32)) pads_S10000x128_S10240x128_02400_000 h_S_ := by
  after_results
  rfl

theorem s2_v18 : StableHlo.after (hostOps0_2 (F := Ideal)) V (Proc.devRef .tc main_v18) = V (Proc.devRef .tc main_v17) := by
  after_results
  rfl
theorem s2_v19 : StableHlo.after (hostOps0_2 (F := Ideal)) V (Proc.devRef .tc main_v19)
    = transpose S128x256 [1, 0] (V (Proc.devRef .tc main_arg4)) transposes_S256x128_S128x256_1_0 := by
  after_results
theorem s2_v20 : StableHlo.after (hostOps0_2 (F := Ideal)) V (Proc.devRef .tc main_v20)
    = transpose S256x256 [1, 0] (V (Proc.devRef .tc main_arg6)) transposes_S256x256_S256x256_1_0 := by
  after_results
theorem s2_v21 : StableHlo.after (hostOps0_2 (F := Ideal)) V (Proc.devRef .tc main_v21)
    = transpose S256x256 [1, 0] (V (Proc.devRef .tc main_arg8)) transposes_S256x256_S256x256_1_0 := by
  after_results
theorem s2_v22 : StableHlo.after (hostOps0_2 (F := Ideal)) V (Proc.devRef .tc main_v22)
    = shapeCast S1x256 (V (Proc.devRef .tc main_arg5)) shapeCasts_S256_S1x256 := by
  after_results
  rfl
theorem s2_v23 : StableHlo.after (hostOps0_2 (F := Ideal)) V (Proc.devRef .tc main_v23)
    = shapeCast S1x256 (V (Proc.devRef .tc main_arg7)) shapeCasts_S256_S1x256 := by
  after_results
  rfl
theorem s2_v24 : StableHlo.after (hostOps0_2 (F := Ideal)) V (Proc.devRef .tc main_v24)
    = shapeCast S1x256 (V (Proc.devRef .tc main_arg9)) shapeCasts_S256_S1x256 := by
  after_results
  rfl

set_option maxHeartbeats 1000000 in
theorem s3_v45 : StableHlo.after (hostOps3 (F := Ideal)) V (Proc.devRef .tc main_v45)
    = tailFn (F := Ideal)
        (extractStridedSlice S10000x256 ![0, 0] (V (Proc.devRef .tc main_v27_0)) slices_S10240x256_S10000x256_0_0)
        (V (Proc.devRef .tc main_arg2)) (V (Proc.devRef .tc main_arg10)) (V (Proc.devRef .tc main_arg11)) := by
  after_results_simp
  rfl

end Stretches

variable (m : (ℓ : Loc nD τ sig) → Buf (Elt Ideal) ℓ) (ρ : Dev nD → PrngReg)

/-! ## Before the first call -/

theorem W1_arg0 (c : Dev nD) : W1 m ρ c (Proc.devRef .tc main_arg0) = m ((c : Thread nD τ).loc main_arg0) :=
  (by not_written hostOps0 : W1 m ρ c (Proc.devRef .tc main_arg0) = W0 m ρ c (Proc.devRef .tc main_arg0)).trans rfl

theorem W2_arg (c : Dev nD) (b : Ref sig .tc) (h : W2 m ρ c (Proc.devRef .tc b) = W1 m ρ c (Proc.devRef .tc b))
    (h' : W1 m ρ c (Proc.devRef .tc b) = W0 m ρ c (Proc.devRef .tc b)) :
    W2 m ρ c (Proc.devRef .tc b) = m ((c : Thread nD τ).loc b) := (h.trans h').trans rfl

theorem W2_arg4 (c : Dev nD) : W2 m ρ c (Proc.devRef .tc main_arg4) = m ((c : Thread nD τ).loc main_arg4) :=
  W2_arg m ρ c main_arg4 (by not_written hostOps0_1) (by not_written hostOps0)
theorem W2_arg5 (c : Dev nD) : W2 m ρ c (Proc.devRef .tc main_arg5) = m ((c : Thread nD τ).loc main_arg5) :=
  W2_arg m ρ c main_arg5 (by not_written hostOps0_1) (by not_written hostOps0)
theorem W2_arg6 (c : Dev nD) : W2 m ρ c (Proc.devRef .tc main_arg6) = m ((c : Thread nD τ).loc main_arg6) :=
  W2_arg m ρ c main_arg6 (by not_written hostOps0_1) (by not_written hostOps0)
theorem W2_arg7 (c : Dev nD) : W2 m ρ c (Proc.devRef .tc main_arg7) = m ((c : Thread nD τ).loc main_arg7) :=
  W2_arg m ρ c main_arg7 (by not_written hostOps0_1) (by not_written hostOps0)
theorem W2_arg8 (c : Dev nD) : W2 m ρ c (Proc.devRef .tc main_arg8) = m ((c : Thread nD τ).loc main_arg8) :=
  W2_arg m ρ c main_arg8 (by not_written hostOps0_1) (by not_written hostOps0)
theorem W2_arg9 (c : Dev nD) : W2 m ρ c (Proc.devRef .tc main_arg9) = m ((c : Thread nD τ).loc main_arg9) :=
  W2_arg m ρ c main_arg9 (by not_written hostOps0_1) (by not_written hostOps0)

/-- The dense edge-weight matrix and the padded features, of the launch memory. -/
abbrev Dm (c : Dev nD) : FVec Ideal S10240x10240 .bf16 :=
  denseOf (m ((c : Thread nD τ).loc main_arg1)) (m ((c : Thread nD τ).loc main_arg3))
abbrev Pm (c : Dev nD) : FVec Ideal S10240x128 .f32 := padOf (m ((c : Thread nD τ).loc main_arg0))

theorem W3_v16 (c : Dev nD) : W3 m ρ c (Proc.devRef .tc main_v16) = Dm m c :=
  calc W3 m ρ c (Proc.devRef .tc main_v16)
    _ = W2 m ρ c (Proc.devRef .tc main_v16) := by not_written hostOps0_2
    _ = W1 m ρ c (Proc.devRef .tc main_v16) := by not_written hostOps0_1
    _ = Dm m c := s0_v16 (W0 m ρ c)

theorem W2_v17 (c : Dev nD) : W2 m ρ c (Proc.devRef .tc main_v17) = Pm m c := by
  show StableHlo.after hostOps0_1 (W1 m ρ c) (Proc.devRef .tc main_v17) = _
  rw [s1_v17, W1_arg0, show W1 m ρ c (Proc.devRef .tc main_c_2) = constantI S_ 32 0#32 from s0_c2 (W0 m ρ c)]
  rfl

theorem W3_v17 (c : Dev nD) : W3 m ρ c (Proc.devRef .tc main_v17) = Pm m c :=
  (by not_written hostOps0_2 : W3 m ρ c (Proc.devRef .tc main_v17) = W2 m ρ c (Proc.devRef .tc main_v17)).trans (W2_v17 m ρ c)
theorem W3_v18 (c : Dev nD) : W3 m ρ c (Proc.devRef .tc main_v18) = Pm m c :=
  (s2_v18 (W2 m ρ c)).trans (W2_v17 m ρ c)
theorem W3_v19 (c : Dev nD) : W3 m ρ c (Proc.devRef .tc main_v19)
    = transpose S128x256 [1, 0] (m ((c : Thread nD τ).loc main_arg4)) transposes_S256x128_S128x256_1_0 := by
  show StableHlo.after hostOps0_2 (W2 m ρ c) _ = _; rw [s2_v19, W2_arg4]
theorem W3_v20 (c : Dev nD) : W3 m ρ c (Proc.devRef .tc main_v20)
    = transpose S256x256 [1, 0] (m ((c : Thread nD τ).loc main_arg6)) transposes_S256x256_S256x256_1_0 := by
  show StableHlo.after hostOps0_2 (W2 m ρ c) _ = _; rw [s2_v20, W2_arg6]
theorem W3_v21 (c : Dev nD) : W3 m ρ c (Proc.devRef .tc main_v21)
    = transpose S256x256 [1, 0] (m ((c : Thread nD τ).loc main_arg8)) transposes_S256x256_S256x256_1_0 := by
  show StableHlo.after hostOps0_2 (W2 m ρ c) _ = _; rw [s2_v21, W2_arg8]
theorem W3_v22 (c : Dev nD) : W3 m ρ c (Proc.devRef .tc main_v22)
    = shapeCast S1x256 (m ((c : Thread nD τ).loc main_arg5)) shapeCasts_S256_S1x256 := by
  show StableHlo.after hostOps0_2 (W2 m ρ c) _ = _; rw [s2_v22, W2_arg5]
theorem W3_v23 (c : Dev nD) : W3 m ρ c (Proc.devRef .tc main_v23)
    = shapeCast S1x256 (m ((c : Thread nD τ).loc main_arg7)) shapeCasts_S256_S1x256 := by
  show StableHlo.after hostOps0_2 (W2 m ρ c) _ = _; rw [s2_v23, W2_arg7]
theorem W3_v24 (c : Dev nD) : W3 m ρ c (Proc.devRef .tc main_v24)
    = shapeCast S1x256 (m ((c : Thread nD τ).loc main_arg9)) shapeCasts_S256_S1x256 := by
  show StableHlo.after hostOps0_2 (W2 m ρ c) _ = _; rw [s2_v24, W2_arg9]

/-! ## The three calls -/

/-- The three layers' outputs over the padded node range. -/
abbrev H1 (c : Dev nD) : Mat 10240 256 :=
  kerLayer (Dm m c) (Pm m c) (Pm m c)
    (transpose S128x256 [1, 0] (m ((c : Thread nD τ).loc main_arg4)) transposes_S256x128_S128x256_1_0)
    (shapeCast S1x256 (m ((c : Thread nD τ).loc main_arg5)) shapeCasts_S256_S1x256)
abbrev H2 (c : Dev nD) : Mat 10240 256 :=
  kerLayer (Dm m c) (H1 m c) (H1 m c)
    (transpose S256x256 [1, 0] (m ((c : Thread nD τ).loc main_arg6)) transposes_S256x256_S256x256_1_0)
    (shapeCast S1x256 (m ((c : Thread nD τ).loc main_arg7)) shapeCasts_S256_S1x256)
abbrev H3 (c : Dev nD) : Mat 10240 256 :=
  kerLayer (Dm m c) (H2 m c) (H2 m c)
    (transpose S256x256 [1, 0] (m ((c : Thread nD τ).loc main_arg8)) transposes_S256x256_S256x256_1_0)
    (shapeCast S1x256 (m ((c : Thread nD τ).loc main_arg9)) shapeCasts_S256_S1x256)

-- after the first call
theorem W4_v16 (c : Dev nD) : W4 m ρ c (Proc.devRef .tc main_v16) = Dm m c :=
  ((W4_arr m ρ c 0).trans (((dat0 (V3 m ρ) c).arrAt_in 0 rfl cfg0.N).trans (A_eq0 (V3 m ρ) c 0))).trans (W3_v16 m ρ c)
theorem W4_v25_0 (c : Dev nD) : W4 m ρ c (Proc.devRef .tc main_v25_0) = H1 m c := by
  refine (W4_arr m ρ c 5).trans ((GinLayer0.final0_5 (V3 m ρ) c).trans ?_)
  show kerLayer (W3 m ρ c (Proc.devRef .tc main_v16)) (W3 m ρ c (Proc.devRef .tc main_v18)) (W3 m ρ c (Proc.devRef .tc main_v17))
    (W3 m ρ c (Proc.devRef .tc main_v19)) (W3 m ρ c (Proc.devRef .tc main_v22)) = _
  rw [W3_v16, W3_v18, W3_v17, W3_v19, W3_v22]
theorem W4_v25_1 (c : Dev nD) : W4 m ρ c (Proc.devRef .tc main_v25_1) = H1 m c := by
  refine (W4_arr m ρ c 6).trans ((GinLayer0.final0_6 (V3 m ρ) c).trans ?_)
  show kerLayer (W3 m ρ c (Proc.devRef .tc main_v16)) (W3 m ρ c (Proc.devRef .tc main_v18)) (W3 m ρ c (Proc.devRef .tc main_v17))
    (W3 m ρ c (Proc.devRef .tc main_v19)) (W3 m ρ c (Proc.devRef .tc main_v22)) = _
  rw [W3_v16, W3_v18, W3_v17, W3_v19, W3_v22]
theorem W4_v20 (c : Dev nD) : W4 m ρ c (Proc.devRef .tc main_v20)
    = transpose S256x256 [1, 0] (m ((c : Thread nD τ).loc main_arg6)) transposes_S256x256_S256x256_1_0 :=
  (W4_of_ne m ρ c main_v20 (by decide)).trans (W3_v20 m ρ c)
theorem W4_v21 (c : Dev nD) : W4 m ρ c (Proc.devRef .tc main_v21)
    = transpose S256x256 [1, 0] (m ((c : Thread nD τ).loc main_arg8)) transposes_S256x256_S256x256_1_0 :=
  (W4_of_ne m ρ c main_v21 (by decide)).trans (W3_v21 m ρ c)
theorem W4_v23 (c : Dev nD) : W4 m ρ c (Proc.devRef .tc main_v23)
    = shapeCast S1x256 (m ((c : Thread nD τ).loc main_arg7)) shapeCasts_S256_S1x256 :=
  (W4_of_ne m ρ c main_v23 (by decide)).trans (W3_v23 m ρ c)
theorem W4_v24 (c : Dev nD) : W4 m ρ c (Proc.devRef .tc main_v24)
    = shapeCast S1x256 (m ((c : Thread nD τ).loc main_arg9)) shapeCasts_S256_S1x256 :=
  (W4_of_ne m ρ c main_v24 (by decide)).trans (W3_v24 m ρ c)

-- after the second call
theorem W5_v16 (c : Dev nD) : W5 m ρ c (Proc.devRef .tc main_v16) = Dm m c :=
  ((W5_arr m ρ c 0).trans (((dat1 (V4 m ρ) c).arrAt_in 0 rfl cfg1.N).trans (A_eq1 (V4 m ρ) c 0))).trans (W4_v16 m ρ c)
theorem W5_v26_0 (c : Dev nD) : W5 m ρ c (Proc.devRef .tc main_v26_0) = H2 m c := by
  refine (W5_arr m ρ c 5).trans ((GinLayer1.final1_5 (V4 m ρ) c).trans ?_)
  show kerLayer (W4 m ρ c (Proc.devRef .tc main_v16)) (W4 m ρ c (Proc.devRef .tc main_v25_1)) (W4 m ρ c (Proc.devRef .tc main_v25_0))
    (W4 m ρ c (Proc.devRef .tc main_v20)) (W4 m ρ c (Proc.devRef .tc main_v23)) = _
  rw [W4_v16, W4_v25_1, W4_v25_0, W4_v20, W4_v23]
theorem W5_v26_1 (c : Dev nD) : W5 m ρ c (Proc.devRef .tc main_v26_1) = H2 m c := by
  refine (W5_arr m ρ c 6).trans ((GinLayer1.final1_6 (V4 m ρ) c).trans ?_)
  show kerLayer (W4 m ρ c (Proc.devRef .tc main_v16)) (W4 m ρ c (Proc.devRef .tc main_v25_1)) (W4 m ρ c (Proc.devRef .tc main_v25_0))
    (W4 m ρ c (Proc.devRef .tc main_v20)) (W4 m ρ c (Proc.devRef .tc main_v23)) = _
  rw [W4_v16, W4_v25_1, W4_v25_0, W4_v20, W4_v23]
theorem W5_v21 (c : Dev nD) : W5 m ρ c (Proc.devRef .tc main_v21)
    = transpose S256x256 [1, 0] (m ((c : Thread nD τ).loc main_arg8)) transposes_S256x256_S256x256_1_0 :=
  (W5_of_ne m ρ c main_v21 (by decide)).trans (W4_v21 m ρ c)
theorem W5_v24 (c : Dev nD) : W5 m ρ c (Proc.devRef .tc main_v24)
    = shapeCast S1x256 (m ((c : Thread nD τ).loc main_arg9)) shapeCasts_S256_S1x256 :=
  (W5_of_ne m ρ c main_v24 (by decide)).trans (W4_v24 m ρ c)

-- after the third call
theorem W6_v27_0 (c : Dev nD) : W6 m ρ c (Proc.devRef .tc main_v27_0) = H3 m c := by
  refine (W6_arr m ρ c 5).trans ((GinLayer2.final2_5 (V5 m ρ) c).trans ?_)
  show kerLayer (W5 m ρ c (Proc.devRef .tc main_v16)) (W5 m ρ c (Proc.devRef .tc main_v26_1)) (W5 m ρ c (Proc.devRef .tc main_v26_0))
    (W5 m ρ c (Proc.devRef .tc main_v21)) (W5 m ρ c (Proc.devRef .tc main_v24)) = _
  rw [W5_v16, W5_v26_1, W5_v26_0, W5_v21, W5_v24]

/-- An argument array at the last call's exit is the launch memory's. -/
theorem W6_arg2 (c : Dev nD) : W6 m ρ c (Proc.devRef .tc main_arg2) = m ((c : Thread nD τ).loc main_arg2) :=
  (by not_written hostOps3 : W7 m ρ c (Proc.devRef .tc main_arg2) = W6 m ρ c (Proc.devRef .tc main_arg2)).symm.trans (W7_main_arg2 m ρ c)
theorem W6_arg10 (c : Dev nD) : W6 m ρ c (Proc.devRef .tc main_arg10) = m ((c : Thread nD τ).loc main_arg10) :=
  (by not_written hostOps3 : W7 m ρ c (Proc.devRef .tc main_arg10) = W6 m ρ c (Proc.devRef .tc main_arg10)).symm.trans (W7_main_arg10 m ρ c)
theorem W6_arg11 (c : Dev nD) : W6 m ρ c (Proc.devRef .tc main_arg11) = m ((c : Thread nD τ).loc main_arg11) :=
  (by not_written hostOps3 : W7 m ρ c (Proc.devRef .tc main_arg11) = W6 m ρ c (Proc.devRef .tc main_arg11)).symm.trans (W7_main_arg11 m ρ c)

/-- THE RESULT of the idealized kernel program: the shared readout of the first 10000 rows of the third layer. -/
theorem kernel_value (c : Dev nD) : W7 m ρ c (Proc.devRef .tc main_v45)
    = tailFn (F := Ideal)
        (extractStridedSlice S10000x256 ![0, 0] (H3 m c) slices_S10240x256_S10000x256_0_0)
        (m ((c : Thread nD τ).loc main_arg2)) (m ((c : Thread nD τ).loc main_arg10)) (m ((c : Thread nD τ).loc main_arg11)) := by
  show StableHlo.after hostOps3 (W6 m ρ c) (Proc.devRef .tc main_v45) = _
  rw [s3_v45, W6_v27_0, W6_arg2, W6_arg10, W6_arg11]

end Cert.KernelIdeal.Gen

end
-- ==== Proof.PreFacts.lean ====
/-
  What the precondition says, element by element. The precondition is one boolean: the conjunction, over every float
  argument, of "every entry's absolute value is below +∞", and of "every entry of the edge index array is ≥ 0 and
  < 10000". Over the extended reals `|v| < +∞` holds exactly of the real numbers, so every float entry is a real; the
  integer comparisons are signed comparisons of 32-bit words, so every edge index, read signed, lies in [0, 10000).
-/
import proofs.«403632_j30339648979124_3_alg».proof.Pre_finite_inputs
import proofs.«403632_j30339648979124_3_alg».proof.Proof.Spec
import Idealize.ShloMosaic.Lib.ReduceAll
import Idealize.ShloMosaic.Lib.StableHlo.Predicate
import Idealize.ShloMosaic.PureOps.Ideal

noncomputable section

namespace Cert.Gin

open Idealize.ShloMosaic Cert.Pre_finite_inputs

/-- The scalar shape has one index. -/
instance subsingleton_S_Idx : Subsingleton S_.Idx := ⟨fun a b => funext fun d => d.elim0⟩

/-- The f32 word 0x7F800000 denotes +∞. -/
theorem ofBits_inf : Ideal.ofBits .f32 0x7F800000#32 = (⊤ : EReal) := by
  simp [Ideal.ofBits, Ideal.ieee]

/-- An extended real whose absolute value max v (-v) is below +∞ is a real number. -/
theorem isRe_of_abs_lt_top (v : EReal) (h : max v (-v) < ⊤) : IsRe v := by
  induction v using EReal.rec with
  | bot => simp at h
  | coe r => exact ⟨r, rfl⟩
  | top => simp at h

/-- jnp.all(|a| < +∞) = 1 over any shape: every entry of a is a real number. -/
theorem all_finite {s : Shape} {axes : List (Fin s.rank)} (hb : S_.BroadcastsInDim s (![] : Fin 0 → Fin s.rank))
    (hr : s.ReducesTo axes S_) (hS : 0 < S_.numel) (a : FVec Ideal s .f32) (j : S_.Idx)
    (e : Host.reduce IntOp.andi (cmpf .olt (Host.absf a) (broadcastInDim s ![] hb (constant (F := Ideal) S_ .f32 0x7F800000#32)))
      (constantI S_ 1 1#1) hr hS j = 1#1) :
    ∀ i, IsRe (a i) := by
  intro i
  have h1 := Host.reduce_andi_all _ _ hr hS j e i
  simp only [cmpf, Host.absf, broadcastInDim, constant, Ideal.ofBits_def, Ideal.hostAbsf_def, Ideal.cmpf_def, Ideal.absf_def, ofBits_inf,
    Ideal.cmp, StableHlo.Predicate.ofBool_eq_one_iff, decide_eq_true_eq] at h1
  exact isRe_of_abs_lt_top _ h1

/-- jnp.all((a ≥ 0) & (a < 10000)) = 1 over any shape of 32-bit words: every entry, read signed, is in [0, 10000). -/
theorem all_in_range {s : Shape} {axes : List (Fin s.rank)} (hb : S_.BroadcastsInDim s (![] : Fin 0 → Fin s.rank))
    (hr : s.ReducesTo axes S_) (hS : 0 < S_.numel) (a : IVec s 32) (j : S_.Idx)
    (e : Host.reduce IntOp.andi (andi (cmpi .sge a (broadcastInDim s ![] hb (constantI S_ 32 0#32)))
        (cmpi .slt a (broadcastInDim s ![] hb (constantI S_ 32 10000#32)))) (constantI S_ 1 1#1) hr hS j = 1#1) :
    ∀ i, 0 ≤ (a i).toInt ∧ (a i).toInt < 10000 := by
  intro i
  have h1 := Host.reduce_andi_all _ _ hr hS j e i
  simp only [andi, cmpi, broadcastInDim, constantI, IntOp.andi_eq_one, IntOp.cmpi_sge, IntOp.cmpi_slt] at h1
  have z : (0#32 : BitVec 32).toInt = 0 := by decide
  have t : (10000#32 : BitVec 32).toInt = 10000 := by decide
  rw [z, t] at h1
  exact h1

/-- A conjunction of two scalar masks is 1 at an index exactly when both are. -/
theorem andi_apply_eq_one {s : Shape} (x y : IVec s 1) (j : s.Idx) : andi x y j = 1#1 ↔ x j = 1#1 ∧ y j = 1#1 :=
  IntOp.andi_eq_one

/-- The precondition, unpacked: the float arguments the layers use are real-valued and the edge indices are in range. -/
theorem pre_facts [Cert.Pre_finite_inputs.Facts]
    (a0 : FVec Ideal S10000x128 .f32) (a1 : IVec S2x640000 32) (a2 : IVec S10000 32) (a3 : FVec Ideal S640000 .f32)
    (a4 : FVec Ideal S256x128 .f32) (a5 : FVec Ideal S256 .f32) (a6 : FVec Ideal S256x256 .f32) (a7 : FVec Ideal S256 .f32)
    (a8 : FVec Ideal S256x256 .f32) (a9 : FVec Ideal S256 .f32) (a10 : FVec Ideal S10x256 .f32) (a11 : FVec Ideal S10 .f32)
    (h : Cert.Pre_finite_inputs.fn (F := Ideal) a0 a1 a2 a3 a4 a5 a6 a7 a8 a9 a10 a11 = fun _ => 1#1) :
    (∀ i, IsRe (a0 i)) ∧ (∀ i, IsRe (a3 i)) ∧ (∀ i, IsRe (a4 i)) ∧ (∀ i, IsRe (a5 i)) ∧ (∀ i, IsRe (a6 i))
    ∧ (∀ i, IsRe (a7 i)) ∧ (∀ i, IsRe (a8 i)) ∧ (∀ i, IsRe (a9 i))
    ∧ (∀ i, 0 ≤ (a1 i).toInt ∧ (a1 i).toInt < 10000) := by
  -- the one entry of the rank-0 result
  have e := congrFun h (fun d => d.elim0)
  dsimp only [fn, fn_part1, fn_part2, fn_part3] at e
  -- the result is the left-nested conjunction of the eleven reductions
  simp only [andi_apply_eq_one] at e
  obtain ⟨⟨⟨⟨⟨⟨⟨⟨⟨⟨h0, h3⟩, h4⟩, h5⟩, h6⟩, h7⟩, h8⟩, h9⟩, -⟩, -⟩, h1⟩ := e
  exact ⟨all_finite _ _ _ a0 _ h0, all_finite _ _ _ a3 _ h3, all_finite _ _ _ a4 _ h4, all_finite _ _ _ a5 _ h5,
    all_finite _ _ _ a6 _ h6, all_finite _ _ _ a7 _ h7, all_finite _ _ _ a8 _ h8, all_finite _ _ _ a9 _ h9,
    all_in_range _ _ _ a1 _ h1⟩

end Cert.Gin

end
-- ==== Proof.LibGatherRows.lean ====
/-
  A ROW GATHER READ AT AN INDEX. `stablehlo.gather` of a rank-2 operand `x : [N, C]` at a column of start indices
  `idx : [E, 1]` with offset_dims `[1]`, collapsed_slice_dims `[0]`, start_index_map `[0]`, index_vector_dim `1` and
  slice_sizes `[1, C]` — what `x[idx]` of a table of rows lowers to — has result `[E, C]`; its element `(e, j)` is the
  operand's element `(r, j)` where the row `r` is the start index `idx[e, 0]` read as a signed integer and clamped
  into `[0, N − 1]` (StableHLO clamps every start index so that the slice fits: here the slice is one whole row).
  General in the three sizes and in the element type.
-/
import Idealize.ShloMosaic.Lib.ValueIdx

noncomputable section

open scoped BigOperators

namespace Idealize.ShloMosaic.ValueIdx

open Idealize.ShloMosaic

section RowsGather
variable {α : Type}

/-- The dimension numbers of a gather of whole rows: operand `[N, C]`, start indices `[E, 1]`, result `[E, C]`;
    the result's axis 1 is the offset axis (it runs over a row), the operand's axis 0 is collapsed and is the one
    the start index addresses, the index vector lies along the start indices' axis 1, and a slice is `1 × C`.
    The conditions `wf` are decided (or assumed) on a program's literal shapes. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: the operand at row `idx[e, 0]` — read signed, clamped into `[0, N − 1]` — and
    column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowsDims N E C wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ =>
    -- the row: the clamped start; no batching coordinate, and no offset coordinate on a collapsed axis
    show (rowsDims N E C wf).start (ix2 e j) idx 0 + (rowsDims N E C wf).batchCoord (ix2 e j) 0
        + (rowsDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e j) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column: the start index map does not name this axis, so the start is 0; the offset coordinate is `j`
    show (rowsDims N E C wf).start (ix2 e j) idx 1 + (rowsDims N E C wf).batchCoord (ix2 e j) 1
        + (rowsDims N E C wf).offCoord (ix2 e j) 1 = j.val
    have h1 : (1 : Fin 2) ∉ (rowsDims N E C wf).startIndexMap := by
      intro h; exact Nat.one_ne_zero (congrArg Fin.val (List.mem_singleton.mp h))
    have hk : (1 : Fin 2) ∈ (rowsDims N E C wf).sKept :=
      (GatherDims.mem_sKept _ _).mpr
        ⟨fun h => Nat.one_ne_zero (congrArg Fin.val (List.mem_singleton.mp h)), List.not_mem_nil⟩
    rw [GatherDims.batchCoord_eq_zero _ _ _ List.not_mem_nil]
    unfold GatherDims.start GatherDims.offCoord
    rw [dif_neg h1, dif_pos hk]
    simp only [Nat.add_zero, Nat.zero_add]
    rfl

end RowsGather

end Idealize.ShloMosaic.ValueIdx

end
-- ==== Proof.RefValue.lean ====
/-
  The reference program, read layer by layer. Each of its three layers gathers the source rows of the current
  features, scales row `e` by the edge weight `w e`, accumulates the rows by target node, adds the features
  themselves (times the literal 1), multiplies by the transposed weights, adds the bias and takes the maximum with 0:
  under the range hypothesis on the edge indices this is `refLayer` of the current features. After the third layer
  comes the shared readout.
-/
import proofs.«403632_j30339648979124_3_alg».proof.Proof.Gen.ReferenceIdeal.Read
import proofs.«403632_j30339648979124_3_alg».proof.Proof.Spec
import proofs.«403632_j30339648979124_3_alg».proof.Proof.Tail
import proofs.«403632_j30339648979124_3_alg».proof.Proof.LibGatherRows
import proofs.«403632_j30339648979124_3_alg».proof.Proof.LibScatterRows
import Idealize.ShloMosaic.Lib.IdealHost
import Idealize.ShloMosaic.Lib.StableHlo.Predicate

noncomputable section

namespace Cert.ReferenceIdeal.GinRef

open Idealize.ShloMosaic Idealize.ShloMosaic.ValueIdx
open Cert.ReferenceIdeal Cert.ReferenceIdeal.Read Cert.Gin

variable [Cert.ReferenceIdeal.Facts] [Cert.KernelIdeal.Facts₀]

variable (x0 : FVec Ideal S10000x128 .f32) (x1 : IVec S2x640000 32) (x2 : IVec S10000 32) (x3 : FVec Ideal S640000 .f32)
  (x4 : FVec Ideal S256x128 .f32) (x5 : FVec Ideal S256 .f32) (x6 : FVec Ideal S256x256 .f32) (x7 : FVec Ideal S256 .f32)
  (x8 : FVec Ideal S256x256 .f32) (x9 : FVec Ideal S256 .f32) (x10 : FVec Ideal S10x256 .f32) (x11 : FVec Ideal S10 .f32)
  (hr : ∀ i, 0 ≤ (x1 i).toInt ∧ (x1 i).toInt < ((10000 : Nat) : ℤ))

/-- The edge weights as a function of the edge number. -/
abbrev wOf (x3 : FVec Ideal S640000 .f32) : Fin 640000 → EReal := fun e => x3 (ix1 e)

/-- A non-negative word is not below zero, so the wrap-around select keeps it. -/
theorem select_nonneg (a : BitVec 32) (ha : 0 ≤ a.toInt) :
    Scalar.select (IntOp.cmpi .slt a 0#32) (IntOp.addi a 10000#32) a = a := by
  unfold Scalar.select
  rw [if_neg]
  unfold IntOp.cmpi
  intro h
  have h' := (StableHlo.Predicate.ofBool_eq_one_iff _).mp h
  simp only [BitVec.slt, decide_eq_true_eq] at h'
  have h0 : (0#32 : BitVec 32).toInt = 0 := by decide
  omega

/-- The source column's entry `e` is row 0 of the edge array at `e`. -/
theorem src_idx (e : Fin 640000) :
    idx_main_v0 (idx_main_v1 (idx_main_v10 (ix2 e (0 : Fin 1)))) = ix2 (0 : Fin 2) e := by
  funext a; refine Fin.ext ?_
  match a with
  | ⟨0, _⟩ => rfl
  | ⟨1, _⟩ => exact Nat.mod_eq_of_lt e.isLt

/-- The target column's entry `e` is row 1 of the edge array at `e`. -/
theorem tgt_idx (e : Fin 640000) :
    idx_main_v2 (idx_main_v3 (idx_main_v15 (ix2 e (0 : Fin 1)))) = ix2 (1 : Fin 2) e := by
  funext a; refine Fin.ext ?_
  match a with
  | ⟨0, _⟩ => rfl
  | ⟨1, _⟩ => exact Nat.mod_eq_of_lt e.isLt

/-- The gather's clamped start row for edge `e` is its source node. -/
theorem sel_row (e : Fin 640000) :
    min (val_main_v10 (F := Ideal) x1 (ix2 e (0 : Fin 1))).toInt.toNat (10000 - 1) = (edgeRow x1 hr 0 e).val := by
  rw [val_main_v10_apply, val_main_v9_apply, val_main_v6_apply, val_main_v8_apply, val_main_v5_apply, val_main_v7_apply,
    val_main_c_apply, val_main_c_0_apply, val_main_v1_apply, val_main_v0_apply, src_idx]
  have h := hr (ix2 (0 : Fin 2) e)
  rw [select_nonneg _ h.1]
  show min (x1 (ix2 (0 : Fin 2) e)).toInt.toNat (10000 - 1) = (x1 (ix2 (0 : Fin 2) e)).toInt.toNat
  omega

/-- The scatter's row test for edge `e` says its target node is `i`. -/
theorem tgt_row (e : Fin 640000) (i : Fin 10000) :
    (val_main_v15 (F := Ideal) x1 (ix2 e (0 : Fin 1))).toInt = (i.val : ℤ) ↔ edgeRow x1 hr 1 e = i := by
  rw [val_main_v15_apply, val_main_v3_apply, val_main_v2_apply, tgt_idx]
  have h := hr (ix2 (1 : Fin 2) e)
  constructor
  · intro h1
    refine Fin.ext ?_
    show (x1 (ix2 (1 : Fin 2) e)).toInt.toNat = i.val
    omega
  · intro h1
    have h2 : (x1 (ix2 (1 : Fin 2) e)).toInt.toNat = i.val := congrArg Fin.val h1
    omega

/-- THE AGGREGATE, READ OFF THE PROGRAM: the accumulating scatter by target of the weight times the gathered source
    row, into zeros, is the neighbourhood aggregate of the features, at any width. -/
theorem agg_read {C : Nat}
    (wfg : GatherDims.WF ⟨2, ![10000, C]⟩ ⟨2, ![640000, 1]⟩ ⟨2, ![640000, C]⟩ [1] [0] [] [0] [] 1 ![1, C])
    (wfs : ScatterDims.WF ⟨2, ![10000, C]⟩ ⟨2, ![640000, 1]⟩ ⟨2, ![640000, C]⟩ [1] [0] [0] 1)
    (x z : FVec Ideal ⟨2, ![10000, C]⟩ .f32) (hz : ∀ j, z j = 0)
    (wb : FVec Ideal ⟨2, ![640000, C]⟩ .f32) (hwb : ∀ e f, wb (ix2 e f) = x3 (ix1 e))
    (i : Fin 10000) (f : Fin C) :
    Host.scatterAdd (F := Ideal) (rowsScatterDims 10000 640000 C wfs) z (val_main_v15 (F := Ideal) x1)
        (mulf wb (Host.gather (rowsDims 10000 640000 C wfg) x (val_main_v10 (F := Ideal) x1))) (ix2 i f)
      = agg (edgeRow x1 hr 0) (edgeRow x1 hr 1) (wOf x3) x i f := by
  rw [scatterAdd_rows_apply, hz, zero_add]
  unfold agg
  have hf : (Finset.univ.filter (fun e : Fin 640000 => (val_main_v15 (F := Ideal) x1 (ix2 e (0 : Fin 1))).toInt = (i.val : ℤ)))
      = Finset.univ.filter (fun e => edgeRow x1 hr 1 e = i) := by
    ext e
    simp only [Finset.mem_filter, Finset.mem_univ, true_and]
    exact tgt_row x1 hr e i
  rw [hf]
  refine Finset.sum_congr rfl (fun e _ => ?_)
  show FloatOps.mulf (wb (ix2 e f)) (Host.gather (rowsDims 10000 640000 C wfg) x (val_main_v10 (F := Ideal) x1) (ix2 e f)) = _
  rw [hwb, gather_rows_apply (by decide), Ideal.mulf_def]
  show x3 (ix1 e) * x (ix2 ⟨min (val_main_v10 (F := Ideal) x1 (ix2 e (0 : Fin 1))).toInt.toNat (10000 - 1), _⟩ f)
    = x3 (ix1 e) * x (ix2 (edgeRow x1 hr 0 e) f)
  congr 3
  exact Fin.ext (sel_row x1 hr e)

/-- The first layer's accumulated rows are the aggregate of the input features. -/
theorem scatter1 (i : Fin 10000) (f : Fin 128) :
    val_main_v16 (F := Ideal) x0 x1 x3 (ix2 i f) = agg (edgeRow x1 hr 0) (edgeRow x1 hr 1) (wOf x3) x0 i f :=
  agg_read x1 x3 hr _ _ x0 (val_main_v14 (F := Ideal))
    (fun j => by rw [val_main_v14_apply, val_main_cst_apply, Ideal.ofBits_def, Ideal.ofBits_zero_f32])
    (val_main_v12 (F := Ideal) x3)
    (fun e f => by
      rw [val_main_v12_apply, val_main_v4_apply]
      congr 1
      funext a
      match a with
      | ⟨0, _⟩ => rfl) i f

/-- The second layer's accumulated rows are the aggregate of the first layer's output. -/
theorem scatter2 (i : Fin 10000) (f : Fin 256) :
    val_main_v42 (F := Ideal) x0 x1 x3 x4 x5 (ix2 i f) = agg (edgeRow x1 hr 0) (edgeRow x1 hr 1) (wOf x3) (val_main_v25 (F := Ideal) x0 x1 x3 x4 x5) i f :=
  agg_read x1 x3 hr _ _ (val_main_v25 (F := Ideal) x0 x1 x3 x4 x5) (val_main_v40 (F := Ideal))
    (fun j => by rw [val_main_v40_apply, val_main_cst_4_apply, Ideal.ofBits_def, Ideal.ofBits_zero_f32])
    (val_main_v38 (F := Ideal) x3)
    (fun e f => by
      rw [val_main_v38_apply, val_main_v30_apply]
      congr 1
      funext a
      match a with
      | ⟨0, _⟩ => rfl) i f

/-- The third layer's accumulated rows are the aggregate of the second layer's output. -/
theorem scatter3 (i : Fin 10000) (f : Fin 256) :
    val_main_v68 (F := Ideal) x0 x1 x3 x4 x5 x6 x7 (ix2 i f) = agg (edgeRow x1 hr 0) (edgeRow x1 hr 1) (wOf x3) (val_main_v51 (F := Ideal) x0 x1 x3 x4 x5 x6 x7) i f :=
  agg_read x1 x3 hr _ _ (val_main_v51 (F := Ideal) x0 x1 x3 x4 x5 x6 x7) (val_main_v66 (F := Ideal))
    (fun j => by rw [val_main_v66_apply, val_main_cst_8_apply, Ideal.ofBits_def, Ideal.ofBits_zero_f32])
    (val_main_v64 (F := Ideal) x3)
    (fun e f => by
      rw [val_main_v64_apply, val_main_v56_apply]
      congr 1
      funext a
      match a with
      | ⟨0, _⟩ => rfl) i f

/-- The first layer's output. -/
theorem layer1 : val_main_v25 (F := Ideal) x0 x1 x3 x4 x5
    = refLayer (edgeRow x1 hr 0) (edgeRow x1 hr 1) (wOf x3) x0 x4 x5 := by
  funext j
  obtain ⟨i, o, rfl⟩ : ∃ (i : Fin 10000) (o : Fin 256), j = ix2 i o := ⟨j 0, j 1, eq_ix2 j⟩
  have e1 : ∀ k : Fin 128, lidx_main_v21 (ix2 i o) k = ix2 i k := fun k =>
    funext fun a => Fin.ext (by match a with | ⟨0, _⟩ => rfl | ⟨1, _⟩ => rfl)
  have e2 : ∀ k : Fin 128, idx_main_v20 (ridx_main_v21 (ix2 i o) k) = ix2 o k := fun k =>
    funext fun a => Fin.ext (by match a with | ⟨0, _⟩ => rfl | ⟨1, _⟩ => rfl)
  have e3 : idx_main_v22 (idx_main_v23 (ix2 i o)) = ix1 o :=
    funext fun a => Fin.ext (by match a with | ⟨0, _⟩ => rfl)
  rw [val_main_v25_apply, val_main_v24_apply, val_main_v21_apply, val_main_v23_apply, val_main_v22_apply, e3,
    val_main_call0_v0_apply, val_main_call0_cst_apply]
  simp only [Ideal.maximumf_def, Ideal.addf_def, Ideal.ofBits_def, Ideal.ofBits_zero_f32]
  show _ = max ((∑ f : Fin 128, (agg (edgeRow x1 hr 0) (edgeRow x1 hr 1) (wOf x3) x0 i f + x0 (ix2 i f))
    * x4 (ix2 o f)) + x5 (ix1 o)) 0
  refine congrArg (fun t => max (t + x5 (ix1 o)) 0) ?_
  refine Finset.sum_congr rfl (fun k _ => ?_)
  rw [e1, val_main_v20_apply, e2, val_main_v19_apply, val_main_v18_apply, val_main_v17_apply, val_main_cst_1_apply,
    scatter1 x0 x1 x3 hr i k]
  simp only [Ideal.mulf_def, Ideal.addf_def, Ideal.ofBits_def, Ideal.ofBits_one_f32, one_mul]

/-- The second layer's output, over the first's. -/
theorem layer2 : val_main_v51 (F := Ideal) x0 x1 x3 x4 x5 x6 x7
    = refLayer (edgeRow x1 hr 0) (edgeRow x1 hr 1) (wOf x3) (val_main_v25 (F := Ideal) x0 x1 x3 x4 x5) x6 x7 := by
  funext j
  obtain ⟨i, o, rfl⟩ : ∃ (i : Fin 10000) (o : Fin 256), j = ix2 i o := ⟨j 0, j 1, eq_ix2 j⟩
  have e1 : ∀ k : Fin 256, lidx_main_v47 (ix2 i o) k = ix2 i k := fun k =>
    funext fun a => Fin.ext (by match a with | ⟨0, _⟩ => rfl | ⟨1, _⟩ => rfl)
  have e2 : ∀ k : Fin 256, idx_main_v46 (ridx_main_v47 (ix2 i o) k) = ix2 o k := fun k =>
    funext fun a => Fin.ext (by match a with | ⟨0, _⟩ => rfl | ⟨1, _⟩ => rfl)
  have e3 : idx_main_v48 (idx_main_v49 (ix2 i o)) = ix1 o :=
    funext fun a => Fin.ext (by match a with | ⟨0, _⟩ => rfl)
  rw [val_main_v51_apply, val_main_v50_apply, val_main_v47_apply, val_main_v49_apply, val_main_v48_apply, e3,
    val_main_call1_v0_apply, val_main_call1_cst_apply]
  simp only [Ideal.maximumf_def, Ideal.addf_def, Ideal.ofBits_def, Ideal.ofBits_zero_f32]
  show _ = max ((∑ f : Fin 256, (agg (edgeRow x1 hr 0) (edgeRow x1 hr 1) (wOf x3) (val_main_v25 (F := Ideal) x0 x1 x3 x4 x5) i f + (val_main_v25 (F := Ideal) x0 x1 x3 x4 x5) (ix2 i f))
    * x6 (ix2 o f)) + x7 (ix1 o)) 0
  refine congrArg (fun t => max (t + x7 (ix1 o)) 0) ?_
  refine Finset.sum_congr rfl (fun k _ => ?_)
  rw [e1, val_main_v46_apply, e2, val_main_v45_apply, val_main_v44_apply, val_main_v43_apply, val_main_cst_5_apply,
    scatter2 x0 x1 x3 x4 x5 hr i k]
  simp only [Ideal.mulf_def, Ideal.addf_def, Ideal.ofBits_def, Ideal.ofBits_one_f32, one_mul]

/-- The third layer's output, over the second's. -/
theorem layer3 : val_main_v77 (F := Ideal) x0 x1 x3 x4 x5 x6 x7 x8 x9
    = refLayer (edgeRow x1 hr 0) (edgeRow x1 hr 1) (wOf x3) (val_main_v51 (F := Ideal) x0 x1 x3 x4 x5 x6 x7) x8 x9 := by
  funext j
  obtain ⟨i, o, rfl⟩ : ∃ (i : Fin 10000) (o : Fin 256), j = ix2 i o := ⟨j 0, j 1, eq_ix2 j⟩
  have e1 : ∀ k : Fin 256, lidx_main_v73 (ix2 i o) k = ix2 i k := fun k =>
    funext fun a => Fin.ext (by match a with | ⟨0, _⟩ => rfl | ⟨1, _⟩ => rfl)
  have e2 : ∀ k : Fin 256, idx_main_v72 (ridx_main_v73 (ix2 i o) k) = ix2 o k := fun k =>
    funext fun a => Fin.ext (by match a with | ⟨0, _⟩ => rfl | ⟨1, _⟩ => rfl)
  have e3 : idx_main_v74 (idx_main_v75 (ix2 i o)) = ix1 o :=
    funext fun a => Fin.ext (by match a with | ⟨0, _⟩ => rfl)
  rw [val_main_v77_apply, val_main_v76_apply, val_main_v73_apply, val_main_v75_apply, val_main_v74_apply, e3,
    val_main_call2_v0_apply, val_main_call2_cst_apply]
  simp only [Ideal.maximumf_def, Ideal.addf_def, Ideal.ofBits_def, Ideal.ofBits_zero_f32]
  show _ = max ((∑ f : Fin 256, (agg (edgeRow x1 hr 0) (edgeRow x1 hr 1) (wOf x3) (val_main_v51 (F := Ideal) x0 x1 x3 x4 x5 x6 x7) i f + (val_main_v51 (F := Ideal) x0 x1 x3 x4 x5 x6 x7) (ix2 i f))
    * x8 (ix2 o f)) + x9 (ix1 o)) 0
  refine congrArg (fun t => max (t + x9 (ix1 o)) 0) ?_
  refine Finset.sum_congr rfl (fun k _ => ?_)
  rw [e1, val_main_v72_apply, e2, val_main_v71_apply, val_main_v70_apply, val_main_v69_apply, val_main_cst_9_apply,
    scatter3 x0 x1 x3 x4 x5 x6 x7 hr i k]
  simp only [Ideal.mulf_def, Ideal.addf_def, Ideal.ofBits_def, Ideal.ofBits_one_f32, one_mul]

/-- The result is the shared readout of the third layer's output. -/
theorem result_tail : val_main_v94 (F := Ideal) x0 x1 x2 x3 x4 x5 x6 x7 x8 x9 x10 x11
    = Cert.KernelIdeal.tailFn (F := Ideal) (val_main_v77 (F := Ideal) x0 x1 x3 x4 x5 x6 x7 x8 x9) x2 x10 x11 := by
  rfl

end Cert.ReferenceIdeal.GinRef

end
-- ==== Proof.Bridge.lean ====
/-
  The two programs compute the same node features, layer by layer.

  Under the precondition every float argument is real-valued and every edge index lies in [0, 10000). Then the dense
  edge-weight matrix is the matrix of summed weights per (target, source) pair and is real, the padded features are
  real and restrict to the features, and by induction over the three layers the dense layer's rows below 10000 are the
  edge-by-edge layer's rows (the layers agree when the current features are real, and a dense layer of real inputs
  is real). The first 10000 rows of the third dense layer are therefore the reference's third layer, and the shared
  readout of equal features is equal.
-/
import proofs.«403632_j30339648979124_3_alg».proof.Proof.Spec
import proofs.«403632_j30339648979124_3_alg».proof.Proof.PreFacts
import proofs.«403632_j30339648979124_3_alg».proof.Proof.KHostVals
import proofs.«403632_j30339648979124_3_alg».proof.Proof.RefValue
import proofs.«403632_j30339648979124_3_alg».proof.Proof.Tail

noncomputable section

namespace Cert.Gin.Bridge

open Idealize.ShloMosaic Idealize.ShloMosaic.ValueIdx
open Cert.Gin Cert.KernelIdeal Cert.KernelIdeal.GinHost Cert.ReferenceIdeal.GinRef
open Cert.KernelIdeal.Facts₀

variable [Cert.KernelIdeal.Facts₀] [Cert.ReferenceIdeal.Facts] [Cert.Pre_finite_inputs.Facts]

variable (x0 : FVec Ideal S10000x128 .f32) (x1 : IVec S2x640000 32) (x2 : IVec S10000 32) (x3 : FVec Ideal S640000 .f32)
  (x4 : FVec Ideal S256x128 .f32) (x5 : FVec Ideal S256 .f32) (x6 : FVec Ideal S256x256 .f32) (x7 : FVec Ideal S256 .f32)
  (x8 : FVec Ideal S256x256 .f32) (x9 : FVec Ideal S256 .f32) (x10 : FVec Ideal S10x256 .f32) (x11 : FVec Ideal S10 .f32)

/-- The three dense layers over the padded node range, of the arguments. -/
def K1 : Mat 10240 256 :=
  kerLayer (denseOf x1 x3) (padOf x0) (padOf x0) (transpose S128x256 [1, 0] x4 transposes_S256x128_S128x256_1_0)
    (shapeCast S1x256 x5 shapeCasts_S256_S1x256)
def K2 : Mat 10240 256 :=
  kerLayer (denseOf x1 x3) (K1 x0 x1 x3 x4 x5) (K1 x0 x1 x3 x4 x5) (transpose S256x256 [1, 0] x6 transposes_S256x256_S256x256_1_0)
    (shapeCast S1x256 x7 shapeCasts_S256_S1x256)
def K3 : Mat 10240 256 :=
  kerLayer (denseOf x1 x3) (K2 x0 x1 x3 x4 x5 x6 x7) (K2 x0 x1 x3 x4 x5 x6 x7)
    (transpose S256x256 [1, 0] x8 transposes_S256x256_S256x256_1_0) (shapeCast S1x256 x9 shapeCasts_S256_S1x256)

/-- A bias row of real entries is real. -/
theorem bias_isRe (b : FVec Ideal S256 .f32) (hb : ∀ i, IsRe (b i)) (j : S1x256.Idx) :
    IsRe (shapeCast S1x256 b shapeCasts_S256_S1x256 j) := by
  obtain ⟨z, q, rfl⟩ : ∃ (z : Fin 1) (q : Fin 256), j = ix2 z q := ⟨j 0, j 1, eq_ix2 j⟩
  obtain rfl : z = 0 := Subsingleton.elim _ _
  rw [bias_row]; exact hb _

/-- THE FEATURES AGREE: the first 10000 rows of the third dense layer are the reference's third layer. -/
theorem features_agree
    (hpre : Cert.Pre_finite_inputs.fn (F := Ideal) x0 x1 x2 x3 x4 x5 x6 x7 x8 x9 x10 x11 = fun _ => 1#1) :
    extractStridedSlice S10000x256 ![0, 0] (K3 x0 x1 x3 x4 x5 x6 x7 x8 x9) slices_S10240x256_S10000x256_0_0
      = Cert.ReferenceIdeal.Read.val_main_v77 (F := Ideal) x0 x1 x3 x4 x5 x6 x7 x8 x9 := by
  obtain ⟨h0, h3, h4, h5, h6, h7, h8, h9, hr0⟩ := pre_facts x0 x1 x2 x3 x4 x5 x6 x7 x8 x9 x10 x11 hpre
  have hr : ∀ i, 0 ≤ (x1 i).toInt ∧ (x1 i).toInt < ((10000 : Nat) : ℤ) := fun i => ⟨(hr0 i).1, by have := (hr0 i).2; omega⟩
  have hw : ∀ e, IsRe (wOf x3 e) := fun e => h3 _
  have hS : ∀ i k : Fin 10240, denseOf x1 x3 (ix2 i k)
      = ∑ e ∈ Finset.univ.filter (fun e => (edgeRow x1 hr 1 e).val = i.val ∧ (edgeRow x1 hr 0 e).val = k.val), wOf x3 e :=
    fun i k => denseOf_apply x1 x3 hr i k
  have hD : ∀ j, IsRe (denseOf x1 x3 j) := fun j => by
    obtain ⟨i, k, rfl⟩ : ∃ (i k : Fin 10240), j = ix2 i k := ⟨j 0, j 1, eq_ix2 j⟩
    rw [hS]; exact dense_isRe (edgeRow x1 hr 0) (edgeRow x1 hr 1) (wOf x3) hw _ _
  have hP : ∀ j, IsRe (padOf x0 j) := padOf_isRe x0 h0
  have hT4 : ∀ j, IsRe (transpose S128x256 [1, 0] x4 transposes_S256x128_S128x256_1_0 j) := fun j => by
    obtain ⟨f, o, rfl⟩ : ∃ (f : Fin 128) (o : Fin 256), j = ix2 f o := ⟨j 0, j 1, eq_ix2 j⟩
    rw [transpose_W1]; exact h4 _
  have hT6 : ∀ j, IsRe (transpose S256x256 [1, 0] x6 transposes_S256x256_S256x256_1_0 j) := fun j => by
    obtain ⟨f, o, rfl⟩ : ∃ (f o : Fin 256), j = ix2 f o := ⟨j 0, j 1, eq_ix2 j⟩
    rw [transpose_W]; exact h6 _
  -- layer 1
  have a1 : ∀ (i : Fin 10000) (o : Fin 256), K1 x0 x1 x3 x4 x5 (ix2 ⟨i.val, by omega⟩ o)
      = Cert.ReferenceIdeal.Read.val_main_v25 (F := Ideal) x0 x1 x3 x4 x5 (ix2 i o) := fun i o => by
    rw [layer1 x0 x1 x3 x4 x5 hr]
    exact kerLayer_eq_refLayer (by decide) (edgeRow x1 hr 0) (edgeRow x1 hr 1) (wOf x3) hw (denseOf x1 x3) hS (padOf x0) hP x0
      (fun i f => padOf_apply x0 i f) _ x4 (fun f o => transpose_W1 x4 f o) _ x5 (fun o => bias_row x5 o) i o
  have r1 : ∀ j, IsRe (K1 x0 x1 x3 x4 x5 j) := fun j =>
    kerLayer_isRe _ _ _ _ _ hD hP hP hT4 (bias_isRe x5 h5) j
  -- layer 2
  have a2 : ∀ (i : Fin 10000) (o : Fin 256), K2 x0 x1 x3 x4 x5 x6 x7 (ix2 ⟨i.val, by omega⟩ o)
      = Cert.ReferenceIdeal.Read.val_main_v51 (F := Ideal) x0 x1 x3 x4 x5 x6 x7 (ix2 i o) := fun i o => by
    rw [layer2 x0 x1 x3 x4 x5 x6 x7 hr]
    exact kerLayer_eq_refLayer (by decide) (edgeRow x1 hr 0) (edgeRow x1 hr 1) (wOf x3) hw (denseOf x1 x3) hS (K1 x0 x1 x3 x4 x5) r1 _
      a1 _ x6 (fun f o => transpose_W x6 f o) _ x7 (fun o => bias_row x7 o) i o
  have r2 : ∀ j, IsRe (K2 x0 x1 x3 x4 x5 x6 x7 j) := fun j =>
    kerLayer_isRe _ _ _ _ _ hD r1 r1 hT6 (bias_isRe x7 h7) j
  -- layer 3
  funext j
  obtain ⟨i, o, rfl⟩ : ∃ (i : Fin 10000) (o : Fin 256), j = ix2 i o := ⟨j 0, j 1, eq_ix2 j⟩
  rw [slice_rows, layer3 x0 x1 x3 x4 x5 x6 x7 x8 x9 hr]
  exact kerLayer_eq_refLayer (by decide) (edgeRow x1 hr 0) (edgeRow x1 hr 1) (wOf x3) hw (denseOf x1 x3) hS (K2 x0 x1 x3 x4 x5 x6 x7) r2 _
    a2 _ x8 (fun f o => transpose_W x8 f o) _ x9 (fun o => bias_row x9 o) i o

/-- THE RESULTS AGREE: the kernel program's result term is the reference's. -/
theorem results_agree
    (hpre : Cert.Pre_finite_inputs.fn (F := Ideal) x0 x1 x2 x3 x4 x5 x6 x7 x8 x9 x10 x11 = fun _ => 1#1) :
    tailFn (F := Ideal)
        (extractStridedSlice S10000x256 ![0, 0] (K3 x0 x1 x3 x4 x5 x6 x7 x8 x9) slices_S10240x256_S10000x256_0_0) x2 x10 x11
      = Cert.ReferenceIdeal.Read.val_main_v94 (F := Ideal) x0 x1 x2 x3 x4 x5 x6 x7 x8 x9 x10 x11 := by
  rw [features_agree x0 x1 x2 x3 x4 x5 x6 x7 x8 x9 x10 x11 hpre]
  exact (result_tail x0 x1 x2 x3 x4 x5 x6 x7 x8 x9 x10 x11).symm

end Cert.Gin.Bridge

end
-- ==== Proof.lean ====
/-
  The certificate: a three-layer weighted graph network followed by mean pooling and a linear readout, computed by a
  program that multiplies by a dense edge-weight matrix inside three tiled calls, against a reference that gathers,
  scales and scatters edge by edge.

  The statement's precondition: every float argument is finite and every entry of the edge index array lies in
  [0, 10000), the range of the node arrays it indexes (outside it the reference's own gather and scatter index out of
  range). Under it the two idealized programs end with equal results: the dense matrix holds the summed weights per
  (target, source) pair, so its product with real-valued features is the edge-by-edge aggregate (the product distributes
  over sums of reals), layer by layer on the rows below 10000; the rows above never reach them; and both programs apply
  the same readout to the rows below 10000. The three frame claims are the generated frame runs; the idealization
  rewrote nothing.
-/
import proofs.«403632_j30339648979124_3_alg».proof.Defs
import proofs.«403632_j30339648979124_3_alg».proof.Proof.Gen.Kernel
import proofs.«403632_j30339648979124_3_alg».proof.Proof.Gen.Kernel.Skeleton
import proofs.«403632_j30339648979124_3_alg».proof.Proof.Gen.Kernel.Launch
import proofs.«403632_j30339648979124_3_alg».proof.Proof.Gen.Kernel.Points
import proofs.«403632_j30339648979124_3_alg».proof.Proof.Gen.Kernel.Frame
import proofs.«403632_j30339648979124_3_alg».proof.Proof.Gen.KernelIdeal
import proofs.«403632_j30339648979124_3_alg».proof.Proof.Gen.KernelIdeal.Skeleton
import proofs.«403632_j30339648979124_3_alg».proof.Proof.Gen.KernelIdeal.Launch
import proofs.«403632_j30339648979124_3_alg».proof.Proof.Gen.KernelIdeal.Points
import proofs.«403632_j30339648979124_3_alg».proof.Proof.Gen.KernelIdeal.Frame
import proofs.«403632_j30339648979124_3_alg».proof.Proof.Gen.ReferenceIdeal
import proofs.«403632_j30339648979124_3_alg».proof.Proof.Gen.ReferenceIdeal.Run
import proofs.«403632_j30339648979124_3_alg».proof.Proof.Gen.ReferenceIdeal.Read
import proofs.«403632_j30339648979124_3_alg».proof.Proof.Gen.Pre_finite_inputs
import proofs.«403632_j30339648979124_3_alg».proof.Proof.KRun
import proofs.«403632_j30339648979124_3_alg».proof.Proof.KHost
import proofs.«403632_j30339648979124_3_alg».proof.Proof.Bridge
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the same result: the kernel program's run names its result array, which is the
    shared readout of the dense layers' rows below 10000; the reference's run ends at its composed term; under the
    precondition the two are one function of the (agreeing) arguments. -/
theorem algebraic : Cert.algebraic_KernelIdeal_ReferenceIdeal := by
  intro m ρ m' ρ' hpre hagree
  refine ⟨fun c => Cert.KernelIdeal.Gen.W7 m ρ c (Proc.devRef .tc Cert.KernelIdeal.main_v45),
    Cert.KernelIdeal.Gen.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v94_eq, e0, e1, e2, e3, e4, e5, e6, e7, e8, e9, e10, e11]
  show _ = Cert.KernelIdeal.Gen.W7 m ρ c (Proc.devRef .tc Cert.KernelIdeal.main_v45)
  rw [Cert.KernelIdeal.Gen.kernel_value]
  exact (Cert.Gin.Bridge.results_agree _ _ _ _ _ _ _ _ _ _ _ _ (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
